-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S9 : Shape := ⟨1, ![9]⟩
abbrev S2048x9x40 : Shape := ⟨3, ![2048, 9, 40]⟩
abbrev S2048x40x80 : Shape := ⟨3, ![2048, 40, 80]⟩
abbrev S2048x80x160 : Shape := ⟨3, ![2048, 80, 160]⟩
abbrev S2048x9x9 : Shape := ⟨3, ![2048, 9, 9]⟩
abbrev S_ : Shape := ⟨0, ![]⟩

class Facts : Prop where
  bcast_S_S2048x9x40 : S_.BroadcastsInDim S2048x9x40 (![] : Fin 0 → Fin S2048x9x40.rank)
  reducesTo_S2048x9x40_S_d0_1_2 : S2048x9x40.ReducesTo [0, 1, 2] S_
  h_S_ : 0 < S_.numel
  bcast_S_S2048x40x80 : S_.BroadcastsInDim S2048x40x80 (![] : Fin 0 → Fin S2048x40x80.rank)
  reducesTo_S2048x40x80_S_d0_1_2 : S2048x40x80.ReducesTo [0, 1, 2] S_
  bcast_S_S2048x80x160 : S_.BroadcastsInDim S2048x80x160 (![] : Fin 0 → Fin S2048x80x160.rank)
  reducesTo_S2048x80x160_S_d0_1_2 : S2048x80x160.ReducesTo [0, 1, 2] S_
  bcast_S_S2048x9x9 : S_.BroadcastsInDim S2048x9x9 (![] : Fin 0 → Fin S2048x9x9.rank)
  reducesTo_S2048x9x9_S_d0_1_2 : S2048x9x9.ReducesTo [0, 1, 2] S_
  bcast_S_S9 : S_.BroadcastsInDim S9 (![] : Fin 0 → Fin S9.rank)
  reducesTo_S9_S_d0 : S9.ReducesTo [0] S_

variable [Facts]

def fn_part1 {F : FTy → Type} [FloatOps F] (main_arg0 : IVec S9 32) (main_v13 : IVec S_ 1) (main_v16 : IVec S2048x9x9 1) : IVec S_ 1 :=
  let main_c_5 : IVec S_ 1 := constantI S_ 1 1#1
  let main_v17 : IVec S_ 1 := (fun x v => Host.reduce IntOp.andi x v reducesTo_S2048x9x9_S_d0_1_2 h_S_) main_v16 main_c_5
  let main_v18 : IVec S_ 1 := andi main_v13 main_v17
  let main_c_6 : IVec S_ 32 := constantI S_ 32 0#32
  let main_v19 : IVec S9 32 := broadcastInDim S9 ![] bcast_S_S9 main_c_6
  let main_v20 : IVec S9 1 := cmpi .sge main_arg0 main_v19
  let main_c_7 : IVec S_ 32 := constantI S_ 32 9#32
  let main_v21 : IVec S9 32 := broadcastInDim S9 ![] bcast_S_S9 main_c_7
  let main_v22 : IVec S9 1 := cmpi .slt main_arg0 main_v21
  let main_v23 : IVec S9 1 := andi main_v20 main_v22
  let main_c_8 : IVec S_ 1 := constantI S_ 1 1#1
  let main_v24 : IVec S_ 1 := (fun x v => Host.reduce IntOp.andi x v reducesTo_S9_S_d0 h_S_) main_v23 main_c_8
  let main_v25 : IVec S_ 1 := andi main_v18 main_v24
  main_v25

def fn {F : FTy → Type} [FloatOps F] (main_arg0 : IVec S9 32) (main_arg1 : FVec F S2048x9x40 .f32) (main_arg2 : FVec F S2048x40x80 .f32) (main_arg3 : FVec F S2048x80x160 .f32) (main_arg4 : FVec F S2048x9x9 .f32) : IVec S_ 1 :=
  let main_v0 : FVec F S2048x9x40 .f32 := Host.absf main_arg1
  let main_cst : FVec F S_ .f32 := constant S_ .f32 0x7F800000#32
  let main_v1 : FVec F S2048x9x40 .f32 := broadcastInDim S2048x9x40 ![] bcast_S_S2048x9x40 main_cst
  let main_v2 : IVec S2048x9x40 1 := cmpf .olt main_v0 main_v1
  let main_c : IVec S_ 1 := constantI S_ 1 1#1
  let main_v3 : IVec S_ 1 := (fun x v => Host.reduce IntOp.andi x v reducesTo_S2048x9x40_S_d0_1_2 h_S_) main_v2 main_c
  let main_v4 : FVec F S2048x40x80 .f32 := Host.absf main_arg2
  let main_cst_0 : FVec F S_ .f32 := constant S_ .f32 0x7F800000#32
  let main_v5 : FVec F S2048x40x80 .f32 := broadcastInDim S2048x40x80 ![] bcast_S_S2048x40x80 main_cst_0
  let main_v6 : IVec S2048x40x80 1 := cmpf .olt main_v4 main_v5
  let main_c_1 : IVec S_ 1 := constantI S_ 1 1#1
  let main_v7 : IVec S_ 1 := (fun x v => Host.reduce IntOp.andi x v reducesTo_S2048x40x80_S_d0_1_2 h_S_) main_v6 main_c_1
  let main_v8 : IVec S_ 1 := andi main_v3 main_v7
  let main_v9 : FVec F S2048x80x160 .f32 := Host.absf main_arg3
  let main_cst_2 : FVec F S_ .f32 := constant S_ .f32 0x7F800000#32
  let main_v10 : FVec F S2048x80x160 .f32 := broadcastInDim S2048x80x160 ![] bcast_S_S2048x80x160 main_cst_2
  let main_v11 : IVec S2048x80x160 1 := cmpf .olt main_v9 main_v10
  let main_c_3 : IVec S_ 1 := constantI S_ 1 1#1
  let main_v12 : IVec S_ 1 := (fun x v => Host.reduce IntOp.andi x v reducesTo_S2048x80x160_S_d0_1_2 h_S_) main_v11 main_c_3
  let main_v13 : IVec S_ 1 := andi main_v8 main_v12
  let main_v14 : FVec F S2048x9x9 .f32 := Host.absf main_arg4
  let main_cst_4 : FVec F S_ .f32 := constant S_ .f32 0x7F800000#32
  let main_v15 : FVec F S2048x9x9 .f32 := broadcastInDim S2048x9x9 ![] bcast_S_S2048x9x9 main_cst_4
  let main_v16 : IVec S2048x9x9 1 := cmpf .olt main_v14 main_v15
  fn_part1 (F := F) main_arg0 main_v13 main_v16
-- ==== Kernel.lean ====
abbrev S9 : Shape := ⟨1, ![9]⟩
abbrev S2048x9x40 : Shape := ⟨3, ![2048, 9, 40]⟩
abbrev S2048x40x80 : Shape := ⟨3, ![2048, 40, 80]⟩
abbrev S2048x80x160 : Shape := ⟨3, ![2048, 80, 160]⟩
abbrev S2048x9x9 : Shape := ⟨3, ![2048, 9, 9]⟩
abbrev S9x40x2048 : Shape := ⟨3, ![9, 40, 2048]⟩
abbrev S40x80x2048 : Shape := ⟨3, ![40, 80, 2048]⟩
abbrev S9x9x2048 : Shape := ⟨3, ![9, 9, 2048]⟩
abbrev S80x160x2048 : Shape := ⟨3, ![80, 160, 2048]⟩
abbrev S9x160x2048 : Shape := ⟨3, ![9, 160, 2048]⟩
abbrev S9x40x256 : Shape := ⟨3, ![9, 40, 256]⟩
abbrev S40x80x256 : Shape := ⟨3, ![40, 80, 256]⟩
abbrev S9x9x256 : Shape := ⟨3, ![9, 9, 256]⟩
abbrev S80x160x256 : Shape := ⟨3, ![80, 160, 256]⟩
abbrev S9x160x256 : Shape := ⟨3, ![9, 160, 256]⟩
abbrev S1 : Shape := ⟨1, ![1]⟩
abbrev S1x40x256 : Shape := ⟨3, ![1, 40, 256]⟩
abbrev S40x256 : Shape := ⟨2, ![40, 256]⟩
abbrev S1x1x256 : Shape := ⟨3, ![1, 1, 256]⟩
abbrev S1x256 : Shape := ⟨2, ![1, 256]⟩
abbrev S80x256 : Shape := ⟨2, ![80, 256]⟩
abbrev S1x80x256 : Shape := ⟨3, ![1, 80, 256]⟩
abbrev S160x256 : Shape := ⟨2, ![160, 256]⟩
abbrev S1x160x256 : Shape := ⟨3, ![1, 160, 256]⟩
abbrev S2048x9x160 : Shape := ⟨3, ![2048, 9, 160]⟩

abbrev nBuf : Space → Nat
  | .hbm => 12
  | .vmem => 10
  | .smem => 1
  | _ => 0

abbrev bufTy : (tb : Table) → Fin (tcTables nBuf tb) → BufTy
  | .hbm, ⟨0, _⟩ => ⟨S2048x9x40, .f32⟩
  | .hbm, ⟨1, _⟩ => ⟨S2048x40x80, .f32⟩
  | .hbm, ⟨2, _⟩ => ⟨S2048x80x160, .f32⟩
  | .hbm, ⟨3, _⟩ => ⟨S2048x9x9, .f32⟩
  | .hbm, ⟨4, _⟩ => ⟨S9x40x2048, .f32⟩
  | .hbm, ⟨5, _⟩ => ⟨S40x80x2048, .f32⟩
  | .hbm, ⟨6, _⟩ => ⟨S40x80x2048, .bf16⟩
  | .hbm, ⟨7, _⟩ => ⟨S9x9x2048, .f32⟩
  | .hbm, ⟨8, _⟩ => ⟨S80x160x2048, .f32⟩
  | .hbm, ⟨9, _⟩ => ⟨S80x160x2048, .bf16⟩
  | .hbm, ⟨10, _⟩ => ⟨S9x160x2048, .f32⟩
  | .hbm, ⟨11, _⟩ => ⟨S2048x9x160, .f32⟩
  | .local _ .vmem, ⟨0, _⟩ => ⟨S9x40x256, .f32⟩
  | .local _ .vmem, ⟨1, _⟩ => ⟨S9x40x256, .f32⟩
  | .local _ .vmem, ⟨2, _⟩ => ⟨S40x80x256, .bf16⟩
  | .local _ .vmem, ⟨3, _⟩ => ⟨S40x80x256, .bf16⟩
  | .local _ .vmem, ⟨4, _⟩ => ⟨S9x9x256, .f32⟩
  | .local _ .vmem, ⟨5, _⟩ => ⟨S9x9x256, .f32⟩
  | .local _ .vmem, ⟨6, _⟩ => ⟨S80x160x256, .bf16⟩
  | .local _ .vmem, ⟨7, _⟩ => ⟨S80x160x256, .bf16⟩
  | .local _ .vmem, ⟨8, _⟩ => ⟨S9x160x256, .f32⟩
  | .local _ .vmem, ⟨9, _⟩ => ⟨S9x160x256, .f32⟩
  | .local _ .smem, ⟨0, _⟩ => ⟨S9, .i32⟩
  | _, _ => ⟨S2048x9x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (v8 : BitVec 32) : Fin 3 → Nat :=
  let v9 : Index := Scalar.indexCast v8
  let c0_9 : Index := 0#32
  let c0_10 : Index := 0#32
  ![v9.toNat, 0, 0]

def k0_chk1 (v8 : BitVec 32) : Prop :=
  (∀ a, (k0_off1 v8) a + S1x40x256.size a ≤ S9x40x256.size a)
instance k0_chk1.dec : ∀ (v8 : BitVec 32), Decidable (k0_chk1 v8) := fun v8 => decidable_of_iff' _ (Iff.of_eq (k0_chk1.eq_1 v8))
theorem k0_off1_inb : ∀ (v8 : BitVec 32) (k0_hw1 : k0_chk1 v8), ∀ a, (k0_off1 v8) a + S1x40x256.size a ≤ S9x40x256.size a := fun v8 k0_hw1 => k0_hw1

def k0_off2 (v12 : BitVec 32) : Fin 3 → Nat :=
  let v13 : Index := Scalar.indexCast v12
  let c0_11 : Index := 0#32
  let c0_12 : Index := 0#32
  ![v13.toNat, 0, 0]

def k0_chk2 (v12 : BitVec 32) : Prop :=
  (∀ a, (k0_off2 v12) a + S1x40x256.size a ≤ S9x40x256.size a)
instance k0_chk2.dec : ∀ (v12 : BitVec 32), Decidable (k0_chk2 v12) := fun v12 => decidable_of_iff' _ (Iff.of_eq (k0_chk2.eq_1 v12))
theorem k0_off2_inb : ∀ (v12 : BitVec 32) (k0_hw2 : k0_chk2 v12), ∀ a, (k0_off2 v12) a + S1x40x256.size a ≤ S9x40x256.size a := fun v12 k0_hw2 => k0_hw2

def k0_off3 (v16 : BitVec 32) : Fin 3 → Nat :=
  let v17 : Index := Scalar.indexCast v16
  let c0_13 : Index := 0#32
  let c0_14 : Index := 0#32
  ![v17.toNat, 0, 0]

def k0_chk3 (v16 : BitVec 32) : Prop :=
  (∀ a, (k0_off3 v16) a + S1x40x256.size a ≤ S9x40x256.size a)
instance k0_chk3.dec : ∀ (v16 : BitVec 32), Decidable (k0_chk3 v16) := fun v16 => decidable_of_iff' _ (Iff.of_eq (k0_chk3.eq_1 v16))
theorem k0_off3_inb : ∀ (v16 : BitVec 32) (k0_hw3 : k0_chk3 v16), ∀ a, (k0_off3 v16) a + S1x40x256.size a ≤ S9x40x256.size a := fun v16 k0_hw3 => k0_hw3

def k0_off4 (v20 : BitVec 32) : Fin 3 → Nat :=
  let v21 : Index := Scalar.indexCast v20
  let c0_15 : Index := 0#32
  let c0_16 : Index := 0#32
  ![v21.toNat, 0, 0]

def k0_chk4 (v20 : BitVec 32) : Prop :=
  (∀ a, (k0_off4 v20) a + S1x40x256.size a ≤ S9x40x256.size a)
instance k0_chk4.dec : ∀ (v20 : BitVec 32), Decidable (k0_chk4 v20) := fun v20 => decidable_of_iff' _ (Iff.of_eq (k0_chk4.eq_1 v20))
theorem k0_off4_inb : ∀ (v20 : BitVec 32) (k0_hw4 : k0_chk4 v20), ∀ a, (k0_off4 v20) a + S1x40x256.size a ≤ S9x40x256.size a := fun v20 k0_hw4 => k0_hw4

def k0_off5 (v24 : BitVec 32) : Fin 3 → Nat :=
  let v25 : Index := Scalar.indexCast v24
  let c0_17 : Index := 0#32
  let c0_18 : Index := 0#32
  ![v25.toNat, 0, 0]

def k0_chk5 (v24 : BitVec 32) : Prop :=
  (∀ a, (k0_off5 v24) a + S1x40x256.size a ≤ S9x40x256.size a)
instance k0_chk5.dec : ∀ (v24 : BitVec 32), Decidable (k0_chk5 v24) := fun v24 => decidable_of_iff' _ (Iff.of_eq (k0_chk5.eq_1 v24))
theorem k0_off5_inb : ∀ (v24 : BitVec 32) (k0_hw5 : k0_chk5 v24), ∀ a, (k0_off5 v24) a + S1x40x256.size a ≤ S9x40x256.size a := fun v24 k0_hw5 => k0_hw5

def k0_off6 (v28 : BitVec 32) : Fin 3 → Nat :=
  let v29 : Index := Scalar.indexCast v28
  let c0_19 : Index := 0#32
  let c0_20 : Index := 0#32
  ![v29.toNat, 0, 0]

def k0_chk6 (v28 : BitVec 32) : Prop :=
  (∀ a, (k0_off6 v28) a + S1x40x256.size a ≤ S9x40x256.size a)
instance k0_chk6.dec : ∀ (v28 : BitVec 32), Decidable (k0_chk6 v28) := fun v28 => decidable_of_iff' _ (Iff.of_eq (k0_chk6.eq_1 v28))
theorem k0_off6_inb : ∀ (v28 : BitVec 32) (k0_hw6 : k0_chk6 v28), ∀ a, (k0_off6 v28) a + S1x40x256.size a ≤ S9x40x256.size a := fun v28 k0_hw6 => k0_hw6

def k0_off7 (v32 : BitVec 32) : Fin 3 → Nat :=
  let v33 : Index := Scalar.indexCast v32
  let c0_21 : Index := 0#32
  let c0_22 : Index := 0#32
  ![v33.toNat, 0, 0]

def k0_chk7 (v32 : BitVec 32) : Prop :=
  (∀ a, (k0_off7 v32) a + S1x40x256.size a ≤ S9x40x256.size a)
instance k0_chk7.dec : ∀ (v32 : BitVec 32), Decidable (k0_chk7 v32) := fun v32 => decidable_of_iff' _ (Iff.of_eq (k0_chk7.eq_1 v32))
theorem k0_off7_inb : ∀ (v32 : BitVec 32) (k0_hw7 : k0_chk7 v32), ∀ a, (k0_off7 v32) a + S1x40x256.size a ≤ S9x40x256.size a := fun v32 k0_hw7 => k0_hw7

def k0_off8 (v36 : BitVec 32) : Fin 3 → Nat :=
  let v37 : Index := Scalar.indexCast v36
  let c0_23 : Index := 0#32
  let c0_24 : Index := 0#32
  ![v37.toNat, 0, 0]

def k0_chk8 (v36 : BitVec 32) : Prop :=
  (∀ a, (k0_off8 v36) a + S1x40x256.size a ≤ S9x40x256.size a)
instance k0_chk8.dec : ∀ (v36 : BitVec 32), Decidable (k0_chk8 v36) := fun v36 => decidable_of_iff' _ (Iff.of_eq (k0_chk8.eq_1 v36))
theorem k0_off8_inb : ∀ (v36 : BitVec 32) (k0_hw8 : k0_chk8 v36), ∀ a, (k0_off8 v36) a + S1x40x256.size a ≤ S9x40x256.size a := fun v36 k0_hw8 => k0_hw8

def k0_off9 (v40 : BitVec 32) : Fin 3 → Nat :=
  let v41 : Index := Scalar.indexCast v40
  let c0_25 : Index := 0#32
  let c0_26 : Index := 0#32
  ![v41.toNat, 0, 0]

def k0_chk9 (v40 : BitVec 32) : Prop :=
  (∀ a, (k0_off9 v40) a + S1x40x256.size a ≤ S9x40x256.size a)
instance k0_chk9.dec : ∀ (v40 : BitVec 32), Decidable (k0_chk9 v40) := fun v40 => decidable_of_iff' _ (Iff.of_eq (k0_chk9.eq_1 v40))
theorem k0_off9_inb : ∀ (v40 : BitVec 32) (k0_hw9 : k0_chk9 v40), ∀ a, (k0_off9 v40) a + S1x40x256.size a ≤ S9x40x256.size a := fun v40 k0_hw9 => k0_hw9

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S9x40x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S40x80x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S9x9x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x160x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S9x160x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S2048x9x40_S9x40x2048_1_2_0 : S2048x9x40.Transposes [1, 2, 0] S9x40x2048
  transposes_S2048x40x80_S40x80x2048_1_2_0 : S2048x40x80.Transposes [1, 2, 0] S40x80x2048
  bitsLt_bf16_f32 : FTy.bits .bf16 < FTy.bits .f32
  transposes_S2048x9x9_S9x9x2048_1_2_0 : S2048x9x9.Transposes [1, 2, 0] S9x9x2048
  transposes_S2048x80x160_S80x160x2048_1_2_0 : S2048x80x160.Transposes [1, 2, 0] S80x160x2048
  inb_S9x9x256_S9x9x256_0_0_0 : ∀ a, (![0, 0, 0] : Fin 3 → Nat) a + S9x9x256.size a ≤ S9x9x256.size a
  h_S9x9x256 : 0 < S9x9x256.numel
  shapeCasts_S9x9x256_S9x9x256 : S9x9x256.ShapeCasts S9x9x256
  inb_S40x80x256_S40x80x256_0_0_0 : ∀ a, (![0, 0, 0] : Fin 3 → Nat) a + S40x80x256.size a ≤ S40x80x256.size a
  h_S40x80x256 : 0 < S40x80x256.numel
  shapeCasts_S40x80x256_S40x80x256 : S40x80x256.ShapeCasts S40x80x256
  inb_S80x160x256_S80x160x256_0_0_0 : ∀ a, (![0, 0, 0] : Fin 3 → Nat) a + S80x160x256.size a ≤ S80x160x256.size a
  h_S80x160x256 : 0 < S80x160x256.numel
  shapeCasts_S80x160x256_S80x160x256 : S80x160x256.ShapeCasts S80x160x256
  inb_S9_S1_0 : ∀ a, (![0] : Fin 1 → Nat) a + S1.size a ≤ S9.size a
  numel1_S1 : S1.numel = 1
  h_S1x40x256 : 0 < S1x40x256.numel
  shapeCasts_S1x40x256_S40x256 : S1x40x256.ShapeCasts S40x256
  inb_S9_S1_1 : ∀ a, (![1] : Fin 1 → Nat) a + S1.size a ≤ S9.size a
  inb_S9_S1_2 : ∀ a, (![2] : Fin 1 → Nat) a + S1.size a ≤ S9.size a
  inb_S9_S1_3 : ∀ a, (![3] : Fin 1 → Nat) a + S1.size a ≤ S9.size a
  inb_S9_S1_4 : ∀ a, (![4] : Fin 1 → Nat) a + S1.size a ≤ S9.size a
  inb_S9_S1_5 : ∀ a, (![5] : Fin 1 → Nat) a + S1.size a ≤ S9.size a
  inb_S9_S1_6 : ∀ a, (![6] : Fin 1 → Nat) a + S1.size a ≤ S9.size a
  inb_S9_S1_7 : ∀ a, (![7] : Fin 1 → Nat) a + S1.size a ≤ S9.size a
  inb_S9_S1_8 : ∀ a, (![8] : Fin 1 → Nat) a + S1.size a ≤ S9.size a
  slices_S9x9x256_o0_0_0_S1x1x256 : S9x9x256.Slices ![0, 0, 0] S1x1x256
  shapeCasts_S1x1x256_S1x256 : S1x1x256.ShapeCasts S1x256
  broadcasts_S1x256_S40x256 : S1x256.Broadcasts S40x256
  slices_S9x9x256_o0_1_0_S1x1x256 : S9x9x256.Slices ![0, 1, 0] S1x1x256
  slices_S9x9x256_o0_2_0_S1x1x256 : S9x9x256.Slices ![0, 2, 0] S1x1x256
  slices_S9x9x256_o0_3_0_S1x1x256 : S9x9x256.Slices ![0, 3, 0] S1x1x256
  slices_S9x9x256_o0_4_0_S1x1x256 : S9x9x256.Slices ![0, 4, 0] S1x1x256
  slices_S9x9x256_o0_5_0_S1x1x256 : S9x9x256.Slices ![0, 5, 0] S1x1x256
  slices_S9x9x256_o0_6_0_S1x1x256 : S9x9x256.Slices ![0, 6, 0] S1x1x256
  slices_S9x9x256_o0_7_0_S1x1x256 : S9x9x256.Slices ![0, 7, 0] S1x1x256
  slices_S9x9x256_o0_8_0_S1x1x256 : S9x9x256.Slices ![0, 8, 0] S1x1x256
  slices_S9x9x256_o1_0_0_S1x1x256 : S9x9x256.Slices ![1, 0, 0] S1x1x256
  slices_S9x9x256_o1_1_0_S1x1x256 : S9x9x256.Slices ![1, 1, 0] S1x1x256
  slices_S9x9x256_o1_2_0_S1x1x256 : S9x9x256.Slices ![1, 2, 0] S1x1x256
  slices_S9x9x256_o1_3_0_S1x1x256 : S9x9x256.Slices ![1, 3, 0] S1x1x256
  slices_S9x9x256_o1_4_0_S1x1x256 : S9x9x256.Slices ![1, 4, 0] S1x1x256
  slices_S9x9x256_o1_5_0_S1x1x256 : S9x9x256.Slices ![1, 5, 0] S1x1x256
  slices_S9x9x256_o1_6_0_S1x1x256 : S9x9x256.Slices ![1, 6, 0] S1x1x256
  slices_S9x9x256_o1_7_0_S1x1x256 : S9x9x256.Slices ![1, 7, 0] S1x1x256
  slices_S9x9x256_o1_8_0_S1x1x256 : S9x9x256.Slices ![1, 8, 0] S1x1x256
  slices_S9x9x256_o2_0_0_S1x1x256 : S9x9x256.Slices ![2, 0, 0] S1x1x256
  slices_S9x9x256_o2_1_0_S1x1x256 : S9x9x256.Slices ![2, 1, 0] S1x1x256
  slices_S9x9x256_o2_2_0_S1x1x256 : S9x9x256.Slices ![2, 2, 0] S1x1x256
  slices_S9x9x256_o2_3_0_S1x1x256 : S9x9x256.Slices ![2, 3, 0] S1x1x256
  slices_S9x9x256_o2_4_0_S1x1x256 : S9x9x256.Slices ![2, 4, 0] S1x1x256
  slices_S9x9x256_o2_5_0_S1x1x256 : S9x9x256.Slices ![2, 5, 0] S1x1x256
  slices_S9x9x256_o2_6_0_S1x1x256 : S9x9x256.Slices ![2, 6, 0] S1x1x256
  slices_S9x9x256_o2_7_0_S1x1x256 : S9x9x256.Slices ![2, 7, 0] S1x1x256
  slices_S9x9x256_o2_8_0_S1x1x256 : S9x9x256.Slices ![2, 8, 0] S1x1x256
  slices_S9x9x256_o3_0_0_S1x1x256 : S9x9x256.Slices ![3, 0, 0] S1x1x256
  slices_S9x9x256_o3_1_0_S1x1x256 : S9x9x256.Slices ![3, 1, 0] S1x1x256
  slices_S9x9x256_o3_2_0_S1x1x256 : S9x9x256.Slices ![3, 2, 0] S1x1x256
  slices_S9x9x256_o3_3_0_S1x1x256 : S9x9x256.Slices ![3, 3, 0] S1x1x256
  slices_S9x9x256_o3_4_0_S1x1x256 : S9x9x256.Slices ![3, 4, 0] S1x1x256
  slices_S9x9x256_o3_5_0_S1x1x256 : S9x9x256.Slices ![3, 5, 0] S1x1x256
  slices_S9x9x256_o3_6_0_S1x1x256 : S9x9x256.Slices ![3, 6, 0] S1x1x256
  slices_S9x9x256_o3_7_0_S1x1x256 : S9x9x256.Slices ![3, 7, 0] S1x1x256
  slices_S9x9x256_o3_8_0_S1x1x256 : S9x9x256.Slices ![3, 8, 0] S1x1x256
  slices_S9x9x256_o4_0_0_S1x1x256 : S9x9x256.Slices ![4, 0, 0] S1x1x256
  slices_S9x9x256_o4_1_0_S1x1x256 : S9x9x256.Slices ![4, 1, 0] S1x1x256
  slices_S9x9x256_o4_2_0_S1x1x256 : S9x9x256.Slices ![4, 2, 0] S1x1x256
  slices_S9x9x256_o4_3_0_S1x1x256 : S9x9x256.Slices ![4, 3, 0] S1x1x256
  slices_S9x9x256_o4_4_0_S1x1x256 : S9x9x256.Slices ![4, 4, 0] S1x1x256
  slices_S9x9x256_o4_5_0_S1x1x256 : S9x9x256.Slices ![4, 5, 0] S1x1x256
  slices_S9x9x256_o4_6_0_S1x1x256 : S9x9x256.Slices ![4, 6, 0] S1x1x256
  slices_S9x9x256_o4_7_0_S1x1x256 : S9x9x256.Slices ![4, 7, 0] S1x1x256
  slices_S9x9x256_o4_8_0_S1x1x256 : S9x9x256.Slices ![4, 8, 0] S1x1x256
  slices_S9x9x256_o5_0_0_S1x1x256 : S9x9x256.Slices ![5, 0, 0] S1x1x256
  slices_S9x9x256_o5_1_0_S1x1x256 : S9x9x256.Slices ![5, 1, 0] S1x1x256
  slices_S9x9x256_o5_2_0_S1x1x256 : S9x9x256.Slices ![5, 2, 0] S1x1x256
  slices_S9x9x256_o5_3_0_S1x1x256 : S9x9x256.Slices ![5, 3, 0] S1x1x256
  slices_S9x9x256_o5_4_0_S1x1x256 : S9x9x256.Slices ![5, 4, 0] S1x1x256
  slices_S9x9x256_o5_5_0_S1x1x256 : S9x9x256.Slices ![5, 5, 0] S1x1x256
  slices_S9x9x256_o5_6_0_S1x1x256 : S9x9x256.Slices ![5, 6, 0] S1x1x256
  slices_S9x9x256_o5_7_0_S1x1x256 : S9x9x256.Slices ![5, 7, 0] S1x1x256
  slices_S9x9x256_o5_8_0_S1x1x256 : S9x9x256.Slices ![5, 8, 0] S1x1x256
  slices_S9x9x256_o6_0_0_S1x1x256 : S9x9x256.Slices ![6, 0, 0] S1x1x256
  slices_S9x9x256_o6_1_0_S1x1x256 : S9x9x256.Slices ![6, 1, 0] S1x1x256
  slices_S9x9x256_o6_2_0_S1x1x256 : S9x9x256.Slices ![6, 2, 0] S1x1x256
  slices_S9x9x256_o6_3_0_S1x1x256 : S9x9x256.Slices ![6, 3, 0] S1x1x256
  slices_S9x9x256_o6_4_0_S1x1x256 : S9x9x256.Slices ![6, 4, 0] S1x1x256
  slices_S9x9x256_o6_5_0_S1x1x256 : S9x9x256.Slices ![6, 5, 0] S1x1x256
  slices_S9x9x256_o6_6_0_S1x1x256 : S9x9x256.Slices ![6, 6, 0] S1x1x256
  slices_S9x9x256_o6_7_0_S1x1x256 : S9x9x256.Slices ![6, 7, 0] S1x1x256
  slices_S9x9x256_o6_8_0_S1x1x256 : S9x9x256.Slices ![6, 8, 0] S1x1x256
  slices_S9x9x256_o7_0_0_S1x1x256 : S9x9x256.Slices ![7, 0, 0] S1x1x256
  slices_S9x9x256_o7_1_0_S1x1x256 : S9x9x256.Slices ![7, 1, 0] S1x1x256
  slices_S9x9x256_o7_2_0_S1x1x256 : S9x9x256.Slices ![7, 2, 0] S1x1x256
  slices_S9x9x256_o7_3_0_S1x1x256 : S9x9x256.Slices ![7, 3, 0] S1x1x256
  slices_S9x9x256_o7_4_0_S1x1x256 : S9x9x256.Slices ![7, 4, 0] S1x1x256
  slices_S9x9x256_o7_5_0_S1x1x256 : S9x9x256.Slices ![7, 5, 0] S1x1x256
  slices_S9x9x256_o7_6_0_S1x1x256 : S9x9x256.Slices ![7, 6, 0] S1x1x256
  slices_S9x9x256_o7_7_0_S1x1x256 : S9x9x256.Slices ![7, 7, 0] S1x1x256
  slices_S9x9x256_o7_8_0_S1x1x256 : S9x9x256.Slices ![7, 8, 0] S1x1x256
  slices_S9x9x256_o8_0_0_S1x1x256 : S9x9x256.Slices ![8, 0, 0] S1x1x256
  slices_S9x9x256_o8_1_0_S1x1x256 : S9x9x256.Slices ![8, 1, 0] S1x1x256
  slices_S9x9x256_o8_2_0_S1x1x256 : S9x9x256.Slices ![8, 2, 0] S1x1x256
  slices_S9x9x256_o8_3_0_S1x1x256 : S9x9x256.Slices ![8, 3, 0] S1x1x256
  slices_S9x9x256_o8_4_0_S1x1x256 : S9x9x256.Slices ![8, 4, 0] S1x1x256
  slices_S9x9x256_o8_5_0_S1x1x256 : S9x9x256.Slices ![8, 5, 0] S1x1x256
  slices_S9x9x256_o8_6_0_S1x1x256 : S9x9x256.Slices ![8, 6, 0] S1x1x256
  slices_S9x9x256_o8_7_0_S1x1x256 : S9x9x256.Slices ![8, 7, 0] S1x1x256
  slices_S9x9x256_o8_8_0_S1x1x256 : S9x9x256.Slices ![8, 8, 0] S1x1x256
  slices_S40x256_o0_0_S1x256 : S40x256.Slices ![0, 0] S1x256
  slices_S40x80x256_o0_0_0_S1x80x256 : S40x80x256.Slices ![0, 0, 0] S1x80x256
  shapeCasts_S1x80x256_S80x256 : S1x80x256.ShapeCasts S80x256
  broadcasts_S1x256_S80x256 : S1x256.Broadcasts S80x256
  slices_S40x256_o1_0_S1x256 : S40x256.Slices ![1, 0] S1x256
  slices_S40x80x256_o1_0_0_S1x80x256 : S40x80x256.Slices ![1, 0, 0] S1x80x256
  slices_S40x256_o2_0_S1x256 : S40x256.Slices ![2, 0] S1x256
  slices_S40x80x256_o2_0_0_S1x80x256 : S40x80x256.Slices ![2, 0, 0] S1x80x256
  slices_S40x256_o3_0_S1x256 : S40x256.Slices ![3, 0] S1x256
  slices_S40x80x256_o3_0_0_S1x80x256 : S40x80x256.Slices ![3, 0, 0] S1x80x256
  slices_S40x256_o4_0_S1x256 : S40x256.Slices ![4, 0] S1x256
  slices_S40x80x256_o4_0_0_S1x80x256 : S40x80x256.Slices ![4, 0, 0] S1x80x256
  slices_S40x256_o5_0_S1x256 : S40x256.Slices ![5, 0] S1x256
  slices_S40x80x256_o5_0_0_S1x80x256 : S40x80x256.Slices ![5, 0, 0] S1x80x256
  slices_S40x256_o6_0_S1x256 : S40x256.Slices ![6, 0] S1x256
  slices_S40x80x256_o6_0_0_S1x80x256 : S40x80x256.Slices ![6, 0, 0] S1x80x256
  slices_S40x256_o7_0_S1x256 : S40x256.Slices ![7, 0] S1x256
  slices_S40x80x256_o7_0_0_S1x80x256 : S40x80x256.Slices ![7, 0, 0] S1x80x256
  slices_S40x256_o8_0_S1x256 : S40x256.Slices ![8, 0] S1x256
  slices_S40x80x256_o8_0_0_S1x80x256 : S40x80x256.Slices ![8, 0, 0] S1x80x256
  slices_S40x256_o9_0_S1x256 : S40x256.Slices ![9, 0] S1x256
  slices_S40x80x256_o9_0_0_S1x80x256 : S40x80x256.Slices ![9, 0, 0] S1x80x256
  slices_S40x256_o10_0_S1x256 : S40x256.Slices ![10, 0] S1x256
  slices_S40x80x256_o10_0_0_S1x80x256 : S40x80x256.Slices ![10, 0, 0] S1x80x256
  slices_S40x256_o11_0_S1x256 : S40x256.Slices ![11, 0] S1x256
  slices_S40x80x256_o11_0_0_S1x80x256 : S40x80x256.Slices ![11, 0, 0] S1x80x256
  slices_S40x256_o12_0_S1x256 : S40x256.Slices ![12, 0] S1x256
  slices_S40x80x256_o12_0_0_S1x80x256 : S40x80x256.Slices ![12, 0, 0] S1x80x256
  slices_S40x256_o13_0_S1x256 : S40x256.Slices ![13, 0] S1x256
  slices_S40x80x256_o13_0_0_S1x80x256 : S40x80x256.Slices ![13, 0, 0] S1x80x256
  slices_S40x256_o14_0_S1x256 : S40x256.Slices ![14, 0] S1x256
  slices_S40x80x256_o14_0_0_S1x80x256 : S40x80x256.Slices ![14, 0, 0] S1x80x256
  slices_S40x256_o15_0_S1x256 : S40x256.Slices ![15, 0] S1x256
  slices_S40x80x256_o15_0_0_S1x80x256 : S40x80x256.Slices ![15, 0, 0] S1x80x256
  slices_S40x256_o16_0_S1x256 : S40x256.Slices ![16, 0] S1x256
  slices_S40x80x256_o16_0_0_S1x80x256 : S40x80x256.Slices ![16, 0, 0] S1x80x256
  slices_S40x256_o17_0_S1x256 : S40x256.Slices ![17, 0] S1x256
  slices_S40x80x256_o17_0_0_S1x80x256 : S40x80x256.Slices ![17, 0, 0] S1x80x256
  slices_S40x256_o18_0_S1x256 : S40x256.Slices ![18, 0] S1x256
  slices_S40x80x256_o18_0_0_S1x80x256 : S40x80x256.Slices ![18, 0, 0] S1x80x256
  slices_S40x256_o19_0_S1x256 : S40x256.Slices ![19, 0] S1x256
  slices_S40x80x256_o19_0_0_S1x80x256 : S40x80x256.Slices ![19, 0, 0] S1x80x256
  slices_S40x256_o20_0_S1x256 : S40x256.Slices ![20, 0] S1x256
  slices_S40x80x256_o20_0_0_S1x80x256 : S40x80x256.Slices ![20, 0, 0] S1x80x256
  slices_S40x256_o21_0_S1x256 : S40x256.Slices ![21, 0] S1x256
  slices_S40x80x256_o21_0_0_S1x80x256 : S40x80x256.Slices ![21, 0, 0] S1x80x256
  slices_S40x256_o22_0_S1x256 : S40x256.Slices ![22, 0] S1x256
  slices_S40x80x256_o22_0_0_S1x80x256 : S40x80x256.Slices ![22, 0, 0] S1x80x256
  slices_S40x256_o23_0_S1x256 : S40x256.Slices ![23, 0] S1x256
  slices_S40x80x256_o23_0_0_S1x80x256 : S40x80x256.Slices ![23, 0, 0] S1x80x256
  slices_S40x256_o24_0_S1x256 : S40x256.Slices ![24, 0] S1x256
  slices_S40x80x256_o24_0_0_S1x80x256 : S40x80x256.Slices ![24, 0, 0] S1x80x256
  slices_S40x256_o25_0_S1x256 : S40x256.Slices ![25, 0] S1x256
  slices_S40x80x256_o25_0_0_S1x80x256 : S40x80x256.Slices ![25, 0, 0] S1x80x256
  slices_S40x256_o26_0_S1x256 : S40x256.Slices ![26, 0] S1x256
  slices_S40x80x256_o26_0_0_S1x80x256 : S40x80x256.Slices ![26, 0, 0] S1x80x256
  slices_S40x256_o27_0_S1x256 : S40x256.Slices ![27, 0] S1x256
  slices_S40x80x256_o27_0_0_S1x80x256 : S40x80x256.Slices ![27, 0, 0] S1x80x256
  slices_S40x256_o28_0_S1x256 : S40x256.Slices ![28, 0] S1x256
  slices_S40x80x256_o28_0_0_S1x80x256 : S40x80x256.Slices ![28, 0, 0] S1x80x256
  slices_S40x256_o29_0_S1x256 : S40x256.Slices ![29, 0] S1x256
  slices_S40x80x256_o29_0_0_S1x80x256 : S40x80x256.Slices ![29, 0, 0] S1x80x256
  slices_S40x256_o30_0_S1x256 : S40x256.Slices ![30, 0] S1x256
  slices_S40x80x256_o30_0_0_S1x80x256 : S40x80x256.Slices ![30, 0, 0] S1x80x256
  slices_S40x256_o31_0_S1x256 : S40x256.Slices ![31, 0] S1x256
  slices_S40x80x256_o31_0_0_S1x80x256 : S40x80x256.Slices ![31, 0, 0] S1x80x256
  slices_S40x256_o32_0_S1x256 : S40x256.Slices ![32, 0] S1x256
  slices_S40x80x256_o32_0_0_S1x80x256 : S40x80x256.Slices ![32, 0, 0] S1x80x256
  slices_S40x256_o33_0_S1x256 : S40x256.Slices ![33, 0] S1x256
  slices_S40x80x256_o33_0_0_S1x80x256 : S40x80x256.Slices ![33, 0, 0] S1x80x256
  slices_S40x256_o34_0_S1x256 : S40x256.Slices ![34, 0] S1x256
  slices_S40x80x256_o34_0_0_S1x80x256 : S40x80x256.Slices ![34, 0, 0] S1x80x256
  slices_S40x256_o35_0_S1x256 : S40x256.Slices ![35, 0] S1x256
  slices_S40x80x256_o35_0_0_S1x80x256 : S40x80x256.Slices ![35, 0, 0] S1x80x256
  slices_S40x256_o36_0_S1x256 : S40x256.Slices ![36, 0] S1x256
  slices_S40x80x256_o36_0_0_S1x80x256 : S40x80x256.Slices ![36, 0, 0] S1x80x256
  slices_S40x256_o37_0_S1x256 : S40x256.Slices ![37, 0] S1x256
  slices_S40x80x256_o37_0_0_S1x80x256 : S40x80x256.Slices ![37, 0, 0] S1x80x256
  slices_S40x256_o38_0_S1x256 : S40x256.Slices ![38, 0] S1x256
  slices_S40x80x256_o38_0_0_S1x80x256 : S40x80x256.Slices ![38, 0, 0] S1x80x256
  slices_S40x256_o39_0_S1x256 : S40x256.Slices ![39, 0] S1x256
  slices_S40x80x256_o39_0_0_S1x80x256 : S40x80x256.Slices ![39, 0, 0] S1x80x256
  slices_S80x256_o0_0_S1x256 : S80x256.Slices ![0, 0] S1x256
  slices_S80x160x256_o0_0_0_S1x160x256 : S80x160x256.Slices ![0, 0, 0] S1x160x256
  shapeCasts_S1x160x256_S160x256 : S1x160x256.ShapeCasts S160x256
  broadcasts_S1x256_S160x256 : S1x256.Broadcasts S160x256
  slices_S80x256_o1_0_S1x256 : S80x256.Slices ![1, 0] S1x256
  slices_S80x160x256_o1_0_0_S1x160x256 : S80x160x256.Slices ![1, 0, 0] S1x160x256
  slices_S80x256_o2_0_S1x256 : S80x256.Slices ![2, 0] S1x256
  slices_S80x160x256_o2_0_0_S1x160x256 : S80x160x256.Slices ![2, 0, 0] S1x160x256
  slices_S80x256_o3_0_S1x256 : S80x256.Slices ![3, 0] S1x256
  slices_S80x160x256_o3_0_0_S1x160x256 : S80x160x256.Slices ![3, 0, 0] S1x160x256
  slices_S80x256_o4_0_S1x256 : S80x256.Slices ![4, 0] S1x256
  slices_S80x160x256_o4_0_0_S1x160x256 : S80x160x256.Slices ![4, 0, 0] S1x160x256
  slices_S80x256_o5_0_S1x256 : S80x256.Slices ![5, 0] S1x256
  slices_S80x160x256_o5_0_0_S1x160x256 : S80x160x256.Slices ![5, 0, 0] S1x160x256
  slices_S80x256_o6_0_S1x256 : S80x256.Slices ![6, 0] S1x256
  slices_S80x160x256_o6_0_0_S1x160x256 : S80x160x256.Slices ![6, 0, 0] S1x160x256
  slices_S80x256_o7_0_S1x256 : S80x256.Slices ![7, 0] S1x256
  slices_S80x160x256_o7_0_0_S1x160x256 : S80x160x256.Slices ![7, 0, 0] S1x160x256
  slices_S80x256_o8_0_S1x256 : S80x256.Slices ![8, 0] S1x256
  slices_S80x160x256_o8_0_0_S1x160x256 : S80x160x256.Slices ![8, 0, 0] S1x160x256
  slices_S80x256_o9_0_S1x256 : S80x256.Slices ![9, 0] S1x256
  slices_S80x160x256_o9_0_0_S1x160x256 : S80x160x256.Slices ![9, 0, 0] S1x160x256
  slices_S80x256_o10_0_S1x256 : S80x256.Slices ![10, 0] S1x256
  slices_S80x160x256_o10_0_0_S1x160x256 : S80x160x256.Slices ![10, 0, 0] S1x160x256
  slices_S80x256_o11_0_S1x256 : S80x256.Slices ![11, 0] S1x256
  slices_S80x160x256_o11_0_0_S1x160x256 : S80x160x256.Slices ![11, 0, 0] S1x160x256
  slices_S80x256_o12_0_S1x256 : S80x256.Slices ![12, 0] S1x256
  slices_S80x160x256_o12_0_0_S1x160x256 : S80x160x256.Slices ![12, 0, 0] S1x160x256
  slices_S80x256_o13_0_S1x256 : S80x256.Slices ![13, 0] S1x256
  slices_S80x160x256_o13_0_0_S1x160x256 : S80x160x256.Slices ![13, 0, 0] S1x160x256
  slices_S80x256_o14_0_S1x256 : S80x256.Slices ![14, 0] S1x256
  slices_S80x160x256_o14_0_0_S1x160x256 : S80x160x256.Slices ![14, 0, 0] S1x160x256
  slices_S80x256_o15_0_S1x256 : S80x256.Slices ![15, 0] S1x256
  slices_S80x160x256_o15_0_0_S1x160x256 : S80x160x256.Slices ![15, 0, 0] S1x160x256
  slices_S80x256_o16_0_S1x256 : S80x256.Slices ![16, 0] S1x256
  slices_S80x160x256_o16_0_0_S1x160x256 : S80x160x256.Slices ![16, 0, 0] S1x160x256
  slices_S80x256_o17_0_S1x256 : S80x256.Slices ![17, 0] S1x256
  slices_S80x160x256_o17_0_0_S1x160x256 : S80x160x256.Slices ![17, 0, 0] S1x160x256
  slices_S80x256_o18_0_S1x256 : S80x256.Slices ![18, 0] S1x256
  slices_S80x160x256_o18_0_0_S1x160x256 : S80x160x256.Slices ![18, 0, 0] S1x160x256
  slices_S80x256_o19_0_S1x256 : S80x256.Slices ![19, 0] S1x256
  slices_S80x160x256_o19_0_0_S1x160x256 : S80x160x256.Slices ![19, 0, 0] S1x160x256
  slices_S80x256_o20_0_S1x256 : S80x256.Slices ![20, 0] S1x256
  slices_S80x160x256_o20_0_0_S1x160x256 : S80x160x256.Slices ![20, 0, 0] S1x160x256
  slices_S80x256_o21_0_S1x256 : S80x256.Slices ![21, 0] S1x256
  slices_S80x160x256_o21_0_0_S1x160x256 : S80x160x256.Slices ![21, 0, 0] S1x160x256
  slices_S80x256_o22_0_S1x256 : S80x256.Slices ![22, 0] S1x256
  slices_S80x160x256_o22_0_0_S1x160x256 : S80x160x256.Slices ![22, 0, 0] S1x160x256
  slices_S80x256_o23_0_S1x256 : S80x256.Slices ![23, 0] S1x256
  slices_S80x160x256_o23_0_0_S1x160x256 : S80x160x256.Slices ![23, 0, 0] S1x160x256
  slices_S80x256_o24_0_S1x256 : S80x256.Slices ![24, 0] S1x256
  slices_S80x160x256_o24_0_0_S1x160x256 : S80x160x256.Slices ![24, 0, 0] S1x160x256
  slices_S80x256_o25_0_S1x256 : S80x256.Slices ![25, 0] S1x256
  slices_S80x160x256_o25_0_0_S1x160x256 : S80x160x256.Slices ![25, 0, 0] S1x160x256
  slices_S80x256_o26_0_S1x256 : S80x256.Slices ![26, 0] S1x256
  slices_S80x160x256_o26_0_0_S1x160x256 : S80x160x256.Slices ![26, 0, 0] S1x160x256
  slices_S80x256_o27_0_S1x256 : S80x256.Slices ![27, 0] S1x256
  slices_S80x160x256_o27_0_0_S1x160x256 : S80x160x256.Slices ![27, 0, 0] S1x160x256
  slices_S80x256_o28_0_S1x256 : S80x256.Slices ![28, 0] S1x256
  slices_S80x160x256_o28_0_0_S1x160x256 : S80x160x256.Slices ![28, 0, 0] S1x160x256
  slices_S80x256_o29_0_S1x256 : S80x256.Slices ![29, 0] S1x256
  slices_S80x160x256_o29_0_0_S1x160x256 : S80x160x256.Slices ![29, 0, 0] S1x160x256
  slices_S80x256_o30_0_S1x256 : S80x256.Slices ![30, 0] S1x256
  slices_S80x160x256_o30_0_0_S1x160x256 : S80x160x256.Slices ![30, 0, 0] S1x160x256
  slices_S80x256_o31_0_S1x256 : S80x256.Slices ![31, 0] S1x256
  slices_S80x160x256_o31_0_0_S1x160x256 : S80x160x256.Slices ![31, 0, 0] S1x160x256
  slices_S80x256_o32_0_S1x256 : S80x256.Slices ![32, 0] S1x256
  slices_S80x160x256_o32_0_0_S1x160x256 : S80x160x256.Slices ![32, 0, 0] S1x160x256
  slices_S80x256_o33_0_S1x256 : S80x256.Slices ![33, 0] S1x256
  slices_S80x160x256_o33_0_0_S1x160x256 : S80x160x256.Slices ![33, 0, 0] S1x160x256
  slices_S80x256_o34_0_S1x256 : S80x256.Slices ![34, 0] S1x256
  slices_S80x160x256_o34_0_0_S1x160x256 : S80x160x256.Slices ![34, 0, 0] S1x160x256
  slices_S80x256_o35_0_S1x256 : S80x256.Slices ![35, 0] S1x256
  slices_S80x160x256_o35_0_0_S1x160x256 : S80x160x256.Slices ![35, 0, 0] S1x160x256
  slices_S80x256_o36_0_S1x256 : S80x256.Slices ![36, 0] S1x256
  slices_S80x160x256_o36_0_0_S1x160x256 : S80x160x256.Slices ![36, 0, 0] S1x160x256
  slices_S80x256_o37_0_S1x256 : S80x256.Slices ![37, 0] S1x256
  slices_S80x160x256_o37_0_0_S1x160x256 : S80x160x256.Slices ![37, 0, 0] S1x160x256
  slices_S80x256_o38_0_S1x256 : S80x256.Slices ![38, 0] S1x256
  slices_S80x160x256_o38_0_0_S1x160x256 : S80x160x256.Slices ![38, 0, 0] S1x160x256
  slices_S80x256_o39_0_S1x256 : S80x256.Slices ![39, 0] S1x256
  slices_S80x160x256_o39_0_0_S1x160x256 : S80x160x256.Slices ![39, 0, 0] S1x160x256
  slices_S80x256_o40_0_S1x256 : S80x256.Slices ![40, 0] S1x256
  slices_S80x160x256_o40_0_0_S1x160x256 : S80x160x256.Slices ![40, 0, 0] S1x160x256
  slices_S80x256_o41_0_S1x256 : S80x256.Slices ![41, 0] S1x256
  slices_S80x160x256_o41_0_0_S1x160x256 : S80x160x256.Slices ![41, 0, 0] S1x160x256
  slices_S80x256_o42_0_S1x256 : S80x256.Slices ![42, 0] S1x256
  slices_S80x160x256_o42_0_0_S1x160x256 : S80x160x256.Slices ![42, 0, 0] S1x160x256
  slices_S80x256_o43_0_S1x256 : S80x256.Slices ![43, 0] S1x256
  slices_S80x160x256_o43_0_0_S1x160x256 : S80x160x256.Slices ![43, 0, 0] S1x160x256
  slices_S80x256_o44_0_S1x256 : S80x256.Slices ![44, 0] S1x256
  slices_S80x160x256_o44_0_0_S1x160x256 : S80x160x256.Slices ![44, 0, 0] S1x160x256
  slices_S80x256_o45_0_S1x256 : S80x256.Slices ![45, 0] S1x256
  slices_S80x160x256_o45_0_0_S1x160x256 : S80x160x256.Slices ![45, 0, 0] S1x160x256
  slices_S80x256_o46_0_S1x256 : S80x256.Slices ![46, 0] S1x256
  slices_S80x160x256_o46_0_0_S1x160x256 : S80x160x256.Slices ![46, 0, 0] S1x160x256
  slices_S80x256_o47_0_S1x256 : S80x256.Slices ![47, 0] S1x256
  slices_S80x160x256_o47_0_0_S1x160x256 : S80x160x256.Slices ![47, 0, 0] S1x160x256
  slices_S80x256_o48_0_S1x256 : S80x256.Slices ![48, 0] S1x256
  slices_S80x160x256_o48_0_0_S1x160x256 : S80x160x256.Slices ![48, 0, 0] S1x160x256
  slices_S80x256_o49_0_S1x256 : S80x256.Slices ![49, 0] S1x256
  slices_S80x160x256_o49_0_0_S1x160x256 : S80x160x256.Slices ![49, 0, 0] S1x160x256
  slices_S80x256_o50_0_S1x256 : S80x256.Slices ![50, 0] S1x256
  slices_S80x160x256_o50_0_0_S1x160x256 : S80x160x256.Slices ![50, 0, 0] S1x160x256
  slices_S80x256_o51_0_S1x256 : S80x256.Slices ![51, 0] S1x256
  slices_S80x160x256_o51_0_0_S1x160x256 : S80x160x256.Slices ![51, 0, 0] S1x160x256
  slices_S80x256_o52_0_S1x256 : S80x256.Slices ![52, 0] S1x256
  slices_S80x160x256_o52_0_0_S1x160x256 : S80x160x256.Slices ![52, 0, 0] S1x160x256
  slices_S80x256_o53_0_S1x256 : S80x256.Slices ![53, 0] S1x256
  slices_S80x160x256_o53_0_0_S1x160x256 : S80x160x256.Slices ![53, 0, 0] S1x160x256
  slices_S80x256_o54_0_S1x256 : S80x256.Slices ![54, 0] S1x256
  slices_S80x160x256_o54_0_0_S1x160x256 : S80x160x256.Slices ![54, 0, 0] S1x160x256
  slices_S80x256_o55_0_S1x256 : S80x256.Slices ![55, 0] S1x256
  slices_S80x160x256_o55_0_0_S1x160x256 : S80x160x256.Slices ![55, 0, 0] S1x160x256
  slices_S80x256_o56_0_S1x256 : S80x256.Slices ![56, 0] S1x256
  slices_S80x160x256_o56_0_0_S1x160x256 : S80x160x256.Slices ![56, 0, 0] S1x160x256
  slices_S80x256_o57_0_S1x256 : S80x256.Slices ![57, 0] S1x256
  slices_S80x160x256_o57_0_0_S1x160x256 : S80x160x256.Slices ![57, 0, 0] S1x160x256
  slices_S80x256_o58_0_S1x256 : S80x256.Slices ![58, 0] S1x256
  slices_S80x160x256_o58_0_0_S1x160x256 : S80x160x256.Slices ![58, 0, 0] S1x160x256
  slices_S80x256_o59_0_S1x256 : S80x256.Slices ![59, 0] S1x256
  slices_S80x160x256_o59_0_0_S1x160x256 : S80x160x256.Slices ![59, 0, 0] S1x160x256
  slices_S80x256_o60_0_S1x256 : S80x256.Slices ![60, 0] S1x256
  slices_S80x160x256_o60_0_0_S1x160x256 : S80x160x256.Slices ![60, 0, 0] S1x160x256
  slices_S80x256_o61_0_S1x256 : S80x256.Slices ![61, 0] S1x256
  slices_S80x160x256_o61_0_0_S1x160x256 : S80x160x256.Slices ![61, 0, 0] S1x160x256
  slices_S80x256_o62_0_S1x256 : S80x256.Slices ![62, 0] S1x256
  slices_S80x160x256_o62_0_0_S1x160x256 : S80x160x256.Slices ![62, 0, 0] S1x160x256
  slices_S80x256_o63_0_S1x256 : S80x256.Slices ![63, 0] S1x256
  slices_S80x160x256_o63_0_0_S1x160x256 : S80x160x256.Slices ![63, 0, 0] S1x160x256
  slices_S80x256_o64_0_S1x256 : S80x256.Slices ![64, 0] S1x256
  slices_S80x160x256_o64_0_0_S1x160x256 : S80x160x256.Slices ![64, 0, 0] S1x160x256
  slices_S80x256_o65_0_S1x256 : S80x256.Slices ![65, 0] S1x256
  slices_S80x160x256_o65_0_0_S1x160x256 : S80x160x256.Slices ![65, 0, 0] S1x160x256
  slices_S80x256_o66_0_S1x256 : S80x256.Slices ![66, 0] S1x256
  slices_S80x160x256_o66_0_0_S1x160x256 : S80x160x256.Slices ![66, 0, 0] S1x160x256
  slices_S80x256_o67_0_S1x256 : S80x256.Slices ![67, 0] S1x256
  slices_S80x160x256_o67_0_0_S1x160x256 : S80x160x256.Slices ![67, 0, 0] S1x160x256
  slices_S80x256_o68_0_S1x256 : S80x256.Slices ![68, 0] S1x256
  slices_S80x160x256_o68_0_0_S1x160x256 : S80x160x256.Slices ![68, 0, 0] S1x160x256
  slices_S80x256_o69_0_S1x256 : S80x256.Slices ![69, 0] S1x256
  slices_S80x160x256_o69_0_0_S1x160x256 : S80x160x256.Slices ![69, 0, 0] S1x160x256
  slices_S80x256_o70_0_S1x256 : S80x256.Slices ![70, 0] S1x256
  slices_S80x160x256_o70_0_0_S1x160x256 : S80x160x256.Slices ![70, 0, 0] S1x160x256
  slices_S80x256_o71_0_S1x256 : S80x256.Slices ![71, 0] S1x256
  slices_S80x160x256_o71_0_0_S1x160x256 : S80x160x256.Slices ![71, 0, 0] S1x160x256
  slices_S80x256_o72_0_S1x256 : S80x256.Slices ![72, 0] S1x256
  slices_S80x160x256_o72_0_0_S1x160x256 : S80x160x256.Slices ![72, 0, 0] S1x160x256
  slices_S80x256_o73_0_S1x256 : S80x256.Slices ![73, 0] S1x256
  slices_S80x160x256_o73_0_0_S1x160x256 : S80x160x256.Slices ![73, 0, 0] S1x160x256
  slices_S80x256_o74_0_S1x256 : S80x256.Slices ![74, 0] S1x256
  slices_S80x160x256_o74_0_0_S1x160x256 : S80x160x256.Slices ![74, 0, 0] S1x160x256
  slices_S80x256_o75_0_S1x256 : S80x256.Slices ![75, 0] S1x256
  slices_S80x160x256_o75_0_0_S1x160x256 : S80x160x256.Slices ![75, 0, 0] S1x160x256
  slices_S80x256_o76_0_S1x256 : S80x256.Slices ![76, 0] S1x256
  slices_S80x160x256_o76_0_0_S1x160x256 : S80x160x256.Slices ![76, 0, 0] S1x160x256
  slices_S80x256_o77_0_S1x256 : S80x256.Slices ![77, 0] S1x256
  slices_S80x160x256_o77_0_0_S1x160x256 : S80x160x256.Slices ![77, 0, 0] S1x160x256
  slices_S80x256_o78_0_S1x256 : S80x256.Slices ![78, 0] S1x256
  slices_S80x160x256_o78_0_0_S1x160x256 : S80x160x256.Slices ![78, 0, 0] S1x160x256
  slices_S80x256_o79_0_S1x256 : S80x256.Slices ![79, 0] S1x256
  slices_S80x160x256_o79_0_0_S1x160x256 : S80x160x256.Slices ![79, 0, 0] S1x160x256
  inb_S9x160x256_S1x160x256_0_0_0 : ∀ a, (![0, 0, 0] : Fin 3 → Nat) a + S1x160x256.size a ≤ S9x160x256.size a
  h_S1x160x256 : 0 < S1x160x256.numel
  shapeCasts_S160x256_S1x160x256 : S160x256.ShapeCasts S1x160x256
  inb_S9x160x256_S1x160x256_1_0_0 : ∀ a, (![1, 0, 0] : Fin 3 → Nat) a + S1x160x256.size a ≤ S9x160x256.size a
  inb_S9x160x256_S1x160x256_2_0_0 : ∀ a, (![2, 0, 0] : Fin 3 → Nat) a + S1x160x256.size a ≤ S9x160x256.size a
  inb_S9x160x256_S1x160x256_3_0_0 : ∀ a, (![3, 0, 0] : Fin 3 → Nat) a + S1x160x256.size a ≤ S9x160x256.size a
  inb_S9x160x256_S1x160x256_4_0_0 : ∀ a, (![4, 0, 0] : Fin 3 → Nat) a + S1x160x256.size a ≤ S9x160x256.size a
  inb_S9x160x256_S1x160x256_5_0_0 : ∀ a, (![5, 0, 0] : Fin 3 → Nat) a + S1x160x256.size a ≤ S9x160x256.size a
  inb_S9x160x256_S1x160x256_6_0_0 : ∀ a, (![6, 0, 0] : Fin 3 → Nat) a + S1x160x256.size a ≤ S9x160x256.size a
  inb_S9x160x256_S1x160x256_7_0_0 : ∀ a, (![7, 0, 0] : Fin 3 → Nat) a + S1x160x256.size a ≤ S9x160x256.size a
  inb_S9x160x256_S1x160x256_8_0_0 : ∀ a, (![8, 0, 0] : Fin 3 → Nat) a + S1x160x256.size a ≤ S9x160x256.size a
  transposes_S9x160x2048_S2048x9x160_2_0_1 : S9x160x2048.Transposes [2, 0, 1] S2048x9x160
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S9x40x256.size a ≤ S9x40x2048.size a
  hwx0_0 : ∀ i : grid0.Coords, EltTy.bits .f32 = 32 ∨ (Rect.block (s := S9x40x2048) S9x40x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S40x80x256.size a ≤ S40x80x2048.size a
  hwx0_1 : ∀ i : grid0.Coords, EltTy.bits .bf16 = 32 ∨ (Rect.block (s := S40x80x2048) S40x80x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S9x9x256.size a ≤ S9x9x2048.size a
  hwx0_2 : ∀ i : grid0.Coords, EltTy.bits .f32 = 32 ∨ (Rect.block (s := S9x9x2048) S9x9x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S80x160x256.size a ≤ S80x160x2048.size a
  hwx0_3 : ∀ i : grid0.Coords, EltTy.bits .bf16 = 32 ∨ (Rect.block (s := S80x160x2048) S80x160x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S9x160x256.size a ≤ S9x160x2048.size a
  hwx0_4 : ∀ i : grid0.Coords, EltTy.bits .f32 = 32 ∨ (Rect.block (s := S9x160x2048) S9x160x256.size (cc0_transform_4 i) (hinb0_4 i)).WholeWords (EltTy.packing .f32)

variable [Facts₀]

abbrev spec0_0 : Pipeline.WinSpec sig grid0.rank :=
  Pipeline.WinSpec.ofSpec (Memref.whole main_v0) S9x40x256.size reads0_0 false false 2 stage0_0 sem0_0 nbuf0_0 hstage0_0

abbrev spec0_1 : Pipeline.WinSpec sig grid0.rank :=
  Pipeline.WinSpec.ofSpec (Memref.whole main_v2) S40x80x256.size reads0_1 false false 2 stage0_1 sem0_1 nbuf0_1 hstage0_1

abbrev spec0_2 : Pipeline.WinSpec sig grid0.rank :=
  Pipeline.WinSpec.ofSpec (Memref.whole main_v3) S9x9x256.size reads0_2 false false 2 stage0_2 sem0_2 nbuf0_2 hstage0_2

abbrev spec0_3 : Pipeline.WinSpec sig grid0.rank :=
  Pipeline.WinSpec.ofSpec (Memref.whole main_v5) S80x160x256.size reads0_3 false false 2 stage0_3 sem0_3 nbuf0_3 hstage0_3

abbrev spec0_4 : Pipeline.WinSpec sig grid0.rank :=
  Pipeline.WinSpec.ofSpec (Memref.whole main_v6) S9x160x256.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S9 : Shape := ⟨1, ![9]⟩
abbrev S2048x9x40 : Shape := ⟨3, ![2048, 9, 40]⟩
abbrev S2048x40x80 : Shape := ⟨3, ![2048, 40, 80]⟩
abbrev S2048x80x160 : Shape := ⟨3, ![2048, 80, 160]⟩
abbrev S2048x9x9 : Shape := ⟨3, ![2048, 9, 9]⟩
abbrev S_ : Shape := ⟨0, ![]⟩
abbrev S9x1 : Shape := ⟨2, ![9, 1]⟩
abbrev S2048x9x80 : Shape := ⟨3, ![2048, 9, 80]⟩
abbrev S2048x9x160 : Shape := ⟨3, ![2048, 9, 160]⟩

abbrev nBuf : Space → Nat
  | .hbm => 34
  | .vmem => 0
  | .smem => 0
  | _ => 0

abbrev bufTy : (tb : Table) → Fin (tcTables nBuf tb) → BufTy
  | .hbm, ⟨0, _⟩ => ⟨S9, .i32⟩
  | .hbm, ⟨1, _⟩ => ⟨S2048x9x40, .f32⟩
  | .hbm, ⟨2, _⟩ => ⟨S2048x40x80, .f32⟩
  | .hbm, ⟨3, _⟩ => ⟨S2048x80x160, .f32⟩
  | .hbm, ⟨4, _⟩ => ⟨S2048x9x9, .f32⟩
  | .hbm, ⟨5, _⟩ => ⟨S_, .i32⟩
  | .hbm, ⟨6, _⟩ => ⟨S9, .i32⟩
  | .hbm, ⟨7, _⟩ => ⟨S9, .i1⟩
  | .hbm, ⟨8, _⟩ => ⟨S_, .i32⟩
  | .hbm, ⟨9, _⟩ => ⟨S9, .i32⟩
  | .hbm, ⟨10, _⟩ => ⟨S9, .i32⟩
  | .hbm, ⟨11, _⟩ => ⟨S9, .i32⟩
  | .hbm, ⟨12, _⟩ => ⟨S9x1, .i32⟩
  | .hbm, ⟨13, _⟩ => ⟨S2048x9x40, .f32⟩
  | .hbm, ⟨14, _⟩ => ⟨S2048x9x80, .f32⟩
  | .hbm, ⟨15, _⟩ => ⟨S2048x9x80, .f32⟩
  | .hbm, ⟨16, _⟩ => ⟨S_, .f32⟩
  | .hbm, ⟨17, _⟩ => ⟨S_, .f32⟩
  | .hbm, ⟨18, _⟩ => ⟨S2048x9x80, .f32⟩
  | .hbm, ⟨19, _⟩ => ⟨S2048x9x80, .i1⟩
  | .hbm, ⟨20, _⟩ => ⟨S_, .f32⟩
  | .hbm, ⟨21, _⟩ => ⟨S2048x9x80, .f32⟩
  | .hbm, ⟨22, _⟩ => ⟨S2048x9x80, .f32⟩
  | .hbm, ⟨23, _⟩ => ⟨S2048x9x80, .f32⟩
  | .hbm, ⟨24, _⟩ => ⟨S2048x9x160, .f32⟩
  | .hbm, ⟨25, _⟩ => ⟨S2048x9x160, .f32⟩
  | .hbm, ⟨26, _⟩ => ⟨S_, .f32⟩
  | .hbm, ⟨27, _⟩ => ⟨S_, .f32⟩
  | .hbm, ⟨28, _⟩ => ⟨S2048x9x160, .f32⟩
  | .hbm, ⟨29, _⟩ => ⟨S2048x9x160, .i1⟩
  | .hbm, ⟨30, _⟩ => ⟨S_, .f32⟩
  | .hbm, ⟨31, _⟩ => ⟨S2048x9x160, .f32⟩
  | .hbm, ⟨32, _⟩ => ⟨S2048x9x160, .f32⟩
  | .hbm, ⟨33, _⟩ => ⟨S2048x9x160, .f32⟩
  | _, _ => ⟨S9, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_call1_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v12 : Ref sig .tc := ⟨.hbm, 33, rfl⟩

abbrev nD : Nat := 1
abbrev τ : Topo := Topo.v7x

variable {F : FTy → Type} [FloatOps F]

class Facts₀ : Prop where
  bcast_S_S9 : S_.BroadcastsInDim S9 (![] : Fin 0 → Fin S9.rank)
  bcast_S9_S9x1_0 : S9.BroadcastsInDim S9x1 (![0] : Fin 1 → Fin S9x1.rank)
  bcast_S_S2048x9x80 : S_.BroadcastsInDim S2048x9x80 (![] : Fin 0 → Fin S2048x9x80.rank)
  bcast_S_S2048x9x160 : S_.BroadcastsInDim S2048x9x160 (![] : Fin 0 → Fin S2048x9x160.rank)
  gather_S2048x9x40_S9x1_S2048x9x40_02_1_n_n_1_1_2048140_wf : GatherDims.WF S2048x9x40 S9x1 S2048x9x40 [0, 2] [1] [] [1] [] 1 ![2048, 1, 40]
  dot_S2048x9x40_S2048x40x80_S2048x9x80_2_1_1_2_0_0_wf : DotDims.WF S2048x9x40 S2048x40x80 S2048x9x80 [2] [1] [1] [2] [0] [0]
  dot_S2048x9x9_S2048x9x80_S2048x9x80_2_1_1_2_0_0_wf : DotDims.WF S2048x9x9 S2048x9x80 S2048x9x80 [2] [1] [1] [2] [0] [0]
  dot_S2048x9x80_S2048x80x160_S2048x9x160_2_1_1_2_0_0_wf : DotDims.WF S2048x9x80 S2048x80x160 S2048x9x160 [2] [1] [1] [2] [0] [0]
  dot_S2048x9x9_S2048x9x160_S2048x9x160_2_1_1_2_0_0_wf : DotDims.WF S2048x9x9 S2048x9x160 S2048x9x160 [2] [1] [1] [2] [0] [0]

variable [Facts₀]

def gather_S2048x9x40_S9x1_S2048x9x40_02_1_n_n_1_1_2048140 : GatherDims S2048x9x40 S9x1 S2048x9x40 where
  offsetDims := [0, 2]
  collapsedSliceDims := [1]
  operandBatchingDims := []
  startIndicesBatchingDims := []
  startIndexMap := [1]
  indexVectorDim := 1
  sliceSizes := ![2048, 1, 40]
  wf := gather_S2048x9x40_S9x1_S2048x9x40_02_1_n_n_1_1_2048140_wf
def dot_S2048x9x40_S2048x40x80_S2048x9x80_2_1_1_2_0_0 : DotDims S2048x9x40 S2048x40x80 S2048x9x80 where
  lhsContracting := [2]
  rhsContracting := [1]
  lhsNonContracting := [1]
  rhsNonContracting := [2]
  lhsBatch := [0]
  rhsBatch := [0]
  wf := dot_S2048x9x40_S2048x40x80_S2048x9x80_2_1_1_2_0_0_wf
def dot_S2048x9x9_S2048x9x80_S2048x9x80_2_1_1_2_0_0 : DotDims S2048x9x9 S2048x9x80 S2048x9x80 where
  lhsContracting := [2]
  rhsContracting := [1]
  lhsNonContracting := [1]
  rhsNonContracting := [2]
  lhsBatch := [0]
  rhsBatch := [0]
  wf := dot_S2048x9x9_S2048x9x80_S2048x9x80_2_1_1_2_0_0_wf
def dot_S2048x9x80_S2048x80x160_S2048x9x160_2_1_1_2_0_0 : DotDims S2048x9x80 S2048x80x160 S2048x9x160 where
  lhsContracting := [2]
  rhsContracting := [1]
  lhsNonContracting := [1]
  rhsNonContracting := [2]
  lhsBatch := [0]
  rhsBatch := [0]
  wf := dot_S2048x9x80_S2048x80x160_S2048x9x160_2_1_1_2_0_0_wf
def dot_S2048x9x9_S2048x9x160_S2048x9x160_2_1_1_2_0_0 : DotDims S2048x9x9 S2048x9x160 S2048x9x160 where
  lhsContracting := [2]
  rhsContracting := [1]
  lhsNonContracting := [1]
  rhsNonContracting := [2]
  lhsBatch := [0]
  rhsBatch := [0]
  wf := dot_S2048x9x9_S2048x9x160_S2048x9x160_2_1_1_2_0_0_wf

class Facts : Prop extends Facts₀ where

variable [Facts]
-- ==== Proof.Spec.lean ====
/-
  The mathematics both programs compute, on the extended reals, one branch at a time.

  A branch `p` (of 2048) has an embedding table `e` (9 rows of 40 features), two weight matrices
  `w1` (40 × 80) and `w2` (80 × 160) and a mixing matrix `a` (9 × 9); the nine graph nodes share a
  node-to-row map `nd`. With `y n f = e (nd n) f` the gathered features, the kernel contracts the
  node axis first in each layer,

      g1 n f = ∑ m, a n m * y m f          h1 n h = lrelu (∑ f, g1 n f * w1 f h)
      g2 n h = ∑ m, a n m * h1 m h         out n o = lrelu (∑ h, g2 n h * w2 h o)

  and the reference the feature axis first,

      z1 n h = ∑ f, y n f * w1 f h         r1 n h = lrelu (∑ m, a n m * z1 m h)
      z2 n o = ∑ h, r1 n h * w2 h o        out n o = lrelu (∑ m, a n m * z2 m o).

  `lrelu c t` is `t` where `0 ≤ t` and `c * t` elsewhere; `c` is the slope both programs carry.
  The two differ by the order of two finite sums in each layer, which agree when every entry is a real
  number (an infinite entry breaks distributivity on the extended reals).

  Every entry of a result depends on its own branch only, so the whole arrays, and the kernel's
  lane-major blocks of them, are these functions with the branch's entries plugged in.
-/
import Idealize.ShloMosaic.PureOps.Ideal
import Idealize.ShloMosaic.Lib.ValueIdx

noncomputable section

namespace Cert.Gcn

open Idealize.ShloMosaic Idealize.ShloMosaic.ValueIdx

/-- The leaky rectifier with slope `c`: the identity on the non-negative extended reals, the
    product with `c` on the others. -/
def lrelu (c t : EReal) : EReal := if 0 ≤ t then t else c * t

/-- The table row a node's index word names. A word in `[0, 9)` names that row; the remainder makes the
    map total (both programs are only compared where every word is in range). -/
def nodeOf (w : BitVec 32) : Fin 9 := ⟨w.toNat % 9, Nat.mod_lt _ (by decide)⟩

theorem nodeOf_val_of_lt {w : BitVec 32} (h : w.toNat < 9) : (nodeOf w).val = w.toNat :=
  Nat.mod_eq_of_lt h

section Branch

variable (c : EReal) (nd : Fin 9 → Fin 9) (e : Fin 9 → Fin 40 → EReal) (w1 : Fin 40 → Fin 80 → EReal)
  (w2 : Fin 80 → Fin 160 → EReal) (a : Fin 9 → Fin 9 → EReal)

/-- The gathered features: node `n` reads row `nd n` of the table. -/
def gat (n : Fin 9) (f : Fin 40) : EReal := e (nd n) f

/-! ### The kernel's order: the node axis first -/

def kG1 (n : Fin 9) (f : Fin 40) : EReal := ∑ m : Fin 9, a n m * gat nd e m f
def kH1 (n : Fin 9) (h : Fin 80) : EReal := lrelu c (∑ f : Fin 40, kG1 nd e a n f * w1 f h)
def kG2 (n : Fin 9) (h : Fin 80) : EReal := ∑ m : Fin 9, a n m * kH1 c nd e w1 a m h
def kOut (n : Fin 9) (o : Fin 160) : EReal := lrelu c (∑ h : Fin 80, kG2 c nd e w1 a n h * w2 h o)

/-! ### The reference's order: the feature axis first -/

def rZ1 (n : Fin 9) (h : Fin 80) : EReal := ∑ f : Fin 40, gat nd e n f * w1 f h
def rH1 (n : Fin 9) (h : Fin 80) : EReal := lrelu c (∑ m : Fin 9, a n m * rZ1 nd e w1 m h)
def rZ2 (n : Fin 9) (o : Fin 160) : EReal := ∑ h : Fin 80, rH1 c nd e w1 a n h * w2 h o
def rOut (n : Fin 9) (o : Fin 160) : EReal := lrelu c (∑ m : Fin 9, a n m * rZ2 c nd e w1 w2 a m o)

end Branch

/-! ### The whole arrays: branch `p` is the leading coordinate of every argument and of the result -/

abbrev SX : Shape := ⟨1, ![9]⟩
abbrev SEmb : Shape := ⟨3, ![2048, 9, 40]⟩
abbrev SW1 : Shape := ⟨3, ![2048, 40, 80]⟩
abbrev SW2 : Shape := ⟨3, ![2048, 80, 160]⟩
abbrev SA : Shape := ⟨3, ![2048, 9, 9]⟩
abbrev SOut : Shape := ⟨3, ![2048, 9, 160]⟩

variable (c : EReal) (X : SX.Idx → BitVec 32) (EMB : SEmb.Idx → EReal) (W1 : SW1.Idx → EReal)
  (W2 : SW2.Idx → EReal) (A : SA.Idx → EReal)

/-- The result array in the kernel's order of sums. -/
def kerArr : SOut.Idx → EReal := fun j =>
  kOut c (fun n => nodeOf (X (ix1 n))) (fun v f => EMB (ix3 (j 0) v f)) (fun f h => W1 (ix3 (j 0) f h))
    (fun h o => W2 (ix3 (j 0) h o)) (fun n m => A (ix3 (j 0) n m)) (j 1) (j 2)

/-- The result array in the reference's order of sums. -/
def refArr : SOut.Idx → EReal := fun j =>
  rOut c (fun n => nodeOf (X (ix1 n))) (fun v f => EMB (ix3 (j 0) v f)) (fun f h => W1 (ix3 (j 0) f h))
    (fun h o => W2 (ix3 (j 0) h o)) (fun n m => A (ix3 (j 0) n m)) (j 1) (j 2)

end Cert.Gcn

end
-- ==== Proof.Algebra.lean ====
/-
  The two orders of summation agree on real entries.

  In each layer the kernel forms `∑ f, (∑ m, a n m * y m f) * w f h` and the reference
  `∑ m, a n m * (∑ f, y m f * w f h)`. Both are the double sum `∑ m, ∑ f, a n m * y m f * w f h`
  once a factor may be moved across a finite sum, which on the extended reals needs the entries to
  be real numbers. The leaky rectifier of a real number with a real slope is a real number, so the
  hidden layer's entries are real again and the second layer is the same argument.
-/
import proofs.«408013_j76982993813545_3_alg».proof.Proof.Spec

noncomputable section

namespace Cert.Gcn

open scoped BigOperators

/-- The coercion of a finite sum of reals is the sum of the coercions. -/
private theorem coe_finset_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- On coerced reals, contracting `κ` first and then `φ` equals contracting `φ` first and then `κ`:
    both are the double sum of the triple products. -/
private theorem sum_assoc_coe {κ φ : Type*} [Fintype κ] [Fintype φ]
    (A : κ → ℝ) (Y : κ → φ → ℝ) (W : φ → ℝ) :
    ∑ f, (∑ m, (A m : EReal) * (Y m f : EReal)) * (W f : EReal)
      = ∑ m, (A m : EReal) * ∑ f, (Y m f : EReal) * (W f : EReal) := by
  simp only [← EReal.coe_mul, ← coe_finset_sum]
  congr 1
  simp only [Finset.sum_mul, Finset.mul_sum]
  rw [Finset.sum_comm]
  refine Finset.sum_congr rfl fun m _ => Finset.sum_congr rfl fun f _ => ?_
  ring

/-- The same for extended-real entries each of which is the coercion of some real. -/
private theorem sum_assoc_of_real {κ φ : Type*} [Fintype κ] [Fintype φ]
    (A : κ → EReal) (Y : κ → φ → EReal) (W : φ → EReal)
    (hA : ∀ m, ∃ r : ℝ, A m = (r : EReal)) (hY : ∀ m f, ∃ r : ℝ, Y m f = (r : EReal))
    (hW : ∀ f, ∃ r : ℝ, W f = (r : EReal)) :
    ∑ f, (∑ m, A m * Y m f) * W f = ∑ m, A m * ∑ f, Y m f * W f := by
  choose A' hA using hA
  choose Y' hY using hY
  choose W' hW using hW
  simp only [hA, hY, hW]
  exact sum_assoc_coe A' Y' W'

/-- A finite sum of products of coerced reals is the coercion of a real. -/
private theorem sum_mul_real {κ : Type*} [Fintype κ] (A B : κ → EReal)
    (hA : ∀ m, ∃ r : ℝ, A m = (r : EReal)) (hB : ∀ m, ∃ r : ℝ, B m = (r : EReal)) :
    ∃ r : ℝ, ∑ m, A m * B m = (r : EReal) := by
  choose A' hA using hA
  choose B' hB using hB
  refine ⟨∑ m, A' m * B' m, ?_⟩
  simp only [hA, hB, ← EReal.coe_mul, ← coe_finset_sum]

/-- The leaky rectifier with a real slope sends real numbers to real numbers. -/
theorem lrelu_real (c t : ℝ) : ∃ r : ℝ, lrelu (c : EReal) (t : EReal) = (r : EReal) := by
  unfold lrelu
  by_cases h : (0 : EReal) ≤ (t : EReal)
  · exact ⟨t, by rw [if_pos h]⟩
  · exact ⟨c * t, by rw [if_neg h, EReal.coe_mul]⟩

/-- One branch: on real entries the kernel's order of sums and the reference's give the same result. -/
theorem kOut_eq_rOut (c : ℝ) (nd : Fin 9 → Fin 9) (e : Fin 9 → Fin 40 → EReal) (w1 : Fin 40 → Fin 80 → EReal)
    (w2 : Fin 80 → Fin 160 → EReal) (a : Fin 9 → Fin 9 → EReal)
    (he : ∀ v f, ∃ r : ℝ, e v f = (r : EReal)) (hw1 : ∀ f h, ∃ r : ℝ, w1 f h = (r : EReal))
    (hw2 : ∀ h o, ∃ r : ℝ, w2 h o = (r : EReal)) (ha : ∀ n m, ∃ r : ℝ, a n m = (r : EReal))
    (n : Fin 9) (o : Fin 160) :
    kOut (c : EReal) nd e w1 w2 a n o = rOut (c : EReal) nd e w1 w2 a n o := by
  -- the gathered features are real
  have hgat : ∀ m f, ∃ r : ℝ, gat nd e m f = (r : EReal) := fun m f => he (nd m) f
  -- first layer: the two orders agree entry by entry
  have hH : ∀ m h, kH1 (c : EReal) nd e w1 a m h = rH1 (c : EReal) nd e w1 a m h := by
    intro m h
    unfold kH1 rH1 kG1 rZ1
    rw [sum_assoc_of_real (a m) (gat nd e) (fun f => w1 f h) (ha m) hgat (fun f => hw1 f h)]
  -- the hidden layer's entries are real again
  have hHr : ∀ m h, ∃ r : ℝ, rH1 (c : EReal) nd e w1 a m h = (r : EReal) := by
    intro m h
    unfold rH1
    obtain ⟨s, hs⟩ := sum_mul_real (a m) (fun m' => rZ1 nd e w1 m' h) (ha m)
      (fun m' => sum_mul_real (gat nd e m') (fun f => w1 f h) (hgat m') (fun f => hw1 f h))
    rw [hs]
    exact lrelu_real c s
  -- second layer: the same re-association over the hidden entries
  unfold kOut rOut kG2 rZ2
  simp only [hH]
  rw [sum_assoc_of_real (a n) (rH1 (c : EReal) nd e w1 a) (fun h => w2 h o) (ha n) hHr
    (fun h => hw2 h o)]

/-- The whole arrays: on real entries the two orders give the same array. -/
theorem kerArr_eq_refArr (c : ℝ) (X : SX.Idx → BitVec 32) (EMB : SEmb.Idx → EReal) (W1 : SW1.Idx → EReal)
    (W2 : SW2.Idx → EReal) (A : SA.Idx → EReal)
    (hEMB : ∀ i, ∃ r : ℝ, EMB i = (r : EReal)) (hW1 : ∀ i, ∃ r : ℝ, W1 i = (r : EReal))
    (hW2 : ∀ i, ∃ r : ℝ, W2 i = (r : EReal)) (hA : ∀ i, ∃ r : ℝ, A i = (r : EReal)) :
    kerArr (c : EReal) X EMB W1 W2 A = refArr (c : EReal) X EMB W1 W2 A := by
  funext j
  unfold kerArr refArr
  exact kOut_eq_rOut c _ _ _ _ _ (fun _ _ => hEMB _) (fun _ _ => hW1 _) (fun _ _ => hW2 _)
    (fun _ _ => hA _) (j 1) (j 2)

end Cert.Gcn

end
-- ==== Proof.Slope.lean ====
/-
  The slope constant both programs carry, the single-precision pattern `0x3E4CCCCD` (the nearest
  such number to one fifth), denotes a real number: its exponent field is not all ones.
-/
import Idealize.ShloMosaic.PureOps.Ideal

noncomputable section

namespace Cert.Gcn

open Idealize.ShloMosaic

/-- The slope's pattern denotes a real number. -/
theorem slope_real : ∃ r : ℝ, Ideal.ofBits .f32 0x3E4CCCCD#32 = (r : EReal) := by
  -- The exponent field (bits 23 to 30) is 124: neither all ones (255) nor zero, so the pattern
  -- denotes a normal number, the coercion of (2 ^ 23 + fraction) * 2 ^ (124 - 127 - 23).
  have hex : ((0x3E4CCCCD#32 : BitVec 32).extractLsb' 23 8).toNat = 124 := by decide
  show ∃ r : ℝ, Ideal.ieee 8 23 (0x3E4CCCCD#32 : BitVec 32) = (r : EReal)
  unfold Ideal.ieee
  simp only [hex]
  rw [if_neg (by norm_num), if_neg (by norm_num)]
  exact ⟨_, rfl⟩

end Cert.Gcn

end
-- ==== Proof.PreFacts.lean ====
/-
  What the precondition says of the argument arrays, entry by entry: every node's index word lies in
  `[0, 9)` (read as a signed number it is at least 0 and below 9, so as a natural number it is below 9),
  and every entry of the four float arrays is a real number (its absolute value is below `+∞`).
  The precondition is the conjunction of five "all entries" reductions; each conjunct is read off
  by itself.
-/
import proofs.«408013_j76982993813545_3_alg».proof.Pre_finite_inputs
import proofs.«408013_j76982993813545_3_alg».proof.Proof.Gen.Pre_finite_inputs
import Idealize.ShloMosaic.PureOps.Ideal
import Idealize.ShloMosaic.Lib.ValueIdx
import Idealize.ShloMosaic.Lib.ReduceAll

noncomputable section

namespace Cert.Gcn.PreFacts

open Idealize.ShloMosaic Idealize.ShloMosaic.ValueIdx Cert.Pre_finite_inputs

/-- The scalar shape has one index. -/
instance : Subsingleton S_.Idx := ⟨fun a b => funext fun d => d.elim0⟩

/-- The precondition read entry by entry, at either reading of the floats: each of the four float
    arrays has every entry's absolute value below the pattern of `+∞`, and every index word is at
    least 0 and below 9 as a signed number. The precondition is a conjunction (`and` of one-bit
    words) of five "all entries" reductions; a conjunction that is 1 has both sides 1, and an
    all-reduction that is 1 had a 1 at every entry. -/
private theorem decode {F : FTy → Type} [FloatOps F] (x : IVec S9 32) (emb : FVec F S2048x9x40 .f32)
    (w1 : FVec F S2048x40x80 .f32) (w2 : FVec F S2048x80x160 .f32) (a : FVec F S2048x9x9 .f32)
    (h : fn (F := F) x emb w1 w2 a = fun _ => 1#1) :
    ((∀ i, FloatOps.cmpf .olt (FloatOps.hostAbsf (emb i)) (FloatOps.ofBits .f32 0x7F800000#32) = 1#1) ∧
      (∀ i, FloatOps.cmpf .olt (FloatOps.hostAbsf (w1 i)) (FloatOps.ofBits .f32 0x7F800000#32) = 1#1) ∧
      (∀ i, FloatOps.cmpf .olt (FloatOps.hostAbsf (w2 i)) (FloatOps.ofBits .f32 0x7F800000#32) = 1#1) ∧
      (∀ i, FloatOps.cmpf .olt (FloatOps.hostAbsf (a i)) (FloatOps.ofBits .f32 0x7F800000#32) = 1#1)) ∧
    (∀ i, IntOp.cmpi .sge (x i) 0#32 = 1#1 ∧ IntOp.cmpi .slt (x i) 9#32 = 1#1) := by
  have e := congrFun h ix0
  dsimp only [fn, fn_part1] at e
  simp only [andi, IntOp.andi_eq_one] at e
  obtain ⟨⟨⟨⟨h1, h2⟩, h3⟩, h4⟩, h5⟩ := e
  refine ⟨⟨fun i => ?_, fun i => ?_, fun i => ?_, fun i => ?_⟩, fun i => ?_⟩
  · exact Host.reduce_andi_all _ _ _ _ _ h1 i
  · exact Host.reduce_andi_all _ _ _ _ _ h2 i
  · exact Host.reduce_andi_all _ _ _ _ _ h3 i
  · exact Host.reduce_andi_all _ _ _ _ _ h4 i
  · exact IntOp.andi_eq_one.1 (Host.reduce_andi_all _ _ _ _ _ h5 i)

/-- A 32-bit word that is at least 0 and below 9 as a signed number is below 9 as a natural number:
    a word with the top bit set reads negative, and one with it clear reads as itself. -/
private theorem toNat_lt_nine (w : BitVec 32) (h0 : IntOp.cmpi .sge w 0#32 = 1#1)
    (h9 : IntOp.cmpi .slt w 9#32 = 1#1) : w.toNat < 9 := by
  rw [IntOp.cmpi_sge] at h0
  rw [IntOp.cmpi_slt] at h9
  have z : (0#32 : BitVec 32).toInt = 0 := by decide
  have n : (9#32 : BitVec 32).toInt = 9 := by decide
  rw [z] at h0
  rw [n] at h9
  have hl := w.isLt
  rw [BitVec.toInt_eq_toNat_cond] at h0 h9
  split at h0 <;> omega

/-- An extended real whose absolute value (the larger of it and its negation) is below `+∞`, the
    value of the pattern `0x7F800000`, is a real number: at `⊥` and at `⊤` the absolute value is `⊤`. -/
private theorem real_of_abs_lt (v : Ideal .f32)
    (hv : FloatOps.cmpf .olt (FloatOps.hostAbsf v) (FloatOps.ofBits .f32 0x7F800000#32 : Ideal .f32) = 1#1) :
    ∃ r : ℝ, v = (r : EReal) := by
  have htop : (FloatOps.ofBits .f32 0x7F800000#32 : Ideal .f32) = (⊤ : EReal) := by
    show Ideal.ofBits .f32 0x7F800000#32 = ⊤
    simp [Ideal.ofBits, Ideal.ieee]
  rw [htop] at hv
  change BitVec.ofBool (decide (max v (-v) < (⊤ : EReal))) = 1#1 at hv
  have hlt : max v (-v) < (⊤ : EReal) := by
    cases hd : decide (max v (-v) < (⊤ : EReal))
    · rw [hd] at hv; exact absurd hv (by decide)
    · exact of_decide_eq_true hd
  induction v using EReal.rec with
  | bot => simp at hlt
  | top => simp at hlt
  | coe r => exact ⟨r, rfl⟩

/-- Every node's index word is below 9 (at either reading of the floats: the conjunct is about integers). -/
theorem x_lt {F : FTy → Type} [FloatOps F] (x : IVec S9 32) (emb : FVec F S2048x9x40 .f32)
    (w1 : FVec F S2048x40x80 .f32) (w2 : FVec F S2048x80x160 .f32) (a : FVec F S2048x9x9 .f32)
    (h : fn (F := F) x emb w1 w2 a = fun _ => 1#1) (n : Fin 9) : (x (ix1 n)).toNat < 9 :=
  have hx := (decode x emb w1 w2 a h).2 (ix1 n)
  toNat_lt_nine _ hx.1 hx.2

/-- Every entry of the embedding tables is a real number. -/
theorem emb_real (x : IVec S9 32) (emb : FVec Ideal S2048x9x40 .f32) (w1 : FVec Ideal S2048x40x80 .f32)
    (w2 : FVec Ideal S2048x80x160 .f32) (a : FVec Ideal S2048x9x9 .f32)
    (h : fn (F := Ideal) x emb w1 w2 a = fun _ => 1#1) : ∀ i, ∃ r : ℝ, emb i = (r : EReal) :=
  fun i => real_of_abs_lt _ ((decode x emb w1 w2 a h).1.1 i)

/-- Every entry of the first weight array is a real number. -/
theorem w1_real (x : IVec S9 32) (emb : FVec Ideal S2048x9x40 .f32) (w1 : FVec Ideal S2048x40x80 .f32)
    (w2 : FVec Ideal S2048x80x160 .f32) (a : FVec Ideal S2048x9x9 .f32)
    (h : fn (F := Ideal) x emb w1 w2 a = fun _ => 1#1) : ∀ i, ∃ r : ℝ, w1 i = (r : EReal) :=
  fun i => real_of_abs_lt _ ((decode x emb w1 w2 a h).1.2.1 i)

/-- Every entry of the second weight array is a real number. -/
theorem w2_real (x : IVec S9 32) (emb : FVec Ideal S2048x9x40 .f32) (w1 : FVec Ideal S2048x40x80 .f32)
    (w2 : FVec Ideal S2048x80x160 .f32) (a : FVec Ideal S2048x9x9 .f32)
    (h : fn (F := Ideal) x emb w1 w2 a = fun _ => 1#1) : ∀ i, ∃ r : ℝ, w2 i = (r : EReal) :=
  fun i => real_of_abs_lt _ ((decode x emb w1 w2 a h).1.2.2.1 i)

/-- Every entry of the mixing matrices is a real number. -/
theorem a_real (x : IVec S9 32) (emb : FVec Ideal S2048x9x40 .f32) (w1 : FVec Ideal S2048x40x80 .f32)
    (w2 : FVec Ideal S2048x80x160 .f32) (a : FVec Ideal S2048x9x9 .f32)
    (h : fn (F := Ideal) x emb w1 w2 a = fun _ => 1#1) : ∀ i, ∃ r : ℝ, a i = (r : EReal) :=
  fun i => real_of_abs_lt _ ((decode x emb w1 w2 a h).1.2.2.2 i)

end Cert.Gcn.PreFacts

end
-- ==== Proof.KernelHyps.lean ====
/-
  The side conditions under which the generated frame of this program holds, from the certificate's
  precondition. The launch's index maps read no table word, so the pipeline's own side condition is
  immediate; the body assumes, of each of the nine index words it loads, that the table row the word
  names lies inside the nine rows of its block: the word, read as a natural number, is below 9, which
  is what the precondition says of every word. No host operation before the region writes the
  index array, so the words the region finds are the launch memory's.
-/
import proofs.«408013_j76982993813545_3_alg».proof.Defs
import proofs.«408013_j76982993813545_3_alg».proof.Proof.Gen.Kernel.Frame
import proofs.«408013_j76982993813545_3_alg».proof.Proof.Gen.Pre_finite_inputs
import proofs.«408013_j76982993813545_3_alg».proof.Proof.PreFacts

noncomputable section

namespace Cert.Kernel.PreHyps

open Idealize.ShloMosaic Idealize.SL.Sem Cert.Kernel Cert.Kernel.Gen

open Idealize.ShloMosaic.TcCoe Idealize.ShloMosaic.ValueIdx

/-- The index a one-element rectangle at offset `k` of the nine-word table names is index `k`: its
    one coordinate is the offset plus stride one times coordinate 0. -/
private theorem idx_eq (k : Fin 9) (off : Fin 1 → Nat) (hoff : off 0 = k.val)
    (inb : ∀ a, off a + S1.size a ≤ S9.size a) (h1 : 0 < S1.numel) :
    (Rect.unit (s := S9) off S1.size inb).idx (Shape.Idx.first h1) = ix1 k := by
  funext a
  apply Fin.ext
  match a with
  | ⟨0, _⟩ =>
    show off 0 + 1 * (Shape.Idx.first h1 (0 : Fin 1)).val = k.val
    have h0 : (Shape.Idx.first h1 (0 : Fin 1)).val = 0 := rfl
    rw [h0, hoff]
    omega

/-- The word the body reads at position `k` of the table is the launch memory's word at index `k`:
    the table is read through its whole buffer, whose contents no host operation before the region
    writes. -/
private theorem word (m : (ℓ : Loc nD τ sig) → Buf (Elt Bits) ℓ) (k : Fin 9) (off : Fin 1 → Nat)
    (hoff : off 0 = k.val) (inb : ∀ a, off a + S1.size a ≤ S9.size a) (h1 : 0 < S1.numel) :
    tbM0_0.view.readAt (Elt Bits) (Rect.unit (s := S9) off S1.size inb).toLoadRect (tbl m 0) (Shape.Idx.first h1)
      = m (((0 : Dev nD) : Thread nD τ).loc main_arg0) (ix1 k) := by
  have e : tbl m 0 = m (((0 : Dev nD) : Thread nD τ).loc main_arg0) := V_main_arg0 m 0
  rw [e]
  exact congrArg (m (((0 : Dev nD) : Thread nD τ).loc main_arg0)) (idx_eq k off hoff inb h1)

/-- A word below 9 names a row of the nine-row block: on the row axis the word plus one row is at most
    nine rows, and on the other two axes the block is the whole extent. -/
private theorem chk (w : BitVec 32) (hw : w.toNat < 9) : k0_chk1 w := by
  intro a
  have e : (Scalar.indexCast w).toNat = w.toNat := rfl
  match a with
  | ⟨0, _⟩ => show (Scalar.indexCast w).toNat + 1 ≤ 9; omega
  | ⟨1, _⟩ => show 0 + 40 ≤ 40; omega
  | ⟨2, _⟩ => show 0 + 256 ≤ 256; omega

/-- The precondition's bound at the word the body reads at position `k`. -/
private theorem chk_at (m : (ℓ : Loc nD τ sig) → Buf (Elt Bits) ℓ) (h : Cert.Pre_Kernel m) (k : Fin 9)
    (off : Fin 1 → Nat) (hoff : off 0 = k.val) (inb : ∀ a, off a + S1.size a ≤ S9.size a) (h1 : 0 < S1.numel) :
    k0_chk1 (tbM0_0.view.readAt (Elt Bits) (Rect.unit (s := S9) off S1.size inb).toLoadRect (tbl m 0) (Shape.Idx.first h1)) := by
  rw [word m k off hoff inb h1]
  exact chk _ (Cert.Gcn.PreFacts.x_lt _ _ _ _ _ (h 0) k)

/-- The pipeline's side condition of the prefetched words holds of every memory. -/
theorem ok_of_pre (m : (ℓ : Loc nD τ sig) → Buf (Elt Bits) ℓ) (h : Cert.Pre_Kernel m) : Ok (F := Bits) m := by
  trivial

/-- The nine side conditions the body assumes hold at every grid point, by the precondition. -/
theorem hyps_of_pre (m : (ℓ : Loc nD τ sig) → Buf (Elt Bits) ℓ) (h : Cert.Pre_Kernel m) (hO : Ok (F := Bits) m) :
    Hyps (F := Bits) m hO := by
  refine Hyps.of ?_ ?_ ?_ ?_ ?_ ?_ ?_ ?_ ?_ <;> intro c t
  · exact chk_at m h ⟨0, by decide⟩ _ rfl _ _
  · exact chk_at m h ⟨1, by decide⟩ _ rfl _ _
  · exact chk_at m h ⟨2, by decide⟩ _ rfl _ _
  · exact chk_at m h ⟨3, by decide⟩ _ rfl _ _
  · exact chk_at m h ⟨4, by decide⟩ _ rfl _ _
  · exact chk_at m h ⟨5, by decide⟩ _ rfl _ _
  · exact chk_at m h ⟨6, by decide⟩ _ rfl _ _
  · exact chk_at m h ⟨7, by decide⟩ _ rfl _ _
  · exact chk_at m h ⟨8, by decide⟩ _ rfl _ _

end Cert.Kernel.PreHyps

end
-- ==== Proof.KernelIdealHyps.lean ====
/-
  The side conditions under which the generated frame of this program holds, from the certificate's
  precondition. The launch's index maps read no table word, so the pipeline's own side condition is
  immediate; the body assumes, of each of the nine index words it loads, that the table row the word
  names lies inside the nine rows of its block: the word, read as a natural number, is below 9, which
  is what the precondition says of every word. No host operation before the region writes the
  index array, so the words the region finds are the launch memory's.
-/
import proofs.«408013_j76982993813545_3_alg».proof.Defs
import proofs.«408013_j76982993813545_3_alg».proof.Proof.Gen.KernelIdeal.Frame
import proofs.«408013_j76982993813545_3_alg».proof.Proof.Gen.Pre_finite_inputs
import proofs.«408013_j76982993813545_3_alg».proof.Proof.PreFacts

noncomputable section

namespace Cert.KernelIdeal.PreHyps

open Idealize.ShloMosaic Idealize.SL.Sem Cert.KernelIdeal Cert.KernelIdeal.Gen

open Idealize.ShloMosaic.TcCoe Idealize.ShloMosaic.ValueIdx

/-- The index a one-element rectangle at offset `k` of the nine-word table names is index `k`: its
    one coordinate is the offset plus stride one times coordinate 0. -/
private theorem idx_eq (k : Fin 9) (off : Fin 1 → Nat) (hoff : off 0 = k.val)
    (inb : ∀ a, off a + S1.size a ≤ S9.size a) (h1 : 0 < S1.numel) :
    (Rect.unit (s := S9) off S1.size inb).idx (Shape.Idx.first h1) = ix1 k := by
  funext a
  apply Fin.ext
  match a with
  | ⟨0, _⟩ =>
    show off 0 + 1 * (Shape.Idx.first h1 (0 : Fin 1)).val = k.val
    have h0 : (Shape.Idx.first h1 (0 : Fin 1)).val = 0 := rfl
    rw [h0, hoff]
    omega

/-- The word the body reads at position `k` of the table is the launch memory's word at index `k`:
    the table is read through its whole buffer, whose contents no host operation before the region
    writes. -/
private theorem word (m : (ℓ : Loc nD τ sig) → Buf (Elt Ideal) ℓ) (k : Fin 9) (off : Fin 1 → Nat)
    (hoff : off 0 = k.val) (inb : ∀ a, off a + S1.size a ≤ S9.size a) (h1 : 0 < S1.numel) :
    tbM0_0.view.readAt (Elt Ideal) (Rect.unit (s := S9) off S1.size inb).toLoadRect (tbl m 0) (Shape.Idx.first h1)
      = m (((0 : Dev nD) : Thread nD τ).loc main_arg0) (ix1 k) := by
  have e : tbl m 0 = m (((0 : Dev nD) : Thread nD τ).loc main_arg0) := V_main_arg0 m 0
  rw [e]
  exact congrArg (m (((0 : Dev nD) : Thread nD τ).loc main_arg0)) (idx_eq k off hoff inb h1)

/-- A word below 9 names a row of the nine-row block: on the row axis the word plus one row is at most
    nine rows, and on the other two axes the block is the whole extent. -/
private theorem chk (w : BitVec 32) (hw : w.toNat < 9) : k0_chk1 w := by
  intro a
  have e : (Scalar.indexCast w).toNat = w.toNat := rfl
  match a with
  | ⟨0, _⟩ => show (Scalar.indexCast w).toNat + 1 ≤ 9; omega
  | ⟨1, _⟩ => show 0 + 40 ≤ 40; omega
  | ⟨2, _⟩ => show 0 + 256 ≤ 256; omega

/-- The precondition's bound at the word the body reads at position `k`. -/
private theorem chk_at (m : (ℓ : Loc nD τ sig) → Buf (Elt Ideal) ℓ) (h : Cert.Pre_KernelIdeal m) (k : Fin 9)
    (off : Fin 1 → Nat) (hoff : off 0 = k.val) (inb : ∀ a, off a + S1.size a ≤ S9.size a) (h1 : 0 < S1.numel) :
    k0_chk1 (tbM0_0.view.readAt (Elt Ideal) (Rect.unit (s := S9) off S1.size inb).toLoadRect (tbl m 0) (Shape.Idx.first h1)) := by
  rw [word m k off hoff inb h1]
  exact chk _ (Cert.Gcn.PreFacts.x_lt _ _ _ _ _ (h 0) k)

/-- The pipeline's side condition of the prefetched words holds of every memory. -/
theorem ok_of_pre (m : (ℓ : Loc nD τ sig) → Buf (Elt Ideal) ℓ) (h : Cert.Pre_KernelIdeal m) : Ok (F := Ideal) m := by
  trivial

/-- The nine side conditions the body assumes hold at every grid point, by the precondition. -/
theorem hyps_of_pre (m : (ℓ : Loc nD τ sig) → Buf (Elt Ideal) ℓ) (h : Cert.Pre_KernelIdeal m) (hO : Ok (F := Ideal) m) :
    Hyps (F := Ideal) m hO := by
  refine Hyps.of ?_ ?_ ?_ ?_ ?_ ?_ ?_ ?_ ?_ <;> intro c t
  · exact chk_at m h ⟨0, by decide⟩ _ rfl _ _
  · exact chk_at m h ⟨1, by decide⟩ _ rfl _ _
  · exact chk_at m h ⟨2, by decide⟩ _ rfl _ _
  · exact chk_at m h ⟨3, by decide⟩ _ rfl _ _
  · exact chk_at m h ⟨4, by decide⟩ _ rfl _ _
  · exact chk_at m h ⟨5, by decide⟩ _ rfl _ _
  · exact chk_at m h ⟨6, by decide⟩ _ rfl _ _
  · exact chk_at m h ⟨7, by decide⟩ _ rfl _ _
  · exact chk_at m h ⟨8, by decide⟩ _ rfl _ _

end Cert.KernelIdeal.PreHyps

end
-- ==== Proof.RefTerm.lean ====
/-
  The reference program's result as ONE pure function of its five argument arrays: its host
  operations composed in the order the program applies them. A node's index word below zero is
  first moved up by 9 (the program's own normalisation), the table rows are gathered, each layer
  is two batched matrix products followed by the leaky rectifier (a compare with zero and a
  select between the value and its product with the slope constant).
-/
import proofs.«408013_j76982993813545_3_alg».proof.ReferenceIdeal

noncomputable section

namespace Cert.ReferenceIdeal.RefValue

open Idealize.ShloMosaic Cert.ReferenceIdeal

variable {F : FTy → Type} [FloatOps F] [Facts]
open Facts₀ Facts

/-- The gather's start indices: each node's word, moved up by 9 where it is negative, as a column. -/
def startIdx (X : IVec S9 32) : IVec S9x1 32 :=
  broadcastInDim S9x1 ![0] bcast_S9_S9x1_0
    (select (cmpi .slt X (broadcastInDim S9 ![] bcast_S_S9 (constantI S_ 32 0#32)))
      (addi X (broadcastInDim S9 ![] bcast_S_S9 (constantI S_ 32 9#32))) X)

/-- The leaky rectifier as the program spells it, on the hidden layer's shape. -/
def lrelu80 (cst : FVec F S_ .f32) (v : FVec F S2048x9x80 .f32) : FVec F S2048x9x80 .f32 :=
  select (cmpf .oge v (broadcastInDim S2048x9x80 ![] bcast_S_S2048x9x80 (constant S_ .f32 0x00000000#32)))
    v (mulf (broadcastInDim S2048x9x80 ![] bcast_S_S2048x9x80 (id cst)) v)

/-- The same on the output layer's shape. -/
def lrelu160 (cst : FVec F S_ .f32) (v : FVec F S2048x9x160 .f32) : FVec F S2048x9x160 .f32 :=
  select (cmpf .oge v (broadcastInDim S2048x9x160 ![] bcast_S_S2048x9x160 (constant S_ .f32 0x00000000#32)))
    v (mulf (broadcastInDim S2048x9x160 ![] bcast_S_S2048x9x160 (id cst)) v)

/-- The gathered features: row `startIdx` of each branch's table, for each node. -/
def gathered (X : IVec S9 32) (EMB : FVec F S2048x9x40 .f32) : FVec F S2048x9x40 .f32 :=
  Host.gather gather_S2048x9x40_S9x1_S2048x9x40_02_1_n_n_1_1_2048140 EMB (startIdx X)

/-- The hidden layer: `lrelu (A · (y · W1))`. -/
def hidden (X : IVec S9 32) (EMB : FVec F S2048x9x40 .f32) (W1 : FVec F S2048x40x80 .f32)
    (A : FVec F S2048x9x9 .f32) : FVec F S2048x9x80 .f32 :=
  lrelu80 (constant S_ .f32 0x3E4CCCCD#32)
    (Host.dotGeneral dot_S2048x9x9_S2048x9x80_S2048x9x80_2_1_1_2_0_0 none A
      (Host.dotGeneral dot_S2048x9x40_S2048x40x80_S2048x9x80_2_1_1_2_0_0 none (gathered X EMB) W1))

/-- The program's result: `lrelu (A · (hidden · W2))`. -/
def result (X : IVec S9 32) (EMB : FVec F S2048x9x40 .f32) (W1 : FVec F S2048x40x80 .f32)
    (W2 : FVec F S2048x80x160 .f32) (A : FVec F S2048x9x9 .f32) : FVec F S2048x9x160 .f32 :=
  lrelu160 (constant S_ .f32 0x3E4CCCCD#32)
    (Host.dotGeneral dot_S2048x9x9_S2048x9x160_S2048x9x160_2_1_1_2_0_0 none A
      (Host.dotGeneral dot_S2048x9x80_S2048x80x160_S2048x9x160_2_1_1_2_0_0 none (hidden X EMB W1 A) W2))

end Cert.ReferenceIdeal.RefValue

end
-- ==== Proof.RefRun.lean ====
/-
  The reference program runs: from any memory, every weakly fair execution of its host operations
  (the two outlined rectifier functions unfolded at their call sites) terminates, leaves the result
  buffer at the program's composed term of the five argument arrays, and leaves the arguments as
  they were.
-/
import proofs.«408013_j76982993813545_3_alg».proof.Proof.Gen.ReferenceIdeal
import proofs.«408013_j76982993813545_3_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-- The program's twenty-nine host operations in the order it applies them, each call of a rectifier
    function replaced by that function's seven operations over the call's own buffers: the index
    normalisation (a compare with zero, an add of 9, a select), its column form, the gather, the first
    layer's two batched products, the slope constant, the first rectifier (zero, its broadcast, the
    compare, the slope converted and broadcast, the product with the slope, the select), the second
    layer's two batched products, the slope constant again and the second rectifier. -/
abbrev ops : List (HloOp τ sig (Elt F)) :=
  [ nullary main_c (constantI S_ 32 0#32),
    unary main_c main_v0 (broadcastInDim S9 ![] bcast_S_S9 : (⟨S_, .i32⟩ : BufTy).Contents (Elt F) → (⟨S9, .i32⟩ : BufTy).Contents (Elt F)),
    binary main_arg0 main_v0 main_v1 (cmpi .slt : (⟨S9, .i32⟩ : BufTy).Contents (Elt F) → (⟨S9, .i32⟩ : BufTy).Contents (Elt F) → (⟨S9, .i1⟩ : BufTy).Contents (Elt F)),
    nullary main_c_0 (constantI S_ 32 9#32),
    unary main_c_0 main_v2 (broadcastInDim S9 ![] bcast_S_S9 : (⟨S_, .i32⟩ : BufTy).Contents (Elt F) → (⟨S9, .i32⟩ : BufTy).Contents (Elt F)),
    binary main_arg0 main_v2 main_v3 (addi : (⟨S9, .i32⟩ : BufTy).Contents (Elt F) → (⟨S9, .i32⟩ : BufTy).Contents (Elt F) → (⟨S9, .i32⟩ : BufTy).Contents (Elt F)),
    ternary main_v1 main_v3 main_arg0 main_v4 (select : (⟨S9, .i1⟩ : BufTy).Contents (Elt F) → (⟨S9, .i32⟩ : BufTy).Contents (Elt F) → (⟨S9, .i32⟩ : BufTy).Contents (Elt F) → (⟨S9, .i32⟩ : BufTy).Contents (Elt F)),
    unary main_v4 main_v5 (broadcastInDim S9x1 ![0] bcast_S9_S9x1_0 : (⟨S9, .i32⟩ : BufTy).Contents (Elt F) → (⟨S9x1, .i32⟩ : BufTy).Contents (Elt F)),
    binary main_arg1 main_v5 main_v6 ((fun x i => Host.gather gather_S2048x9x40_S9x1_S2048x9x40_02_1_n_n_1_1_2048140 x i) : (⟨S2048x9x40, .f32⟩ : BufTy).Contents (Elt F) → (⟨S9x1, .i32⟩ : BufTy).Contents (Elt F) → (⟨S2048x9x40, .f32⟩ : BufTy).Contents (Elt F)),
    binary main_v6 main_arg2 main_v7 ((fun l r => Host.dotGeneral dot_S2048x9x40_S2048x40x80_S2048x9x80_2_1_1_2_0_0 none l r) : (⟨S2048x9x40, .f32⟩ : BufTy).Contents (Elt F) → (⟨S2048x40x80, .f32⟩ : BufTy).Contents (Elt F) → (⟨S2048x9x80, .f32⟩ : BufTy).Contents (Elt F)),
    binary main_arg4 main_v7 main_v8 ((fun l r => Host.dotGeneral dot_S2048x9x9_S2048x9x80_S2048x9x80_2_1_1_2_0_0 none l r) : (⟨S2048x9x9, .f32⟩ : BufTy).Contents (Elt F) → (⟨S2048x9x80, .f32⟩ : BufTy).Contents (Elt F) → (⟨S2048x9x80, .f32⟩ : BufTy).Contents (Elt F)),
    nullary main_cst (constant S_ .f32 0x3E4CCCCD#32),
    TRef.nullary main_call0.cst (constant S_ .f32 0x00000000#32),
    TRef.unary main_call0.cst main_call0.v0 (broadcastInDim S2048x9x80 ![] bcast_S_S2048x9x80),
    TRef.binary (.of main_v8) main_call0.v0 main_call0.v1 (cmpf .oge),
    TRef.unary (.of main_cst) main_call0.v2 id,
    TRef.unary main_call0.v2 main_call0.v3 (broadcastInDim S2048x9x80 ![] bcast_S_S2048x9x80),
    TRef.binary main_call0.v3 (.of main_v8) main_call0.v4 mulf,
    TRef.ternary main_call0.v1 (.of main_v8) main_call0.v4 main_call0.call0.v0 select,
    binary main_v9 main_arg3 main_v10 ((fun l r => Host.dotGeneral dot_S2048x9x80_S2048x80x160_S2048x9x160_2_1_1_2_0_0 none l r) : (⟨S2048x9x80, .f32⟩ : BufTy).Contents (Elt F) → (⟨S2048x80x160, .f32⟩ : BufTy).Contents (Elt F) → (⟨S2048x9x160, .f32⟩ : BufTy).Contents (Elt F)),
    binary main_arg4 main_v10 main_v11 ((fun l r => Host.dotGeneral dot_S2048x9x9_S2048x9x160_S2048x9x160_2_1_1_2_0_0 none l r) : (⟨S2048x9x9, .f32⟩ : BufTy).Contents (Elt F) → (⟨S2048x9x160, .f32⟩ : BufTy).Contents (Elt F) → (⟨S2048x9x160, .f32⟩ : BufTy).Contents (Elt F)),
    nullary main_cst_1 (constant S_ .f32 0x3E4CCCCD#32),
    TRef.nullary main_call1.cst (constant S_ .f32 0x00000000#32),
    TRef.unary main_call1.cst main_call1.v0 (broadcastInDim S2048x9x160 ![] bcast_S_S2048x9x160),
    TRef.binary (.of main_v11) main_call1.v0 main_call1.v1 (cmpf .oge),
    TRef.unary (.of main_cst_1) main_call1.v2 id,
    TRef.unary main_call1.v2 main_call1.v3 (broadcastInDim S2048x9x160 ![] bcast_S_S2048x9x160),
    TRef.binary main_call1.v3 (.of main_v11) main_call1.v4 mulf,
    TRef.ternary main_call1.v1 (.of main_v11) main_call1.v4 main_call1.call0.v0 select ]

set_option maxRecDepth 1024 in
/-- The program is that straight line: with the four function bodies unfolded at their calls and the
    sequencing reassociated, both sides are the same chain of steps. -/
theorem main_eq (c : Dev nD) : main (F := F) c = seq ops := by
  simp only [main, fn_leaky_relu.body, fn_leaky_relu_0.body, fn_where.body, fn_where_1.body, seq, bind_assoc, pure_bind]

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., nullary_bufs_sub ..,
    nullary_bufs_sub .., unary_bufs_sub .., binary_bufs_sub .., unary_bufs_sub .., unary_bufs_sub .., binary_bufs_sub ..,
    ternary_bufs_sub ..,
    binary_bufs_sub .., binary_bufs_sub .., nullary_bufs_sub ..,
    nullary_bufs_sub .., unary_bufs_sub .., binary_bufs_sub .., unary_bufs_sub .., unary_bufs_sub .., binary_bufs_sub ..,
    ternary_bufs_sub ..⟩

/-- The fold at the result buffer is the program's term: each operation's result read at its own
    buffer is its function's value and elsewhere what was there; a typed reference's transport of
    contents is the identity at a literal reference; what is left is `result` with its layers unfolded. -/
theorem out_eq (V : Valuation τ sig (Elt F)) :
    after ops V (Proc.devRef .tc main_v12)
      = result (F := F) (V (Proc.devRef .tc main_arg0)) (V (Proc.devRef .tc main_arg1)) (V (Proc.devRef .tc main_arg2))
          (V (Proc.devRef .tc main_arg3)) (V (Proc.devRef .tc main_arg4)) := by
  after_results_simp
  simp only [TRef.ofBuf, TRef.toBuf, cast_eq, result, hidden, gathered, startIdx, lrelu80, lrelu160]

/-- No operation writes the first argument's buffer. -/
theorem arg0_eq (V : Valuation τ sig (Elt F)) :
    after ops V (Proc.devRef .tc main_arg0) = V (Proc.devRef .tc main_arg0) := by after_results_simp
/-- No operation writes the second argument's buffer. -/
theorem arg1_eq (V : Valuation τ sig (Elt F)) :
    after ops V (Proc.devRef .tc main_arg1) = V (Proc.devRef .tc main_arg1) := by after_results_simp
/-- No operation writes the third argument's buffer. -/
theorem arg2_eq (V : Valuation τ sig (Elt F)) :
    after ops V (Proc.devRef .tc main_arg2) = V (Proc.devRef .tc main_arg2) := by after_results_simp
/-- No operation writes the fourth argument's buffer. -/
theorem arg3_eq (V : Valuation τ sig (Elt F)) :
    after ops V (Proc.devRef .tc main_arg3) = V (Proc.devRef .tc main_arg3) := by after_results_simp
/-- No operation writes the fifth argument's buffer. -/
theorem arg4_eq (V : Valuation τ sig (Elt F)) :
    after ops V (Proc.devRef .tc main_arg4) = V (Proc.devRef .tc main_arg4) := by after_results_simp

/-- On every device, for any float values, from any memory with zero counters: every weakly fair execution
    of the reference terminates with its result at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
          = result (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v12).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.RefValue

end
-- ==== Proof.RefValue.lean ====
/-
  The reference's composed term, read entry by entry on the extended reals, is the specification's
  array in the reference's order of sums: where every node's index word lies in `[0, 9)` the gather
  reads the row the word names (nothing is moved up, nothing is clamped), each batched matrix product
  is a finite sum over its contracted axis within one branch, and the compare-and-select is the leaky
  rectifier.
-/
import proofs.«408013_j76982993813545_3_alg».proof.Proof.Gen.ReferenceIdeal
import proofs.«408013_j76982993813545_3_alg».proof.Proof.RefTerm
import proofs.«408013_j76982993813545_3_alg».proof.Proof.Spec
import Idealize.ShloMosaic.PureOps.Ideal.Laws
import Idealize.ShloMosaic.Lib.Pipeline.Value
import Idealize.ShloMosaic.Lib.StackMember

noncomputable section

namespace Cert.ReferenceIdeal.RefValue

open Cert.ReferenceIdeal Cert.ReferenceIdeal.Gen Idealize.ShloMosaic Idealize.ShloMosaic.ValueIdx

/-! ### The rectifier at an entry

The program compares the value with zero and selects between the value and its product with the slope;
on the extended reals that is the specification's `lrelu`. -/
/-- The rectifier's scalar step. -/
theorem lrelu_scalar (c t : EReal) :
    Scalar.select (Ideal.cmp .oge t 0) t (c * t) = Cert.Gcn.lrelu c t := by
  unfold Cert.Gcn.lrelu Ideal.cmp
  by_cases h : (0 : EReal) ≤ t
  · rw [if_pos h]
    have e : BitVec.ofBool (decide ((0 : EReal) ≤ t)) = 1#1 := by simp [h]
    rw [e, select_one]
  · rw [if_neg h]
    have e : BitVec.ofBool (decide ((0 : EReal) ≤ t)) = 0#1 := by simp [h]
    rw [e, select_zero]

theorem lrelu80_apply (v : FVec Ideal S2048x9x80 .f32) (j : S2048x9x80.Idx) :
    lrelu80 (F := Ideal) (constant (F := Ideal) S_ .f32 0x3E4CCCCD#32) v j
      = Cert.Gcn.lrelu (Ideal.ofBits .f32 0x3E4CCCCD#32) (v j) := by
  unfold lrelu80
  rw [select_apply, cmpf_apply, mulf_apply]
  show Scalar.select (Ideal.cmp .oge (v j) (Ideal.ofBits .f32 0x00000000#32)) (v j)
      (Ideal.ofBits .f32 0x3E4CCCCD#32 * v j) = _
  rw [Ideal.ofBits_zero_f32, lrelu_scalar]

theorem lrelu160_apply (v : FVec Ideal S2048x9x160 .f32) (j : S2048x9x160.Idx) :
    lrelu160 (F := Ideal) (constant (F := Ideal) S_ .f32 0x3E4CCCCD#32) v j
      = Cert.Gcn.lrelu (Ideal.ofBits .f32 0x3E4CCCCD#32) (v j) := by
  unfold lrelu160
  rw [select_apply, cmpf_apply, mulf_apply]
  show Scalar.select (Ideal.cmp .oge (v j) (Ideal.ofBits .f32 0x00000000#32)) (v j)
      (Ideal.ofBits .f32 0x3E4CCCCD#32 * v j) = _
  rw [Ideal.ofBits_zero_f32, lrelu_scalar]

/-! ### The gather at an entry

The table is gathered along its row axis only: the branch and feature axes are offset axes of full extent,
the row axis is collapsed to the one row the start index names. A word in `[0, 9)` is not negative, so
the program's normalisation leaves it alone, and it is at most 8, so the clamp that keeps the one-row slice
inside the table leaves it alone too. -/
/-- A word below 9 read as a signed integer is the natural number it encodes. -/
theorem toInt_of_lt9 (w : BitVec 32) (h : w.toNat < 9) : w.toInt = (w.toNat : Int) := by
  rw [BitVec.toInt_eq_toNat_cond, if_pos (by omega)]

/-- Such a word is not below zero in the signed order. -/
theorem slt_zero_of_lt9 (w : BitVec 32) (h : w.toNat < 9) : IntOp.cmpi .slt w 0#32 = 0#1 := by
  have hi := toInt_of_lt9 w h
  have e : w.slt 0#32 = false := by
    simp only [BitVec.slt, BitVec.toInt_zero, hi, decide_eq_false_iff_not, not_lt]
    exact Int.natCast_nonneg _
  simp [IntOp.cmpi, e]

/-- The start-index column at row `n`: a word in `[0, 9)` is not negative, so the select keeps it. -/
theorem startIdx_apply (X : IVec S9 32) (n : Fin 9) (hn : (X (ix1 n)).toNat < 9) :
    startIdx X (ix2 n (0 : Fin 1)) = X (ix1 n) := by
  unfold startIdx
  rw [broadcastInDim_apply (![0] : Fin 1 → Fin S9x1.rank) _ _ (ix2 n (0 : Fin 1)) (ix1 n) (by
    intro a; obtain rfl : a = 0 := Subsingleton.elim _ _; rfl)]
  rw [select_apply]
  show Scalar.select (IntOp.cmpi .slt (X (ix1 n)) 0#32) (IntOp.addi (X (ix1 n)) 9#32) (X (ix1 n)) = _
  rw [slt_zero_of_lt9 _ hn, select_zero]

/-- On the branch axis the gather reads the result's own branch: the axis is an offset axis of full extent,
    with no start index and no batching. -/
theorem gather_axis0 (X : IVec S9 32) (p : Fin 2048) (n : Fin 9) (f : Fin 40) :
    ((gather_S2048x9x40_S9x1_S2048x9x40_02_1_n_n_1_1_2048140).operandIdx (ix3 p n f) (startIdx X) 0).val = p.val := by
  show (gather_S2048x9x40_S9x1_S2048x9x40_02_1_n_n_1_1_2048140).start (ix3 p n f) (startIdx X) 0
      + (gather_S2048x9x40_S9x1_S2048x9x40_02_1_n_n_1_1_2048140).batchCoord (ix3 p n f) 0
      + (gather_S2048x9x40_S9x1_S2048x9x40_02_1_n_n_1_1_2048140).offCoord (ix3 p n f) 0 = p.val
  rw [GatherDims.batchCoord_eq_zero _ _ _ List.not_mem_nil, Nat.add_zero]
  have hs : (gather_S2048x9x40_S9x1_S2048x9x40_02_1_n_n_1_1_2048140).start (ix3 p n f) (startIdx X) 0 = 0 := by
    unfold GatherDims.start
    rw [dif_neg (by decide)]
  have ho : (gather_S2048x9x40_S9x1_S2048x9x40_02_1_n_n_1_1_2048140).offCoord (ix3 p n f) 0 = p.val := by
    unfold GatherDims.offCoord
    rw [dif_pos (by decide)]
    rfl
  rw [hs, ho, Nat.zero_add]

/-- On the feature axis likewise: the result's own feature. -/
theorem gather_axis2 (X : IVec S9 32) (p : Fin 2048) (n : Fin 9) (f : Fin 40) :
    ((gather_S2048x9x40_S9x1_S2048x9x40_02_1_n_n_1_1_2048140).operandIdx (ix3 p n f) (startIdx X) 2).val = f.val := by
  show (gather_S2048x9x40_S9x1_S2048x9x40_02_1_n_n_1_1_2048140).start (ix3 p n f) (startIdx X) 2
      + (gather_S2048x9x40_S9x1_S2048x9x40_02_1_n_n_1_1_2048140).batchCoord (ix3 p n f) 2
      + (gather_S2048x9x40_S9x1_S2048x9x40_02_1_n_n_1_1_2048140).offCoord (ix3 p n f) 2 = f.val
  rw [GatherDims.batchCoord_eq_zero _ _ _ List.not_mem_nil, Nat.add_zero]
  have hs : (gather_S2048x9x40_S9x1_S2048x9x40_02_1_n_n_1_1_2048140).start (ix3 p n f) (startIdx X) 2 = 0 := by
    unfold GatherDims.start
    rw [dif_neg (by decide)]
  have ho : (gather_S2048x9x40_S9x1_S2048x9x40_02_1_n_n_1_1_2048140).offCoord (ix3 p n f) 2 = f.val := by
    unfold GatherDims.offCoord
    rw [dif_pos (by decide)]
    rfl
  rw [hs, ho, Nat.zero_add]

/-- On the row axis, collapsed to one row per node, the gather reads the row the node's word names: the
    word is the start index, read signed (it is not negative) and clamped into `[0, 8]` (it is below 9). -/
theorem gather_axis1 (X : IVec S9 32) (p : Fin 2048) (n : Fin 9) (f : Fin 40) (hn : (X (ix1 n)).toNat < 9) :
    ((gather_S2048x9x40_S9x1_S2048x9x40_02_1_n_n_1_1_2048140).operandIdx (ix3 p n f) (startIdx X) 1).val
      = (X (ix1 n)).toNat := by
  show (gather_S2048x9x40_S9x1_S2048x9x40_02_1_n_n_1_1_2048140).start (ix3 p n f) (startIdx X) 1
      + (gather_S2048x9x40_S9x1_S2048x9x40_02_1_n_n_1_1_2048140).batchCoord (ix3 p n f) 1
      + (gather_S2048x9x40_S9x1_S2048x9x40_02_1_n_n_1_1_2048140).offCoord (ix3 p n f) 1 = _
  rw [GatherDims.batchCoord_eq_zero _ _ _ List.not_mem_nil, Nat.add_zero,
    GatherDims.offCoord_eq_zero _ _ _ (by decide), Nat.add_zero]
  unfold GatherDims.start
  rw [dif_pos (by decide)]
  have hsi : (gather_S2048x9x40_S9x1_S2048x9x40_02_1_n_n_1_1_2048140).siIdx (ix3 p n f)
      ⟨List.idxOf (1 : Fin 3) (gather_S2048x9x40_S9x1_S2048x9x40_02_1_n_n_1_1_2048140).startIndexMap,
        List.idxOf_lt_length_iff.2 (by decide)⟩ = ix2 n (0 : Fin 1) := by
    funext b; refine Fin.ext ?_
    match b with
    | ⟨0, _⟩ => rfl
    | ⟨1, _⟩ => rfl
  rw [hsi, startIdx_apply X n hn, toInt_of_lt9 _ hn, Int.toNat_natCast]
  exact Nat.min_eq_left (by show (X (ix1 n)).toNat ≤ 9 - 1; omega)

/-- The gathered features at an entry: node `n` reads the table row its word names, in its own branch. -/
theorem gathered_apply (X : IVec S9 32) (EMB : FVec Ideal S2048x9x40 .f32)
    (hX : ∀ n : Fin 9, (X (ix1 n)).toNat < 9) (p : Fin 2048) (n : Fin 9) (f : Fin 40) :
    gathered (F := Ideal) X EMB (ix3 p n f) = EMB (ix3 p (Cert.Gcn.nodeOf (X (ix1 n))) f) := by
  unfold gathered Host.gather
  refine congrArg EMB (funext fun a => Fin.ext ?_)
  match a with
  | ⟨0, _⟩ => exact gather_axis0 X p n f
  | ⟨1, _⟩ => exact (gather_axis1 X p n f (hX n)).trans (Cert.Gcn.nodeOf_val_of_lt (hX n)).symm
  | ⟨2, _⟩ => exact gather_axis2 X p n f

/-! ### The four batched products at an entry

Each contracts the left operand's last axis against the right operand's middle axis within one branch (the
leading axis of both operands and of the result), so an entry is the sum over the contracted coordinate of
the products of the two branch members' entries. -/

theorem dot1_apply (L : FVec Ideal S2048x9x40 .f32) (R : FVec Ideal S2048x40x80 .f32)
    (p : Fin 2048) (n : Fin 9) (h : Fin 80) :
    Host.dotGeneral (F := Ideal) dot_S2048x9x40_S2048x40x80_S2048x9x80_2_1_1_2_0_0 none L R (ix3 p n h)
      = ∑ k : Fin 40, L (ix3 p n k) * R (ix3 p k h) :=
  StackMember.dotGeneral_stack_apply (G := 2048) (m := 9) (n := 80) (k := 40)
    Facts₀.dot_S2048x9x40_S2048x40x80_S2048x9x80_2_1_1_2_0_0_wf none L R p n h

theorem dot2_apply (L : FVec Ideal S2048x9x9 .f32) (R : FVec Ideal S2048x9x80 .f32)
    (p : Fin 2048) (n : Fin 9) (h : Fin 80) :
    Host.dotGeneral (F := Ideal) dot_S2048x9x9_S2048x9x80_S2048x9x80_2_1_1_2_0_0 none L R (ix3 p n h)
      = ∑ m : Fin 9, L (ix3 p n m) * R (ix3 p m h) :=
  StackMember.dotGeneral_stack_apply (G := 2048) (m := 9) (n := 80) (k := 9)
    Facts₀.dot_S2048x9x9_S2048x9x80_S2048x9x80_2_1_1_2_0_0_wf none L R p n h

theorem dot3_apply (L : FVec Ideal S2048x9x80 .f32) (R : FVec Ideal S2048x80x160 .f32)
    (p : Fin 2048) (n : Fin 9) (o : Fin 160) :
    Host.dotGeneral (F := Ideal) dot_S2048x9x80_S2048x80x160_S2048x9x160_2_1_1_2_0_0 none L R (ix3 p n o)
      = ∑ h : Fin 80, L (ix3 p n h) * R (ix3 p h o) :=
  StackMember.dotGeneral_stack_apply (G := 2048) (m := 9) (n := 160) (k := 80)
    Facts₀.dot_S2048x9x80_S2048x80x160_S2048x9x160_2_1_1_2_0_0_wf none L R p n o

theorem dot4_apply (L : FVec Ideal S2048x9x9 .f32) (R : FVec Ideal S2048x9x160 .f32)
    (p : Fin 2048) (n : Fin 9) (o : Fin 160) :
    Host.dotGeneral (F := Ideal) dot_S2048x9x9_S2048x9x160_S2048x9x160_2_1_1_2_0_0 none L R (ix3 p n o)
      = ∑ m : Fin 9, L (ix3 p n m) * R (ix3 p m o) :=
  StackMember.dotGeneral_stack_apply (G := 2048) (m := 9) (n := 160) (k := 9)
    Facts₀.dot_S2048x9x9_S2048x9x160_S2048x9x160_2_1_1_2_0_0_wf none L R p n o

/-! ### The layers at an entry of branch `p`

Every entry of every intermediate array depends on branch `p`'s entries of the arguments only; reading the
composed term from the inside out gives the specification's functions of those entries, in the reference's
order of sums. -/

section Layers

variable (X : IVec S9 32) (EMB : FVec Ideal S2048x9x40 .f32) (W1 : FVec Ideal S2048x40x80 .f32)
  (W2 : FVec Ideal S2048x80x160 .f32) (A : FVec Ideal S2048x9x9 .f32)
  (hX : ∀ n : Fin 9, (X (ix1 n)).toNat < 9)

include hX

/-- The first product: the gathered features against the first weights. -/
theorem z1_apply (p : Fin 2048) (n : Fin 9) (h : Fin 80) :
    Host.dotGeneral (F := Ideal) dot_S2048x9x40_S2048x40x80_S2048x9x80_2_1_1_2_0_0 none
        (gathered (F := Ideal) X EMB) W1 (ix3 p n h)
      = Cert.Gcn.rZ1 (fun n => Cert.Gcn.nodeOf (X (ix1 n))) (fun v f => EMB (ix3 p v f))
          (fun f h => W1 (ix3 p f h)) n h := by
  rw [dot1_apply]
  unfold Cert.Gcn.rZ1 Cert.Gcn.gat
  exact Finset.sum_congr rfl fun k _ => by rw [gathered_apply X EMB hX]

/-- The hidden layer: the mixing matrix against the first product, rectified. -/
theorem hidden_apply (p : Fin 2048) (n : Fin 9) (h : Fin 80) :
    hidden (F := Ideal) X EMB W1 A (ix3 p n h)
      = Cert.Gcn.rH1 (Ideal.ofBits .f32 0x3E4CCCCD#32) (fun n => Cert.Gcn.nodeOf (X (ix1 n)))
          (fun v f => EMB (ix3 p v f)) (fun f h => W1 (ix3 p f h)) (fun n m => A (ix3 p n m)) n h := by
  unfold hidden
  rw [lrelu80_apply, dot2_apply]
  unfold Cert.Gcn.rH1
  exact congrArg _ (Finset.sum_congr rfl fun m _ => by rw [z1_apply X EMB W1 hX])

/-- The second product: the hidden layer against the second weights. -/
theorem z2_apply (p : Fin 2048) (n : Fin 9) (o : Fin 160) :
    Host.dotGeneral (F := Ideal) dot_S2048x9x80_S2048x80x160_S2048x9x160_2_1_1_2_0_0 none
        (hidden (F := Ideal) X EMB W1 A) W2 (ix3 p n o)
      = Cert.Gcn.rZ2 (Ideal.ofBits .f32 0x3E4CCCCD#32) (fun n => Cert.Gcn.nodeOf (X (ix1 n)))
          (fun v f => EMB (ix3 p v f)) (fun f h => W1 (ix3 p f h)) (fun h o => W2 (ix3 p h o))
          (fun n m => A (ix3 p n m)) n o := by
  rw [dot3_apply]
  unfold Cert.Gcn.rZ2
  exact Finset.sum_congr rfl fun h _ => by rw [hidden_apply X EMB W1 A hX]

/-- The result: the mixing matrix against the second product, rectified. -/
theorem result_apply (p : Fin 2048) (n : Fin 9) (o : Fin 160) :
    result (F := Ideal) X EMB W1 W2 A (ix3 p n o)
      = Cert.Gcn.rOut (Ideal.ofBits .f32 0x3E4CCCCD#32) (fun n => Cert.Gcn.nodeOf (X (ix1 n)))
          (fun v f => EMB (ix3 p v f)) (fun f h => W1 (ix3 p f h)) (fun h o => W2 (ix3 p h o))
          (fun n m => A (ix3 p n m)) n o := by
  unfold result
  rw [lrelu160_apply, dot4_apply]
  unfold Cert.Gcn.rOut
  exact congrArg _ (Finset.sum_congr rfl fun m _ => by rw [z2_apply X EMB W1 W2 A hX])

end Layers

/-- With every index word in range, the reference's result is the specification's array in the
    reference's order of sums, the slope being the constant the program carries. -/
theorem result_eq (X : IVec S9 32) (EMB : FVec Ideal S2048x9x40 .f32) (W1 : FVec Ideal S2048x40x80 .f32)
    (W2 : FVec Ideal S2048x80x160 .f32) (A : FVec Ideal S2048x9x9 .f32)
    (hX : ∀ n : Fin 9, (X (ix1 n)).toNat < 9) :
    result (F := Ideal) X EMB W1 W2 A
      = Cert.Gcn.refArr (Ideal.ofBits .f32 0x3E4CCCCD#32) X EMB W1 W2 A := by
  funext j
  obtain ⟨p, n, o, rfl⟩ : ∃ (p : Fin 2048) (n : Fin 9) (o : Fin 160), j = ix3 p n o :=
    ⟨j 0, j 1, j 2, eq_ix3 j⟩
  exact result_apply X EMB W1 W2 A hX p n o

end Cert.ReferenceIdeal.RefValue

end
-- ==== Proof.KLib.lean ====
/-
  The kernel body's vector operations read at one entry, on the extended reals.

  The body keeps the branch on the lane axis (the last, of extent 256) and never mixes lanes. It only
  ever combines four readings of its operands:
  * a row `a[i, j, :]` of the mixing block, cut out, re-shaped and repeated down `R` rows;
  * a row `g[f, :]` of a two-axis stage value, cut out and repeated down `R` rows;
  * a slab `w[f, :, :]` of a weight block, cut out and re-shaped to two axes;
  * the leaky rectifier, spelled as a compare with zero, a product with the slope and a select.
  Each accumulation is a left-nested sum that starts from zero: `chain` below, which is the finite sum.
-/
import proofs.«408013_j76982993813545_3_alg».proof.KernelIdeal
import proofs.«408013_j76982993813545_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KLib

open Idealize.ShloMosaic Idealize.ShloMosaic.ValueIdx Cert.KernelIdeal

/-! ## A left-nested sum -/

/-- `(((z + t 0) + t 1) + …) + t (n-1)`: the order in which the body accumulates. -/
def chain {α : Type} [Add α] (z : α) : (n : ℕ) → (Fin n → α) → α
  | 0, _ => z
  | n + 1, t => chain z n (fun i => t i.castSucc) + t (Fin.last n)

theorem chain_zero_eq_sum {M : Type} [AddCommMonoid M] (n : ℕ) (t : Fin n → M) :
    chain (0 : M) n t = ∑ i, t i := by
  induction n with
  | zero => simp [chain]
  | succ n ih => rw [chain, ih, Fin.sum_univ_castSucc]

/-! ## Bounds carried by a stated slice -/

theorem lt_of_slices3_0 {n0 n1 n2 t1 t2 i j k : ℕ}
    (hs : (⟨3, ![n0, n1, n2]⟩ : Shape).Slices ![i, j, k] ⟨3, ![1, t1, t2]⟩) : i < n0 := by
  obtain ⟨_, hb⟩ := hs
  have := hb 0
  simpa using this

theorem lt_of_slices3_1 {n0 n1 n2 t0 t2 i j k : ℕ}
    (hs : (⟨3, ![n0, n1, n2]⟩ : Shape).Slices ![i, j, k] ⟨3, ![t0, 1, t2]⟩) : j < n1 := by
  obtain ⟨_, hb⟩ := hs
  have := hb 1
  simpa using this

theorem lt_of_slices2_0 {n0 n1 t1 i k : ℕ}
    (hs : (⟨2, ![n0, n1]⟩ : Shape).Slices ![i, k] ⟨2, ![1, t1]⟩) : i < n0 := by
  obtain ⟨_, hb⟩ := hs
  have := hb 0
  simpa using this

/-! ## The four readings -/

variable {R K : ℕ}

/-- Row `(i, j)` of the mixing block repeated down `R` rows: at `(r, l)` it is `a (i, j, l)`. -/
theorem rowA_apply (a : FVec Ideal S9x9x256 .f32) (i j : ℕ) (hs : S9x9x256.Slices ![i, j, 0] S1x1x256)
    (hc : S1x1x256.ShapeCasts S1x256) (hb : S1x256.Broadcasts ⟨2, ![R, 256]⟩) (r : Fin R) (l : Fin 256) :
    broadcastTo ⟨2, ![R, 256]⟩ (shapeCast S1x256 (extractStridedSlice S1x1x256 ![i, j, 0] a hs) hc) hb (ix2 r l)
      = a (ix3 ⟨i, lt_of_slices3_0 hs⟩ ⟨j, lt_of_slices3_1 hs⟩ l) := by
  refine (broadcastTo_apply _ hb (ix2 r l) (ix2 (0 : Fin 1) l) fun c => ?_).trans ?_
  · match c with
    | ⟨0, _⟩ => rfl
    | ⟨1, _⟩ => rfl
  refine (shapeCast_apply _ hc (ix2 (0 : Fin 1) l) (ix3 (0 : Fin 1) (0 : Fin 1) l) ?_).trans ?_
  · rw [Shape.rowMajor_val_three, Shape.rowMajor_val_two]; rfl
  refine extractStridedSlice_apply _ a hs _ _ fun c => ?_
  match c with
  | ⟨0, _⟩ => show i = i + 0; omega
  | ⟨1, _⟩ => show j = j + 0; omega
  | ⟨2, _⟩ => show l.val = 0 + l.val; omega

/-- Row `f` of a two-axis stage value repeated down `R` rows: at `(r, l)` it is `g (f, l)`. -/
theorem rowG_apply (g : FVec Ideal ⟨2, ![K, 256]⟩ .f32) (f : ℕ) (hs : (⟨2, ![K, 256]⟩ : Shape).Slices ![f, 0] S1x256)
    (hb : S1x256.Broadcasts ⟨2, ![R, 256]⟩) (r : Fin R) (l : Fin 256) :
    broadcastTo ⟨2, ![R, 256]⟩ (extractStridedSlice S1x256 ![f, 0] g hs) hb (ix2 r l)
      = g (ix2 ⟨f, lt_of_slices2_0 hs⟩ l) := by
  refine (broadcastTo_apply _ hb (ix2 r l) (ix2 (0 : Fin 1) l) fun c => ?_).trans ?_
  · match c with
    | ⟨0, _⟩ => rfl
    | ⟨1, _⟩ => rfl
  refine extractStridedSlice_apply _ g hs _ _ fun c => ?_
  match c with
  | ⟨0, _⟩ => show f = f + 0; omega
  | ⟨1, _⟩ => show l.val = 0 + l.val; omega

/-- Slab `f` of a weight block as a two-axis value: at `(r, l)` it is `w (f, r, l)`. -/
theorem slabW_apply (w : FVec Ideal ⟨3, ![K, R, 256]⟩ .f32) (f : ℕ)
    (hs : (⟨3, ![K, R, 256]⟩ : Shape).Slices ![f, 0, 0] ⟨3, ![1, R, 256]⟩)
    (hc : (⟨3, ![1, R, 256]⟩ : Shape).ShapeCasts ⟨2, ![R, 256]⟩) (r : Fin R) (l : Fin 256) :
    shapeCast ⟨2, ![R, 256]⟩ (extractStridedSlice ⟨3, ![1, R, 256]⟩ ![f, 0, 0] w hs) hc (ix2 r l)
      = w (ix3 ⟨f, lt_of_slices3_0 hs⟩ r l) := by
  refine (shapeCast_1ab_ab_apply _ hc r l).trans ?_
  refine extractStridedSlice_apply _ w hs _ _ fun c => ?_
  match c with
  | ⟨0, _⟩ => show f = f + 0; omega
  | ⟨1, _⟩ => show r.val = 0 + r.val; omega
  | ⟨2, _⟩ => show l.val = 0 + l.val; omega

/-- The compare–multiply–select spelling is the leaky rectifier, entry by entry. -/
theorem lrelu_apply {s : Shape} (cw : BitVec 32) (v : FVec Ideal s .f32) (j : s.Idx) :
    select (cmpf .oge v (broadcast s (Scalar.ofBits (F := Ideal) .f32 0x00000000#32))) v
        (mulf (broadcast s (Scalar.ofBits (F := Ideal) .f32 cw)) v) j
      = Cert.Gcn.lrelu (Ideal.ofBits .f32 cw) (v j) := by
  rw [select_apply, cmpf_apply, mulf_apply, broadcast_apply, broadcast_apply]
  show Scalar.select (Ideal.cmp .oge (v j) (Ideal.ofBits .f32 0x00000000#32)) (v j) (Ideal.ofBits .f32 cw * v j) = _
  rw [Ideal.ofBits_zero_f32]
  unfold Cert.Gcn.lrelu Ideal.cmp Scalar.select
  by_cases h : (0 : EReal) ≤ v j
  · simp [h]
  · simp [h]

/-- The same spelling met with its two constants already read — the zero as `0`, the slope as an extended
    real `k` — entry by entry. (The constants sit below the select, so an entrywise reading meets the select
    in this form.) -/
theorem lrelu_read_apply {s : Shape} (k : EReal) (v : FVec Ideal s .f32) (j : s.Idx) :
    select (cmpf .oge v (broadcast s (0 : Ideal .f32))) v (mulf (broadcast s (k : Ideal .f32)) v) j
      = Cert.Gcn.lrelu k (v j) := by
  rw [select_apply, cmpf_apply, mulf_apply, broadcast_apply, broadcast_apply]
  show Scalar.select (Ideal.cmp .oge (v j) 0) (v j) (k * v j) = _
  unfold Cert.Gcn.lrelu Ideal.cmp Scalar.select
  by_cases h : (0 : EReal) ≤ v j
  · simp [h]
  · simp [h]

end Cert.KernelIdeal.KLib

end
-- ==== Proof.KSpec.lean ====
/-
  The kernel body's stages at one grid point, as functions of the point's blocks.

  A block keeps 256 branches on its last axis (the lanes). Lane `l` of the blocks is one branch: its
  embedding table `x0 (·, ·, l)`, its weight matrices `x1 (·, ·, l)` and `x3 (·, ·, l)`, its mixing
  matrix `x2 (·, ·, l)`; the node-to-row map comes from the nine index words `xt`. Each stage value
  of the body is the branch's quantity of the same name (Spec.lean, the kernel's order of sums), lane by
  lane: the gathered rows, the first mixing, the hidden layer, the second mixing, the result rows.
-/
import proofs.«408013_j76982993813545_3_alg».proof.KernelIdeal
import proofs.«408013_j76982993813545_3_alg».proof.Proof.Spec

noncomputable section

namespace Cert.KernelIdeal.KSpec

open Idealize.ShloMosaic Idealize.ShloMosaic.ValueIdx Cert.KernelIdeal Cert.Gcn

/-- The slope both rectifiers carry. -/
abbrev cw : EReal := Ideal.ofBits .f32 0x3E4CCCCD#32

variable (xt : S9.Idx → BitVec 32) (x0 : S9x40x256.Idx → EReal) (x1 : S40x80x256.Idx → EReal)
  (x2 : S9x9x256.Idx → EReal) (x3 : S80x160x256.Idx → EReal)

/-- The node-to-row map of the nine index words. -/
def nd : Fin 9 → Fin 9 := fun n => nodeOf (xt (ix1 n))

/-- Lane `l`'s embedding table, weight matrices and mixing matrix. -/
def bE (l : Fin 256) : Fin 9 → Fin 40 → EReal := fun v f => x0 (ix3 v f l)
def bW1 (l : Fin 256) : Fin 40 → Fin 80 → EReal := fun f h => x1 (ix3 f h l)
def bW2 (l : Fin 256) : Fin 80 → Fin 160 → EReal := fun h o => x3 (ix3 h o l)
def bA (l : Fin 256) : Fin 9 → Fin 9 → EReal := fun n m => x2 (ix3 n m l)

/-- Node `n`'s gathered features, lane by lane. -/
def vY (n : Fin 9) : S40x256.Idx → EReal := fun j => gat (nd xt) (bE x0 (j 1)) n (j 0)

/-- Node `n`'s first mixing `∑ m, a n m * y m f`. -/
def vG1 (n : Fin 9) : S40x256.Idx → EReal := fun j => kG1 (nd xt) (bE x0 (j 1)) (bA x2 (j 1)) n (j 0)

/-- Node `n`'s hidden row. -/
def vH1 (n : Fin 9) : S80x256.Idx → EReal :=
  fun j => kH1 cw (nd xt) (bE x0 (j 1)) (bW1 x1 (j 1)) (bA x2 (j 1)) n (j 0)

/-- Node `n`'s second mixing `∑ m, a n m * h1 m h`. -/
def vG2 (n : Fin 9) : S80x256.Idx → EReal :=
  fun j => kG2 cw (nd xt) (bE x0 (j 1)) (bW1 x1 (j 1)) (bA x2 (j 1)) n (j 0)

/-- Node `n`'s result row, as the one-row block the body stores. -/
def vOut (n : Fin 9) : S1x160x256.Idx → EReal :=
  fun j => kOut cw (nd xt) (bE x0 (j 2)) (bW1 x1 (j 2)) (bW2 x3 (j 2)) (bA x2 (j 2)) n (j 1)

/-- The whole output block of the point. -/
def bodyOut : S9x160x256.Idx → EReal :=
  fun j => kOut cw (nd xt) (bE x0 (j 2)) (bW1 x1 (j 2)) (bW2 x3 (j 2)) (bA x2 (j 2)) (j 0) (j 1)

end Cert.KernelIdeal.KSpec

end
-- ==== Proof.KWords.lean ====
/-
  What the body reads before it computes: the nine index words, and the three blocks it loads whole.

  A word is read through the table's whole buffer at a one-entry rectangle, so it is the buffer's
  entry at the rectangle's offset. The mixing block is loaded whole and re-shaped to its own shape;
  the two weight blocks are loaded whole and widened from half precision, which changes nothing on
  the extended reals: each is the block itself. A gathered row is the table block's row named by a
  word; the body has assumed that the word is below 9, and then the row is the one the
  specification's node-to-row map names.
-/
import proofs.«408013_j76982993813545_3_alg».proof.Proof.Gen.KernelIdeal.Frame
import proofs.«408013_j76982993813545_3_alg».proof.Proof.KLib
import proofs.«408013_j76982993813545_3_alg».proof.Proof.KSpec
import Idealize.ShloMosaic.Lib.WholeRead
import Idealize.ShloMosaic.Lib.Pipeline.Value

noncomputable section

namespace Cert.KernelIdeal.KStage

open Idealize.ShloMosaic Idealize.ShloMosaic.ValueIdx Cert.KernelIdeal Cert.KernelIdeal.Gen Cert.KernelIdeal.KLib
  Cert.KernelIdeal.KSpec Cert.Gcn

variable (c : Dev nD) (i : grid0.Coords)
  (arg2 : Memref sig .tc .vmem S9x40x256 .f32) (harg2 : arg2.IsWhole) (arg3 : Memref sig .tc .vmem S40x80x256 .bf16) (harg3 : arg3.IsWhole)
  (arg4 : Memref sig .tc .vmem S9x9x256 .f32) (harg4 : arg4.IsWhole) (arg5 : Memref sig .tc .vmem S80x160x256 .bf16) (harg5 : arg5.IsWhole)
  (x0 : Vec Ideal S9x40x256 .f32) (x1 : Vec Ideal S40x80x256 .bf16) (x2 : Vec Ideal S9x9x256 .f32) (x3 : Vec Ideal S80x160x256 .bf16)
  (xt0 : TbBuf0 (F := Ideal) c tbM0_0)
  (k0_hw1 : k0_chk1 (tbM0_0.view.readAt (Elt Ideal) (Rect.unit (s := S9) ![0] S1.size inb_S9_S1_0).toLoadRect xt0 (Shape.Idx.first (numel1_S1.symm ▸ Nat.one_pos))))
  (k0_hw2 : k0_chk2 (tbM0_0.view.readAt (Elt Ideal) (Rect.unit (s := S9) ![1] S1.size inb_S9_S1_1).toLoadRect xt0 (Shape.Idx.first (numel1_S1.symm ▸ Nat.one_pos))))
  (k0_hw3 : k0_chk3 (tbM0_0.view.readAt (Elt Ideal) (Rect.unit (s := S9) ![2] S1.size inb_S9_S1_2).toLoadRect xt0 (Shape.Idx.first (numel1_S1.symm ▸ Nat.one_pos))))
  (k0_hw4 : k0_chk4 (tbM0_0.view.readAt (Elt Ideal) (Rect.unit (s := S9) ![3] S1.size inb_S9_S1_3).toLoadRect xt0 (Shape.Idx.first (numel1_S1.symm ▸ Nat.one_pos))))
  (k0_hw5 : k0_chk5 (tbM0_0.view.readAt (Elt Ideal) (Rect.unit (s := S9) ![4] S1.size inb_S9_S1_4).toLoadRect xt0 (Shape.Idx.first (numel1_S1.symm ▸ Nat.one_pos))))
  (k0_hw6 : k0_chk6 (tbM0_0.view.readAt (Elt Ideal) (Rect.unit (s := S9) ![5] S1.size inb_S9_S1_5).toLoadRect xt0 (Shape.Idx.first (numel1_S1.symm ▸ Nat.one_pos))))
  (k0_hw7 : k0_chk7 (tbM0_0.view.readAt (Elt Ideal) (Rect.unit (s := S9) ![6] S1.size inb_S9_S1_6).toLoadRect xt0 (Shape.Idx.first (numel1_S1.symm ▸ Nat.one_pos))))
  (k0_hw8 : k0_chk8 (tbM0_0.view.readAt (Elt Ideal) (Rect.unit (s := S9) ![7] S1.size inb_S9_S1_7).toLoadRect xt0 (Shape.Idx.first (numel1_S1.symm ▸ Nat.one_pos))))
  (k0_hw9 : k0_chk9 (tbM0_0.view.readAt (Elt Ideal) (Rect.unit (s := S9) ![8] S1.size inb_S9_S1_8).toLoadRect xt0 (Shape.Idx.first (numel1_S1.symm ▸ Nat.one_pos))))

/-- The index a one-entry rectangle at offset `k` of the nine words names is `k`. -/
theorem idx1_eq (k : Fin 9) (off : Fin 1 → Nat) (hoff : off 0 = k.val)
    (inb : ∀ a, off a + S1.size a ≤ S9.size a) (h1 : 0 < S1.numel) :
    (Rect.unit (s := S9) off S1.size inb).idx (Shape.Idx.first h1) = ix1 k := by
  funext a
  apply Fin.ext
  match a with
  | ⟨0, _⟩ =>
    show off 0 + 1 * (Shape.Idx.first h1 (0 : Fin 1)).val = k.val
    have h0 : (Shape.Idx.first h1 (0 : Fin 1)).val = 0 := rfl
    rw [h0, hoff]
    omega

/-- The word read at offset `k` is the table's entry `k`. -/
theorem word_eq (k : Fin 9) (off : Fin 1 → Nat) (hoff : off 0 = k.val)
    (inb : ∀ a, off a + S1.size a ≤ S9.size a) (h1 : 0 < S1.numel) :
    tbM0_0.view.readAt (Elt Ideal) (Rect.unit (s := S9) off S1.size inb).toLoadRect xt0 (Shape.Idx.first h1)
      = xt0 (ix1 k) :=
  congrArg xt0 (idx1_eq k off hoff inb h1)

/-- A row of the table block named by a word: inside the block the word is below 9, and the row is the one
    the node-to-row map names. -/
theorem yrow_apply (w : BitVec 32) (off : Fin 3 → Nat) (hoff : off = ![(Scalar.indexCast w).toNat, 0, 0])
    (inb : ∀ a, off a + S1x40x256.size a ≤ S9x40x256.size a) (f : Fin 40) (l : Fin 256) :
    x0 ((Rect.unit (s := S9x40x256) off S1x40x256.size inb).idx (ix3 (0 : Fin 1) f l)) = x0 (ix3 (nodeOf w) f l) := by
  have hw : w.toNat < 9 := by
    have h2 := inb 0
    rw [hoff] at h2
    have h3 : (Scalar.indexCast w).toNat + 1 ≤ 9 := h2
    have e : (Scalar.indexCast w).toNat = w.toNat := rfl
    omega
  refine congrArg x0 (funext fun a => Fin.ext ?_)
  subst hoff
  match a with
  | ⟨0, _⟩ =>
    show (Scalar.indexCast w).toNat + 1 * 0 = (nodeOf w).val
    rw [nodeOf_val_of_lt hw]; show w.toNat + 1 * 0 = w.toNat; omega
  | ⟨1, _⟩ => show 0 + 1 * f.val = f.val; omega
  | ⟨2, _⟩ => show 0 + 1 * l.val = l.val; omega

theorem hz3 : (![0, 0, 0] : Fin 3 → Nat) = fun _ => 0 := by
  funext a; match a with | ⟨0, _⟩ => rfl | ⟨1, _⟩ => rfl | ⟨2, _⟩ => rfl

/-- The mixing block, loaded whole. -/
theorem a_eq : kernelRun0_A.sl.r_6 c arg4 harg4 x2 = x2 := by
  unfold kernelRun0_A.sl.r_6 k0_pay2
  rw [shapeCast_self]
  simp only [View.readAt_eq_ld, harg4.read_unread, View.ld_unit_zero (S := S9x9x256) hz3]

/-- The first weight block, loaded whole and widened. -/
theorem w1_eq : kernelRun0_A.sl.r_7 c arg3 harg3 x1 = x1 := by
  unfold kernelRun0_A.sl.r_7 k0_pay3
  rw [shapeCast_self]
  simp only [View.readAt_eq_ld, harg3.read_unread, View.ld_unit_zero (S := S40x80x256) hz3]
  rfl

/-- The second weight block, loaded whole and widened. -/
theorem w2_eq : kernelRun0_A.sl.r_8 c arg5 harg5 x3 = x3 := by
  unfold kernelRun0_A.sl.r_8 k0_pay4
  rw [shapeCast_self]
  simp only [View.readAt_eq_ld, harg5.read_unread, View.ld_unit_zero (S := S80x160x256) hz3]
  rfl

end Cert.KernelIdeal.KStage

end
-- ==== Proof.KY.lean ====
/-
  The nine gathered rows: node `n` loads the row of the table block that its index word names, and
  views the one-row block as a two-axis value. Entry `(f, l)` is the table block at `(row, f, l)`,
  the row being the one the specification's node-to-row map gives the word.
-/
import proofs.«408013_j76982993813545_3_alg».proof.Proof.KWords

noncomputable section

namespace Cert.KernelIdeal.KStage

open Idealize.ShloMosaic Idealize.ShloMosaic.ValueIdx Cert.KernelIdeal Cert.KernelIdeal.Gen Cert.KernelIdeal.KLib
  Cert.KernelIdeal.KSpec Cert.Gcn

variable (c : Dev nD) (i : grid0.Coords)
  (arg2 : Memref sig .tc .vmem S9x40x256 .f32) (harg2 : arg2.IsWhole) (arg3 : Memref sig .tc .vmem S40x80x256 .bf16) (harg3 : arg3.IsWhole)
  (arg4 : Memref sig .tc .vmem S9x9x256 .f32) (harg4 : arg4.IsWhole) (arg5 : Memref sig .tc .vmem S80x160x256 .bf16) (harg5 : arg5.IsWhole)
  (x0 : Vec Ideal S9x40x256 .f32) (x1 : Vec Ideal S40x80x256 .bf16) (x2 : Vec Ideal S9x9x256 .f32) (x3 : Vec Ideal S80x160x256 .bf16)
  (xt0 : TbBuf0 (F := Ideal) c tbM0_0)
  (k0_hw1 : k0_chk1 (tbM0_0.view.readAt (Elt Ideal) (Rect.unit (s := S9) ![0] S1.size inb_S9_S1_0).toLoadRect xt0 (Shape.Idx.first (numel1_S1.symm ▸ Nat.one_pos))))
  (k0_hw2 : k0_chk2 (tbM0_0.view.readAt (Elt Ideal) (Rect.unit (s := S9) ![1] S1.size inb_S9_S1_1).toLoadRect xt0 (Shape.Idx.first (numel1_S1.symm ▸ Nat.one_pos))))
  (k0_hw3 : k0_chk3 (tbM0_0.view.readAt (Elt Ideal) (Rect.unit (s := S9) ![2] S1.size inb_S9_S1_2).toLoadRect xt0 (Shape.Idx.first (numel1_S1.symm ▸ Nat.one_pos))))
  (k0_hw4 : k0_chk4 (tbM0_0.view.readAt (Elt Ideal) (Rect.unit (s := S9) ![3] S1.size inb_S9_S1_3).toLoadRect xt0 (Shape.Idx.first (numel1_S1.symm ▸ Nat.one_pos))))
  (k0_hw5 : k0_chk5 (tbM0_0.view.readAt (Elt Ideal) (Rect.unit (s := S9) ![4] S1.size inb_S9_S1_4).toLoadRect xt0 (Shape.Idx.first (numel1_S1.symm ▸ Nat.one_pos))))
  (k0_hw6 : k0_chk6 (tbM0_0.view.readAt (Elt Ideal) (Rect.unit (s := S9) ![5] S1.size inb_S9_S1_5).toLoadRect xt0 (Shape.Idx.first (numel1_S1.symm ▸ Nat.one_pos))))
  (k0_hw7 : k0_chk7 (tbM0_0.view.readAt (Elt Ideal) (Rect.unit (s := S9) ![6] S1.size inb_S9_S1_6).toLoadRect xt0 (Shape.Idx.first (numel1_S1.symm ▸ Nat.one_pos))))
  (k0_hw8 : k0_chk8 (tbM0_0.view.readAt (Elt Ideal) (Rect.unit (s := S9) ![7] S1.size inb_S9_S1_7).toLoadRect xt0 (Shape.Idx.first (numel1_S1.symm ▸ Nat.one_pos))))
  (k0_hw9 : k0_chk9 (tbM0_0.view.readAt (Elt Ideal) (Rect.unit (s := S9) ![8] S1.size inb_S9_S1_8).toLoadRect xt0 (Shape.Idx.first (numel1_S1.symm ▸ Nat.one_pos))))

/-- Node 0's gathered features. -/
theorem y0_eq : kernelRun0_A.sl.r_9 c arg2 harg2 x0 xt0 k0_hw1 = vY xt0 x0 0 := by
  funext j
  obtain ⟨f, l, rfl⟩ : ∃ (f : Fin 40) (l : Fin 256), j = ix2 f l := ⟨j 0, j 1, eq_ix2 j⟩
  simp only [kernelRun0_A.sl.r_9, k0_pay5]
  refine (shapeCast_1ab_ab_apply _ _ f l).trans ?_
  rw [Memref.IsWhole.readAt_unread]
  refine (yrow_apply x0 _ _ rfl _ f l).trans ?_
  exact congrArg (fun w => x0 (ix3 (nodeOf w) f l)) (word_eq c xt0 ⟨0, by decide⟩ _ rfl _ _)

/-- Node 1's gathered features. -/
theorem y1_eq : kernelRun0_A.sl.r_10 c arg2 harg2 x0 xt0 k0_hw2 = vY xt0 x0 1 := by
  funext j
  obtain ⟨f, l, rfl⟩ : ∃ (f : Fin 40) (l : Fin 256), j = ix2 f l := ⟨j 0, j 1, eq_ix2 j⟩
  simp only [kernelRun0_A.sl.r_10, k0_pay6]
  refine (shapeCast_1ab_ab_apply _ _ f l).trans ?_
  rw [Memref.IsWhole.readAt_unread]
  refine (yrow_apply x0 _ _ rfl _ f l).trans ?_
  exact congrArg (fun w => x0 (ix3 (nodeOf w) f l)) (word_eq c xt0 ⟨1, by decide⟩ _ rfl _ _)

/-- Node 2's gathered features. -/
theorem y2_eq : kernelRun0_A.sl.r_11 c arg2 harg2 x0 xt0 k0_hw3 = vY xt0 x0 2 := by
  funext j
  obtain ⟨f, l, rfl⟩ : ∃ (f : Fin 40) (l : Fin 256), j = ix2 f l := ⟨j 0, j 1, eq_ix2 j⟩
  simp only [kernelRun0_A.sl.r_11, k0_pay7]
  refine (shapeCast_1ab_ab_apply _ _ f l).trans ?_
  rw [Memref.IsWhole.readAt_unread]
  refine (yrow_apply x0 _ _ rfl _ f l).trans ?_
  exact congrArg (fun w => x0 (ix3 (nodeOf w) f l)) (word_eq c xt0 ⟨2, by decide⟩ _ rfl _ _)

/-- Node 3's gathered features. -/
theorem y3_eq : kernelRun0_A.sl.r_12 c arg2 harg2 x0 xt0 k0_hw4 = vY xt0 x0 3 := by
  funext j
  obtain ⟨f, l, rfl⟩ : ∃ (f : Fin 40) (l : Fin 256), j = ix2 f l := ⟨j 0, j 1, eq_ix2 j⟩
  simp only [kernelRun0_A.sl.r_12, k0_pay8]
  refine (shapeCast_1ab_ab_apply _ _ f l).trans ?_
  rw [Memref.IsWhole.readAt_unread]
  refine (yrow_apply x0 _ _ rfl _ f l).trans ?_
  exact congrArg (fun w => x0 (ix3 (nodeOf w) f l)) (word_eq c xt0 ⟨3, by decide⟩ _ rfl _ _)

/-- Node 4's gathered features. -/
theorem y4_eq : kernelRun0_A.sl.r_13 c arg2 harg2 x0 xt0 k0_hw5 = vY xt0 x0 4 := by
  funext j
  obtain ⟨f, l, rfl⟩ : ∃ (f : Fin 40) (l : Fin 256), j = ix2 f l := ⟨j 0, j 1, eq_ix2 j⟩
  simp only [kernelRun0_A.sl.r_13, k0_pay9]
  refine (shapeCast_1ab_ab_apply _ _ f l).trans ?_
  rw [Memref.IsWhole.readAt_unread]
  refine (yrow_apply x0 _ _ rfl _ f l).trans ?_
  exact congrArg (fun w => x0 (ix3 (nodeOf w) f l)) (word_eq c xt0 ⟨4, by decide⟩ _ rfl _ _)

/-- Node 5's gathered features. -/
theorem y5_eq : kernelRun0_A.sl.r_17 c arg2 harg2 x0 xt0 k0_hw6 = vY xt0 x0 5 := by
  funext j
  obtain ⟨f, l, rfl⟩ : ∃ (f : Fin 40) (l : Fin 256), j = ix2 f l := ⟨j 0, j 1, eq_ix2 j⟩
  simp only [kernelRun0_A.sl.r_17, k0_pay10]
  refine (shapeCast_1ab_ab_apply _ _ f l).trans ?_
  rw [Memref.IsWhole.readAt_unread]
  refine (yrow_apply x0 _ _ rfl _ f l).trans ?_
  exact congrArg (fun w => x0 (ix3 (nodeOf w) f l)) (word_eq c xt0 ⟨5, by decide⟩ _ rfl _ _)

/-- Node 6's gathered features. -/
theorem y6_eq : kernelRun0_A.sl.r_18 c arg2 harg2 x0 xt0 k0_hw7 = vY xt0 x0 6 := by
  funext j
  obtain ⟨f, l, rfl⟩ : ∃ (f : Fin 40) (l : Fin 256), j = ix2 f l := ⟨j 0, j 1, eq_ix2 j⟩
  simp only [kernelRun0_A.sl.r_18, k0_pay11]
  refine (shapeCast_1ab_ab_apply _ _ f l).trans ?_
  rw [Memref.IsWhole.readAt_unread]
  refine (yrow_apply x0 _ _ rfl _ f l).trans ?_
  exact congrArg (fun w => x0 (ix3 (nodeOf w) f l)) (word_eq c xt0 ⟨6, by decide⟩ _ rfl _ _)

/-- Node 7's gathered features. -/
theorem y7_eq : kernelRun0_A.sl.r_19 c arg2 harg2 x0 xt0 k0_hw8 = vY xt0 x0 7 := by
  funext j
  obtain ⟨f, l, rfl⟩ : ∃ (f : Fin 40) (l : Fin 256), j = ix2 f l := ⟨j 0, j 1, eq_ix2 j⟩
  simp only [kernelRun0_A.sl.r_19, k0_pay12]
  refine (shapeCast_1ab_ab_apply _ _ f l).trans ?_
  rw [Memref.IsWhole.readAt_unread]
  refine (yrow_apply x0 _ _ rfl _ f l).trans ?_
  exact congrArg (fun w => x0 (ix3 (nodeOf w) f l)) (word_eq c xt0 ⟨7, by decide⟩ _ rfl _ _)

/-- Node 8's gathered features. -/
theorem y8_eq : kernelRun0_A.sl.r_20 c arg2 harg2 x0 xt0 k0_hw9 = vY xt0 x0 8 := by
  funext j
  obtain ⟨f, l, rfl⟩ : ∃ (f : Fin 40) (l : Fin 256), j = ix2 f l := ⟨j 0, j 1, eq_ix2 j⟩
  simp only [kernelRun0_A.sl.r_20, k0_pay13]
  refine (shapeCast_1ab_ab_apply _ _ f l).trans ?_
  rw [Memref.IsWhole.readAt_unread]
  refine (yrow_apply x0 _ _ rfl _ f l).trans ?_
  exact congrArg (fun w => x0 (ix3 (nodeOf w) f l)) (word_eq c xt0 ⟨8, by decide⟩ _ rfl _ _)

end Cert.KernelIdeal.KStage

end
-- ==== Proof.KG1.lean ====
/-
  The first mixing: node `n`'s row is `∑ m, a n m * y m`, accumulated from zero one node at a time.
  At entry `(f, l)` the body's left-nested sum of the nine products is the finite sum of the
  specification.
-/
import proofs.«408013_j76982993813545_3_alg».proof.Proof.KY

noncomputable section

namespace Cert.KernelIdeal.KStage

open Idealize.ShloMosaic Idealize.ShloMosaic.ValueIdx Cert.KernelIdeal Cert.KernelIdeal.Gen Cert.KernelIdeal.KLib
  Cert.KernelIdeal.KSpec Cert.Gcn

variable (c : Dev nD) (i : grid0.Coords)
  (arg2 : Memref sig .tc .vmem S9x40x256 .f32) (harg2 : arg2.IsWhole) (arg3 : Memref sig .tc .vmem S40x80x256 .bf16) (harg3 : arg3.IsWhole)
  (arg4 : Memref sig .tc .vmem S9x9x256 .f32) (harg4 : arg4.IsWhole) (arg5 : Memref sig .tc .vmem S80x160x256 .bf16) (harg5 : arg5.IsWhole)
  (x0 : Vec Ideal S9x40x256 .f32) (x1 : Vec Ideal S40x80x256 .bf16) (x2 : Vec Ideal S9x9x256 .f32) (x3 : Vec Ideal S80x160x256 .bf16)
  (xt0 : TbBuf0 (F := Ideal) c tbM0_0)
  (k0_hw1 : k0_chk1 (tbM0_0.view.readAt (Elt Ideal) (Rect.unit (s := S9) ![0] S1.size inb_S9_S1_0).toLoadRect xt0 (Shape.Idx.first (numel1_S1.symm ▸ Nat.one_pos))))
  (k0_hw2 : k0_chk2 (tbM0_0.view.readAt (Elt Ideal) (Rect.unit (s := S9) ![1] S1.size inb_S9_S1_1).toLoadRect xt0 (Shape.Idx.first (numel1_S1.symm ▸ Nat.one_pos))))
  (k0_hw3 : k0_chk3 (tbM0_0.view.readAt (Elt Ideal) (Rect.unit (s := S9) ![2] S1.size inb_S9_S1_2).toLoadRect xt0 (Shape.Idx.first (numel1_S1.symm ▸ Nat.one_pos))))
  (k0_hw4 : k0_chk4 (tbM0_0.view.readAt (Elt Ideal) (Rect.unit (s := S9) ![3] S1.size inb_S9_S1_3).toLoadRect xt0 (Shape.Idx.first (numel1_S1.symm ▸ Nat.one_pos))))
  (k0_hw5 : k0_chk5 (tbM0_0.view.readAt (Elt Ideal) (Rect.unit (s := S9) ![4] S1.size inb_S9_S1_4).toLoadRect xt0 (Shape.Idx.first (numel1_S1.symm ▸ Nat.one_pos))))
  (k0_hw6 : k0_chk6 (tbM0_0.view.readAt (Elt Ideal) (Rect.unit (s := S9) ![5] S1.size inb_S9_S1_5).toLoadRect xt0 (Shape.Idx.first (numel1_S1.symm ▸ Nat.one_pos))))
  (k0_hw7 : k0_chk7 (tbM0_0.view.readAt (Elt Ideal) (Rect.unit (s := S9) ![6] S1.size inb_S9_S1_6).toLoadRect xt0 (Shape.Idx.first (numel1_S1.symm ▸ Nat.one_pos))))
  (k0_hw8 : k0_chk8 (tbM0_0.view.readAt (Elt Ideal) (Rect.unit (s := S9) ![7] S1.size inb_S9_S1_7).toLoadRect xt0 (Shape.Idx.first (numel1_S1.symm ▸ Nat.one_pos))))
  (k0_hw9 : k0_chk9 (tbM0_0.view.readAt (Elt Ideal) (Rect.unit (s := S9) ![8] S1.size inb_S9_S1_8).toLoadRect xt0 (Shape.Idx.first (numel1_S1.symm ▸ Nat.one_pos))))

/-- Node 0's first mixing. -/
theorem g1_0_eq : kernelRun0_A.sl.r_23 c arg2 harg2 arg4 harg4 x0 x2 xt0 k0_hw1 k0_hw2 k0_hw3 k0_hw4 k0_hw5 k0_hw6 k0_hw7 k0_hw8 k0_hw9 = vG1 xt0 x0 x2 0 := by
  funext j
  obtain ⟨f, l, rfl⟩ : ∃ (f : Fin 40) (l : Fin 256), j = ix2 f l := ⟨j 0, j 1, eq_ix2 j⟩
  simp only [kernelRun0_A.sl.r_23, kernelRun0_A.sl.r_21, kernelRun0_A.sl.r_22, k0_pay16, k0_pay14, k0_pay15]
  simp only [a_eq, y0_eq, y1_eq, y2_eq, y3_eq, y4_eq, y5_eq, y6_eq, y7_eq, y8_eq]
  simp only [addf_apply, mulf_apply, rowA_apply, broadcast_apply, Ideal.ofBits_def, Ideal.ofBits_zero_f32]
  show _ = kG1 (nd xt0) (bE x0 l) (bA x2 l) 0 f
  unfold kG1
  rw [← chain_zero_eq_sum]
  rfl

/-- Node 1's first mixing. -/
theorem g1_1_eq : kernelRun0_A.sl.r_26 c arg2 harg2 arg4 harg4 x0 x2 xt0 k0_hw1 k0_hw2 k0_hw3 k0_hw4 k0_hw5 k0_hw6 k0_hw7 k0_hw8 k0_hw9 = vG1 xt0 x0 x2 1 := by
  funext j
  obtain ⟨f, l, rfl⟩ : ∃ (f : Fin 40) (l : Fin 256), j = ix2 f l := ⟨j 0, j 1, eq_ix2 j⟩
  simp only [kernelRun0_A.sl.r_26, kernelRun0_A.sl.r_24, kernelRun0_A.sl.r_25, k0_pay19, k0_pay17, k0_pay18]
  simp only [a_eq, y0_eq, y1_eq, y2_eq, y3_eq, y4_eq, y5_eq, y6_eq, y7_eq, y8_eq]
  simp only [addf_apply, mulf_apply, rowA_apply, broadcast_apply, Ideal.ofBits_def, Ideal.ofBits_zero_f32]
  show _ = kG1 (nd xt0) (bE x0 l) (bA x2 l) 1 f
  unfold kG1
  rw [← chain_zero_eq_sum]
  rfl

/-- Node 2's first mixing. -/
theorem g1_2_eq : kernelRun0_A.sl.r_27 c arg2 harg2 arg4 harg4 x0 x2 xt0 k0_hw1 k0_hw2 k0_hw3 k0_hw4 k0_hw5 k0_hw6 k0_hw7 k0_hw8 k0_hw9 = vG1 xt0 x0 x2 2 := by
  funext j
  obtain ⟨f, l, rfl⟩ : ∃ (f : Fin 40) (l : Fin 256), j = ix2 f l := ⟨j 0, j 1, eq_ix2 j⟩
  simp only [kernelRun0_A.sl.r_27, k0_pay20]
  simp only [a_eq, y0_eq, y1_eq, y2_eq, y3_eq, y4_eq, y5_eq, y6_eq, y7_eq, y8_eq]
  simp only [addf_apply, mulf_apply, rowA_apply, broadcast_apply, Ideal.ofBits_def, Ideal.ofBits_zero_f32]
  show _ = kG1 (nd xt0) (bE x0 l) (bA x2 l) 2 f
  unfold kG1
  rw [← chain_zero_eq_sum]
  rfl

/-- Node 3's first mixing. -/
theorem g1_3_eq : kernelRun0_A.sl.r_30 c arg2 harg2 arg4 harg4 x0 x2 xt0 k0_hw1 k0_hw2 k0_hw3 k0_hw4 k0_hw5 k0_hw6 k0_hw7 k0_hw8 k0_hw9 = vG1 xt0 x0 x2 3 := by
  funext j
  obtain ⟨f, l, rfl⟩ : ∃ (f : Fin 40) (l : Fin 256), j = ix2 f l := ⟨j 0, j 1, eq_ix2 j⟩
  simp only [kernelRun0_A.sl.r_30, kernelRun0_A.sl.r_28, kernelRun0_A.sl.r_29, k0_pay23, k0_pay21, k0_pay22]
  simp only [a_eq, y0_eq, y1_eq, y2_eq, y3_eq, y4_eq, y5_eq, y6_eq, y7_eq, y8_eq]
  simp only [addf_apply, mulf_apply, rowA_apply, broadcast_apply, Ideal.ofBits_def, Ideal.ofBits_zero_f32]
  show _ = kG1 (nd xt0) (bE x0 l) (bA x2 l) 3 f
  unfold kG1
  rw [← chain_zero_eq_sum]
  rfl

/-- Node 4's first mixing. -/
theorem g1_4_eq : kernelRun0_A.sl.r_32 c arg2 harg2 arg4 harg4 x0 x2 xt0 k0_hw1 k0_hw2 k0_hw3 k0_hw4 k0_hw5 k0_hw6 k0_hw7 k0_hw8 k0_hw9 = vG1 xt0 x0 x2 4 := by
  funext j
  obtain ⟨f, l, rfl⟩ : ∃ (f : Fin 40) (l : Fin 256), j = ix2 f l := ⟨j 0, j 1, eq_ix2 j⟩
  simp only [kernelRun0_A.sl.r_32, kernelRun0_A.sl.r_31, k0_pay25, k0_pay24]
  simp only [a_eq, y0_eq, y1_eq, y2_eq, y3_eq, y4_eq, y5_eq, y6_eq, y7_eq, y8_eq]
  simp only [addf_apply, mulf_apply, rowA_apply, broadcast_apply, Ideal.ofBits_def, Ideal.ofBits_zero_f32]
  show _ = kG1 (nd xt0) (bE x0 l) (bA x2 l) 4 f
  unfold kG1
  rw [← chain_zero_eq_sum]
  rfl

/-- Node 5's first mixing. -/
theorem g1_5_eq : kernelRun0_A.sl.r_35 c arg2 harg2 arg4 harg4 x0 x2 xt0 k0_hw1 k0_hw2 k0_hw3 k0_hw4 k0_hw5 k0_hw6 k0_hw7 k0_hw8 k0_hw9 = vG1 xt0 x0 x2 5 := by
  funext j
  obtain ⟨f, l, rfl⟩ : ∃ (f : Fin 40) (l : Fin 256), j = ix2 f l := ⟨j 0, j 1, eq_ix2 j⟩
  simp only [kernelRun0_A.sl.r_35, kernelRun0_A.sl.r_33, kernelRun0_A.sl.r_34, k0_pay28, k0_pay26, k0_pay27]
  simp only [a_eq, y0_eq, y1_eq, y2_eq, y3_eq, y4_eq, y5_eq, y6_eq, y7_eq, y8_eq]
  simp only [addf_apply, mulf_apply, rowA_apply, broadcast_apply, Ideal.ofBits_def, Ideal.ofBits_zero_f32]
  show _ = kG1 (nd xt0) (bE x0 l) (bA x2 l) 5 f
  unfold kG1
  rw [← chain_zero_eq_sum]
  rfl

/-- Node 6's first mixing. -/
theorem g1_6_eq : kernelRun0_A.sl.r_36 c arg2 harg2 arg4 harg4 x0 x2 xt0 k0_hw1 k0_hw2 k0_hw3 k0_hw4 k0_hw5 k0_hw6 k0_hw7 k0_hw8 k0_hw9 = vG1 xt0 x0 x2 6 := by
  funext j
  obtain ⟨f, l, rfl⟩ : ∃ (f : Fin 40) (l : Fin 256), j = ix2 f l := ⟨j 0, j 1, eq_ix2 j⟩
  simp only [kernelRun0_A.sl.r_36, k0_pay29]
  simp only [a_eq, y0_eq, y1_eq, y2_eq, y3_eq, y4_eq, y5_eq, y6_eq, y7_eq, y8_eq]
  simp only [addf_apply, mulf_apply, rowA_apply, broadcast_apply, Ideal.ofBits_def, Ideal.ofBits_zero_f32]
  show _ = kG1 (nd xt0) (bE x0 l) (bA x2 l) 6 f
  unfold kG1
  rw [← chain_zero_eq_sum]
  rfl

/-- Node 7's first mixing. -/
theorem g1_7_eq : kernelRun0_A.sl.r_37 c arg2 harg2 arg4 harg4 x0 x2 xt0 k0_hw1 k0_hw2 k0_hw3 k0_hw4 k0_hw5 k0_hw6 k0_hw7 k0_hw8 k0_hw9 = vG1 xt0 x0 x2 7 := by
  funext j
  obtain ⟨f, l, rfl⟩ : ∃ (f : Fin 40) (l : Fin 256), j = ix2 f l := ⟨j 0, j 1, eq_ix2 j⟩
  simp only [kernelRun0_A.sl.r_37, kernelRun0_A.sl.cst_33, k0_pay30]
  simp only [a_eq, y0_eq, y1_eq, y2_eq, y3_eq, y4_eq, y5_eq, y6_eq, y7_eq, y8_eq]
  simp only [addf_apply, mulf_apply, rowA_apply, broadcast_apply, Ideal.ofBits_def, Ideal.ofBits_zero_f32]
  show _ = kG1 (nd xt0) (bE x0 l) (bA x2 l) 7 f
  unfold kG1
  rw [← chain_zero_eq_sum]
  rfl

/-- Node 8's first mixing. -/
theorem g1_8_eq : kernelRun0_A.sl.r_40 c arg2 harg2 arg4 harg4 x0 x2 xt0 k0_hw1 k0_hw2 k0_hw3 k0_hw4 k0_hw5 k0_hw6 k0_hw7 k0_hw8 k0_hw9 = vG1 xt0 x0 x2 8 := by
  funext j
  obtain ⟨f, l, rfl⟩ : ∃ (f : Fin 40) (l : Fin 256), j = ix2 f l := ⟨j 0, j 1, eq_ix2 j⟩
  simp only [kernelRun0_A.sl.r_40, kernelRun0_A.sl.r_38, kernelRun0_A.sl.r_39, k0_pay33, k0_pay31, k0_pay32]
  simp only [a_eq, y0_eq, y1_eq, y2_eq, y3_eq, y4_eq, y5_eq, y6_eq, y7_eq, y8_eq]
  simp only [addf_apply, mulf_apply, rowA_apply, broadcast_apply, Ideal.ofBits_def, Ideal.ofBits_zero_f32]
  show _ = kG1 (nd xt0) (bE x0 l) (bA x2 l) 8 f
  unfold kG1
  rw [← chain_zero_eq_sum]
  rfl

end Cert.KernelIdeal.KStage

end
-- ==== Proof.KH1.lean ====
/-
  The hidden layer: node `n`'s row is the leaky rectifier of `∑ f, g1 n f * w1 f`, accumulated from
  zero one feature at a time: row `f` of the node's first mixing, repeated down the 80 hidden units,
  times slab `f` of the first weight block. At entry `(h, l)` the rectifier's compare-and-select is the
  specification's `lrelu`, and the left-nested sum of the forty products its finite sum.
-/
import proofs.«408013_j76982993813545_3_alg».proof.Proof.KG1

noncomputable section

namespace Cert.KernelIdeal.KStage

open Idealize.ShloMosaic Idealize.ShloMosaic.ValueIdx Cert.KernelIdeal Cert.KernelIdeal.Gen Cert.KernelIdeal.KLib
  Cert.KernelIdeal.KSpec Cert.Gcn

variable (c : Dev nD) (i : grid0.Coords)
  (arg2 : Memref sig .tc .vmem S9x40x256 .f32) (harg2 : arg2.IsWhole) (arg3 : Memref sig .tc .vmem S40x80x256 .bf16) (harg3 : arg3.IsWhole)
  (arg4 : Memref sig .tc .vmem S9x9x256 .f32) (harg4 : arg4.IsWhole) (arg5 : Memref sig .tc .vmem S80x160x256 .bf16) (harg5 : arg5.IsWhole)
  (x0 : Vec Ideal S9x40x256 .f32) (x1 : Vec Ideal S40x80x256 .bf16) (x2 : Vec Ideal S9x9x256 .f32) (x3 : Vec Ideal S80x160x256 .bf16)
  (xt0 : TbBuf0 (F := Ideal) c tbM0_0)
  (k0_hw1 : k0_chk1 (tbM0_0.view.readAt (Elt Ideal) (Rect.unit (s := S9) ![0] S1.size inb_S9_S1_0).toLoadRect xt0 (Shape.Idx.first (numel1_S1.symm ▸ Nat.one_pos))))
  (k0_hw2 : k0_chk2 (tbM0_0.view.readAt (Elt Ideal) (Rect.unit (s := S9) ![1] S1.size inb_S9_S1_1).toLoadRect xt0 (Shape.Idx.first (numel1_S1.symm ▸ Nat.one_pos))))
  (k0_hw3 : k0_chk3 (tbM0_0.view.readAt (Elt Ideal) (Rect.unit (s := S9) ![2] S1.size inb_S9_S1_2).toLoadRect xt0 (Shape.Idx.first (numel1_S1.symm ▸ Nat.one_pos))))
  (k0_hw4 : k0_chk4 (tbM0_0.view.readAt (Elt Ideal) (Rect.unit (s := S9) ![3] S1.size inb_S9_S1_3).toLoadRect xt0 (Shape.Idx.first (numel1_S1.symm ▸ Nat.one_pos))))
  (k0_hw5 : k0_chk5 (tbM0_0.view.readAt (Elt Ideal) (Rect.unit (s := S9) ![4] S1.size inb_S9_S1_4).toLoadRect xt0 (Shape.Idx.first (numel1_S1.symm ▸ Nat.one_pos))))
  (k0_hw6 : k0_chk6 (tbM0_0.view.readAt (Elt Ideal) (Rect.unit (s := S9) ![5] S1.size inb_S9_S1_5).toLoadRect xt0 (Shape.Idx.first (numel1_S1.symm ▸ Nat.one_pos))))
  (k0_hw7 : k0_chk7 (tbM0_0.view.readAt (Elt Ideal) (Rect.unit (s := S9) ![6] S1.size inb_S9_S1_6).toLoadRect xt0 (Shape.Idx.first (numel1_S1.symm ▸ Nat.one_pos))))
  (k0_hw8 : k0_chk8 (tbM0_0.view.readAt (Elt Ideal) (Rect.unit (s := S9) ![7] S1.size inb_S9_S1_7).toLoadRect xt0 (Shape.Idx.first (numel1_S1.symm ▸ Nat.one_pos))))
  (k0_hw9 : k0_chk9 (tbM0_0.view.readAt (Elt Ideal) (Rect.unit (s := S9) ![8] S1.size inb_S9_S1_8).toLoadRect xt0 (Shape.Idx.first (numel1_S1.symm ▸ Nat.one_pos))))

/-- Node 0's hidden row. -/
theorem h1_0_eq : kernelRun0_A.sl.r_49 c arg2 harg2 arg3 harg3 arg4 harg4 x0 x1 x2 xt0 k0_hw1 k0_hw2 k0_hw3 k0_hw4 k0_hw5 k0_hw6 k0_hw7 k0_hw8 k0_hw9 = vH1 xt0 x0 x1 x2 0 := by
  funext j
  obtain ⟨h, l, rfl⟩ : ∃ (h : Fin 80) (l : Fin 256), j = ix2 h l := ⟨j 0, j 1, eq_ix2 j⟩
  simp only [kernelRun0_A.sl.r_49, kernelRun0_A.sl.r_47, kernelRun0_A.sl.r_45, kernelRun0_A.sl.r_43, kernelRun0_A.sl.r_41, kernelRun0_A.sl.r_42, kernelRun0_A.sl.r_44, kernelRun0_A.sl.r_46, kernelRun0_A.sl.r_48, k0_pay42, k0_pay40, k0_pay38, k0_pay36, k0_pay34, k0_pay35, k0_pay37, k0_pay39, k0_pay41]
  simp only [w1_eq, g1_0_eq]
  rw [lrelu_apply]
  simp only [addf_apply, mulf_apply, rowG_apply, slabW_apply, broadcast_apply, Ideal.ofBits_def, Ideal.ofBits_zero_f32]
  show _ = kH1 cw (nd xt0) (bE x0 l) (bW1 x1 l) (bA x2 l) 0 h
  unfold kH1
  rw [← chain_zero_eq_sum]
  rfl

/-- Node 1's hidden row. -/
theorem h1_1_eq : kernelRun0_A.sl.r_62 c arg2 harg2 arg3 harg3 arg4 harg4 x0 x1 x2 xt0 k0_hw1 k0_hw2 k0_hw3 k0_hw4 k0_hw5 k0_hw6 k0_hw7 k0_hw8 k0_hw9 = vH1 xt0 x0 x1 x2 1 := by
  funext j
  obtain ⟨h, l, rfl⟩ : ∃ (h : Fin 80) (l : Fin 256), j = ix2 h l := ⟨j 0, j 1, eq_ix2 j⟩
  simp only [kernelRun0_A.sl.r_62, kernelRun0_A.sl.r_59, kernelRun0_A.sl.r_56, kernelRun0_A.sl.r_53, kernelRun0_A.sl.r_50, kernelRun0_A.sl.r_51, kernelRun0_A.sl.r_52, kernelRun0_A.sl.r_54, kernelRun0_A.sl.r_55, kernelRun0_A.sl.r_57, kernelRun0_A.sl.r_58, kernelRun0_A.sl.r_60, kernelRun0_A.sl.r_61, k0_pay55, k0_pay52, k0_pay49, k0_pay46, k0_pay43, k0_pay44, k0_pay45, k0_pay47, k0_pay48, k0_pay50, k0_pay51, k0_pay53, k0_pay54]
  simp only [w1_eq, g1_1_eq]
  rw [lrelu_apply]
  simp only [addf_apply, mulf_apply, rowG_apply, slabW_apply, broadcast_apply, Ideal.ofBits_def, Ideal.ofBits_zero_f32]
  show _ = kH1 cw (nd xt0) (bE x0 l) (bW1 x1 l) (bA x2 l) 1 h
  unfold kH1
  rw [← chain_zero_eq_sum]
  rfl

/-- Node 2's hidden row. -/
theorem h1_2_eq : kernelRun0_A.sl.r_71 c arg2 harg2 arg3 harg3 arg4 harg4 x0 x1 x2 xt0 k0_hw1 k0_hw2 k0_hw3 k0_hw4 k0_hw5 k0_hw6 k0_hw7 k0_hw8 k0_hw9 = vH1 xt0 x0 x1 x2 2 := by
  funext j
  obtain ⟨h, l, rfl⟩ : ∃ (h : Fin 80) (l : Fin 256), j = ix2 h l := ⟨j 0, j 1, eq_ix2 j⟩
  simp only [kernelRun0_A.sl.r_71, kernelRun0_A.sl.r_69, kernelRun0_A.sl.r_67, kernelRun0_A.sl.r_65, kernelRun0_A.sl.r_63, kernelRun0_A.sl.r_64, kernelRun0_A.sl.r_66, kernelRun0_A.sl.r_68, kernelRun0_A.sl.r_70, k0_pay64, k0_pay62, k0_pay60, k0_pay58, k0_pay56, k0_pay57, k0_pay59, k0_pay61, k0_pay63]
  simp only [w1_eq, g1_2_eq]
  rw [lrelu_apply]
  simp only [addf_apply, mulf_apply, rowG_apply, slabW_apply, broadcast_apply, Ideal.ofBits_def, Ideal.ofBits_zero_f32]
  show _ = kH1 cw (nd xt0) (bE x0 l) (bW1 x1 l) (bA x2 l) 2 h
  unfold kH1
  rw [← chain_zero_eq_sum]
  rfl

/-- Node 3's hidden row. -/
theorem h1_3_eq : kernelRun0_A.sl.r_84 c arg2 harg2 arg3 harg3 arg4 harg4 x0 x1 x2 xt0 k0_hw1 k0_hw2 k0_hw3 k0_hw4 k0_hw5 k0_hw6 k0_hw7 k0_hw8 k0_hw9 = vH1 xt0 x0 x1 x2 3 := by
  funext j
  obtain ⟨h, l, rfl⟩ : ∃ (h : Fin 80) (l : Fin 256), j = ix2 h l := ⟨j 0, j 1, eq_ix2 j⟩
  simp only [kernelRun0_A.sl.r_84, kernelRun0_A.sl.r_81, kernelRun0_A.sl.r_78, kernelRun0_A.sl.r_75, kernelRun0_A.sl.r_72, kernelRun0_A.sl.r_73, kernelRun0_A.sl.r_74, kernelRun0_A.sl.r_76, kernelRun0_A.sl.r_77, kernelRun0_A.sl.r_79, kernelRun0_A.sl.r_80, kernelRun0_A.sl.r_82, kernelRun0_A.sl.r_83, k0_pay77, k0_pay74, k0_pay71, k0_pay68, k0_pay65, k0_pay66, k0_pay67, k0_pay69, k0_pay70, k0_pay72, k0_pay73, k0_pay75, k0_pay76]
  simp only [w1_eq, g1_3_eq]
  rw [lrelu_apply]
  simp only [addf_apply, mulf_apply, rowG_apply, slabW_apply, broadcast_apply, Ideal.ofBits_def, Ideal.ofBits_zero_f32]
  show _ = kH1 cw (nd xt0) (bE x0 l) (bW1 x1 l) (bA x2 l) 3 h
  unfold kH1
  rw [← chain_zero_eq_sum]
  rfl

/-- Node 4's hidden row. -/
theorem h1_4_eq : kernelRun0_A.sl.r_93 c arg2 harg2 arg3 harg3 arg4 harg4 x0 x1 x2 xt0 k0_hw1 k0_hw2 k0_hw3 k0_hw4 k0_hw5 k0_hw6 k0_hw7 k0_hw8 k0_hw9 = vH1 xt0 x0 x1 x2 4 := by
  funext j
  obtain ⟨h, l, rfl⟩ : ∃ (h : Fin 80) (l : Fin 256), j = ix2 h l := ⟨j 0, j 1, eq_ix2 j⟩
  simp only [kernelRun0_A.sl.r_93, kernelRun0_A.sl.r_91, kernelRun0_A.sl.r_89, kernelRun0_A.sl.r_87, kernelRun0_A.sl.r_85, kernelRun0_A.sl.r_86, kernelRun0_A.sl.r_88, kernelRun0_A.sl.r_90, kernelRun0_A.sl.r_92, k0_pay86, k0_pay84, k0_pay82, k0_pay80, k0_pay78, k0_pay79, k0_pay81, k0_pay83, k0_pay85]
  simp only [w1_eq, g1_4_eq]
  rw [lrelu_apply]
  simp only [addf_apply, mulf_apply, rowG_apply, slabW_apply, broadcast_apply, Ideal.ofBits_def, Ideal.ofBits_zero_f32]
  show _ = kH1 cw (nd xt0) (bE x0 l) (bW1 x1 l) (bA x2 l) 4 h
  unfold kH1
  rw [← chain_zero_eq_sum]
  rfl

/-- Node 5's hidden row. -/
theorem h1_5_eq : kernelRun0_A.sl.r_106 c arg2 harg2 arg3 harg3 arg4 harg4 x0 x1 x2 xt0 k0_hw1 k0_hw2 k0_hw3 k0_hw4 k0_hw5 k0_hw6 k0_hw7 k0_hw8 k0_hw9 = vH1 xt0 x0 x1 x2 5 := by
  funext j
  obtain ⟨h, l, rfl⟩ : ∃ (h : Fin 80) (l : Fin 256), j = ix2 h l := ⟨j 0, j 1, eq_ix2 j⟩
  simp only [kernelRun0_A.sl.r_106, kernelRun0_A.sl.r_103, kernelRun0_A.sl.r_100, kernelRun0_A.sl.r_97, kernelRun0_A.sl.r_94, kernelRun0_A.sl.r_95, kernelRun0_A.sl.r_96, kernelRun0_A.sl.r_98, kernelRun0_A.sl.r_99, kernelRun0_A.sl.r_101, kernelRun0_A.sl.r_102, kernelRun0_A.sl.r_104, kernelRun0_A.sl.r_105, k0_pay99, k0_pay96, k0_pay93, k0_pay90, k0_pay87, k0_pay88, k0_pay89, k0_pay91, k0_pay92, k0_pay94, k0_pay95, k0_pay97, k0_pay98]
  simp only [w1_eq, g1_5_eq]
  rw [lrelu_apply]
  simp only [addf_apply, mulf_apply, rowG_apply, slabW_apply, broadcast_apply, Ideal.ofBits_def, Ideal.ofBits_zero_f32]
  show _ = kH1 cw (nd xt0) (bE x0 l) (bW1 x1 l) (bA x2 l) 5 h
  unfold kH1
  rw [← chain_zero_eq_sum]
  rfl

/-- Node 6's hidden row. -/
theorem h1_6_eq : kernelRun0_A.sl.r_115 c arg2 harg2 arg3 harg3 arg4 harg4 x0 x1 x2 xt0 k0_hw1 k0_hw2 k0_hw3 k0_hw4 k0_hw5 k0_hw6 k0_hw7 k0_hw8 k0_hw9 = vH1 xt0 x0 x1 x2 6 := by
  funext j
  obtain ⟨h, l, rfl⟩ : ∃ (h : Fin 80) (l : Fin 256), j = ix2 h l := ⟨j 0, j 1, eq_ix2 j⟩
  simp only [kernelRun0_A.sl.r_115, kernelRun0_A.sl.r_113, kernelRun0_A.sl.r_111, kernelRun0_A.sl.r_109, kernelRun0_A.sl.r_107, kernelRun0_A.sl.r_108, kernelRun0_A.sl.r_110, kernelRun0_A.sl.r_112, kernelRun0_A.sl.r_114, k0_pay108, k0_pay106, k0_pay104, k0_pay102, k0_pay100, k0_pay101, k0_pay103, k0_pay105, k0_pay107]
  simp only [w1_eq, g1_6_eq]
  rw [lrelu_apply]
  simp only [addf_apply, mulf_apply, rowG_apply, slabW_apply, broadcast_apply, Ideal.ofBits_def, Ideal.ofBits_zero_f32]
  show _ = kH1 cw (nd xt0) (bE x0 l) (bW1 x1 l) (bA x2 l) 6 h
  unfold kH1
  rw [← chain_zero_eq_sum]
  rfl

/-- Node 7's hidden row. -/
theorem h1_7_eq : kernelRun0_A.sl.r_128 c arg2 harg2 arg3 harg3 arg4 harg4 x0 x1 x2 xt0 k0_hw1 k0_hw2 k0_hw3 k0_hw4 k0_hw5 k0_hw6 k0_hw7 k0_hw8 k0_hw9 = vH1 xt0 x0 x1 x2 7 := by
  funext j
  obtain ⟨h, l, rfl⟩ : ∃ (h : Fin 80) (l : Fin 256), j = ix2 h l := ⟨j 0, j 1, eq_ix2 j⟩
  simp only [kernelRun0_A.sl.r_128, kernelRun0_A.sl.r_125, kernelRun0_A.sl.r_122, kernelRun0_A.sl.r_119, kernelRun0_A.sl.r_116, kernelRun0_A.sl.r_117, kernelRun0_A.sl.r_118, kernelRun0_A.sl.r_120, kernelRun0_A.sl.r_121, kernelRun0_A.sl.r_123, kernelRun0_A.sl.r_124, kernelRun0_A.sl.r_126, kernelRun0_A.sl.r_127, k0_pay121, k0_pay118, k0_pay115, k0_pay112, k0_pay109, k0_pay110, k0_pay111, k0_pay113, k0_pay114, k0_pay116, k0_pay117, k0_pay119, k0_pay120]
  simp only [w1_eq, g1_7_eq]
  rw [lrelu_apply]
  simp only [addf_apply, mulf_apply, rowG_apply, slabW_apply, broadcast_apply, Ideal.ofBits_def, Ideal.ofBits_zero_f32]
  show _ = kH1 cw (nd xt0) (bE x0 l) (bW1 x1 l) (bA x2 l) 7 h
  unfold kH1
  rw [← chain_zero_eq_sum]
  rfl

/-- Node 8's hidden row. -/
theorem h1_8_eq : kernelRun0_A.sl.r_137 c arg2 harg2 arg3 harg3 arg4 harg4 x0 x1 x2 xt0 k0_hw1 k0_hw2 k0_hw3 k0_hw4 k0_hw5 k0_hw6 k0_hw7 k0_hw8 k0_hw9 = vH1 xt0 x0 x1 x2 8 := by
  funext j
  obtain ⟨h, l, rfl⟩ : ∃ (h : Fin 80) (l : Fin 256), j = ix2 h l := ⟨j 0, j 1, eq_ix2 j⟩
  simp only [kernelRun0_A.sl.r_137, kernelRun0_A.sl.r_135, kernelRun0_A.sl.r_133, kernelRun0_A.sl.r_131, kernelRun0_A.sl.r_129, kernelRun0_A.sl.r_130, kernelRun0_A.sl.r_132, kernelRun0_A.sl.r_134, kernelRun0_A.sl.r_136, k0_pay130, k0_pay128, k0_pay126, k0_pay124, k0_pay122, k0_pay123, k0_pay125, k0_pay127, k0_pay129]
  simp only [w1_eq, g1_8_eq]
  rw [lrelu_apply]
  simp only [addf_apply, mulf_apply, rowG_apply, slabW_apply, broadcast_apply, Ideal.ofBits_def, Ideal.ofBits_zero_f32]
  show _ = kH1 cw (nd xt0) (bE x0 l) (bW1 x1 l) (bA x2 l) 8 h
  unfold kH1
  rw [← chain_zero_eq_sum]
  rfl

end Cert.KernelIdeal.KStage

end
-- ==== Proof.KG2.lean ====
/-
  The second mixing: node `n`'s row is `∑ m, a n m * h1 m`, accumulated from zero one node at a time,
  as the first mixing was, over the hidden rows. At entry `(h, l)` the body's left-nested sum of the
  nine products is the finite sum of the specification.
-/
import proofs.«408013_j76982993813545_3_alg».proof.Proof.KH1

noncomputable section

namespace Cert.KernelIdeal.KStage

open Idealize.ShloMosaic Idealize.ShloMosaic.ValueIdx Cert.KernelIdeal Cert.KernelIdeal.Gen Cert.KernelIdeal.KLib
  Cert.KernelIdeal.KSpec Cert.Gcn

variable (c : Dev nD) (i : grid0.Coords)
  (arg2 : Memref sig .tc .vmem S9x40x256 .f32) (harg2 : arg2.IsWhole) (arg3 : Memref sig .tc .vmem S40x80x256 .bf16) (harg3 : arg3.IsWhole)
  (arg4 : Memref sig .tc .vmem S9x9x256 .f32) (harg4 : arg4.IsWhole) (arg5 : Memref sig .tc .vmem S80x160x256 .bf16) (harg5 : arg5.IsWhole)
  (x0 : Vec Ideal S9x40x256 .f32) (x1 : Vec Ideal S40x80x256 .bf16) (x2 : Vec Ideal S9x9x256 .f32) (x3 : Vec Ideal S80x160x256 .bf16)
  (xt0 : TbBuf0 (F := Ideal) c tbM0_0)
  (k0_hw1 : k0_chk1 (tbM0_0.view.readAt (Elt Ideal) (Rect.unit (s := S9) ![0] S1.size inb_S9_S1_0).toLoadRect xt0 (Shape.Idx.first (numel1_S1.symm ▸ Nat.one_pos))))
  (k0_hw2 : k0_chk2 (tbM0_0.view.readAt (Elt Ideal) (Rect.unit (s := S9) ![1] S1.size inb_S9_S1_1).toLoadRect xt0 (Shape.Idx.first (numel1_S1.symm ▸ Nat.one_pos))))
  (k0_hw3 : k0_chk3 (tbM0_0.view.readAt (Elt Ideal) (Rect.unit (s := S9) ![2] S1.size inb_S9_S1_2).toLoadRect xt0 (Shape.Idx.first (numel1_S1.symm ▸ Nat.one_pos))))
  (k0_hw4 : k0_chk4 (tbM0_0.view.readAt (Elt Ideal) (Rect.unit (s := S9) ![3] S1.size inb_S9_S1_3).toLoadRect xt0 (Shape.Idx.first (numel1_S1.symm ▸ Nat.one_pos))))
  (k0_hw5 : k0_chk5 (tbM0_0.view.readAt (Elt Ideal) (Rect.unit (s := S9) ![4] S1.size inb_S9_S1_4).toLoadRect xt0 (Shape.Idx.first (numel1_S1.symm ▸ Nat.one_pos))))
  (k0_hw6 : k0_chk6 (tbM0_0.view.readAt (Elt Ideal) (Rect.unit (s := S9) ![5] S1.size inb_S9_S1_5).toLoadRect xt0 (Shape.Idx.first (numel1_S1.symm ▸ Nat.one_pos))))
  (k0_hw7 : k0_chk7 (tbM0_0.view.readAt (Elt Ideal) (Rect.unit (s := S9) ![6] S1.size inb_S9_S1_6).toLoadRect xt0 (Shape.Idx.first (numel1_S1.symm ▸ Nat.one_pos))))
  (k0_hw8 : k0_chk8 (tbM0_0.view.readAt (Elt Ideal) (Rect.unit (s := S9) ![7] S1.size inb_S9_S1_7).toLoadRect xt0 (Shape.Idx.first (numel1_S1.symm ▸ Nat.one_pos))))
  (k0_hw9 : k0_chk9 (tbM0_0.view.readAt (Elt Ideal) (Rect.unit (s := S9) ![8] S1.size inb_S9_S1_8).toLoadRect xt0 (Shape.Idx.first (numel1_S1.symm ▸ Nat.one_pos))))

/-- Node 0's second mixing. -/
theorem g2_0_eq : kernelRun0_A.sl.r_139 c arg2 harg2 arg3 harg3 arg4 harg4 x0 x1 x2 xt0 k0_hw1 k0_hw2 k0_hw3 k0_hw4 k0_hw5 k0_hw6 k0_hw7 k0_hw8 k0_hw9 = vG2 xt0 x0 x1 x2 0 := by
  funext j
  obtain ⟨h, l, rfl⟩ : ∃ (h : Fin 80) (l : Fin 256), j = ix2 h l := ⟨j 0, j 1, eq_ix2 j⟩
  simp only [kernelRun0_A.sl.r_139, kernelRun0_A.sl.r_138, k0_pay133, k0_pay131, k0_pay132]
  simp only [a_eq, h1_0_eq, h1_1_eq, h1_2_eq, h1_3_eq, h1_4_eq, h1_5_eq, h1_6_eq, h1_7_eq, h1_8_eq]
  simp only [addf_apply, mulf_apply, rowA_apply, broadcast_apply, Ideal.ofBits_def, Ideal.ofBits_zero_f32]
  show _ = kG2 cw (nd xt0) (bE x0 l) (bW1 x1 l) (bA x2 l) 0 h
  unfold kG2
  rw [← chain_zero_eq_sum]
  rfl

/-- Node 1's second mixing. -/
theorem g2_1_eq : kernelRun0_A.sl.r_142 c arg2 harg2 arg3 harg3 arg4 harg4 x0 x1 x2 xt0 k0_hw1 k0_hw2 k0_hw3 k0_hw4 k0_hw5 k0_hw6 k0_hw7 k0_hw8 k0_hw9 = vG2 xt0 x0 x1 x2 1 := by
  funext j
  obtain ⟨h, l, rfl⟩ : ∃ (h : Fin 80) (l : Fin 256), j = ix2 h l := ⟨j 0, j 1, eq_ix2 j⟩
  simp only [kernelRun0_A.sl.r_142, kernelRun0_A.sl.r_140, kernelRun0_A.sl.r_141, k0_pay136, k0_pay134, k0_pay135]
  simp only [a_eq, h1_0_eq, h1_1_eq, h1_2_eq, h1_3_eq, h1_4_eq, h1_5_eq, h1_6_eq, h1_7_eq, h1_8_eq]
  simp only [addf_apply, mulf_apply, rowA_apply, broadcast_apply, Ideal.ofBits_def, Ideal.ofBits_zero_f32]
  show _ = kG2 cw (nd xt0) (bE x0 l) (bW1 x1 l) (bA x2 l) 1 h
  unfold kG2
  rw [← chain_zero_eq_sum]
  rfl

/-- Node 2's second mixing. -/
theorem g2_2_eq : kernelRun0_A.sl.r_144 c arg2 harg2 arg3 harg3 arg4 harg4 x0 x1 x2 xt0 k0_hw1 k0_hw2 k0_hw3 k0_hw4 k0_hw5 k0_hw6 k0_hw7 k0_hw8 k0_hw9 = vG2 xt0 x0 x1 x2 2 := by
  funext j
  obtain ⟨h, l, rfl⟩ : ∃ (h : Fin 80) (l : Fin 256), j = ix2 h l := ⟨j 0, j 1, eq_ix2 j⟩
  simp only [kernelRun0_A.sl.r_144, kernelRun0_A.sl.r_143, k0_pay138, k0_pay137]
  simp only [a_eq, h1_0_eq, h1_1_eq, h1_2_eq, h1_3_eq, h1_4_eq, h1_5_eq, h1_6_eq, h1_7_eq, h1_8_eq]
  simp only [addf_apply, mulf_apply, rowA_apply, broadcast_apply, Ideal.ofBits_def, Ideal.ofBits_zero_f32]
  show _ = kG2 cw (nd xt0) (bE x0 l) (bW1 x1 l) (bA x2 l) 2 h
  unfold kG2
  rw [← chain_zero_eq_sum]
  rfl

/-- Node 3's second mixing. -/
theorem g2_3_eq : kernelRun0_A.sl.r_147 c arg2 harg2 arg3 harg3 arg4 harg4 x0 x1 x2 xt0 k0_hw1 k0_hw2 k0_hw3 k0_hw4 k0_hw5 k0_hw6 k0_hw7 k0_hw8 k0_hw9 = vG2 xt0 x0 x1 x2 3 := by
  funext j
  obtain ⟨h, l, rfl⟩ : ∃ (h : Fin 80) (l : Fin 256), j = ix2 h l := ⟨j 0, j 1, eq_ix2 j⟩
  simp only [kernelRun0_A.sl.r_147, kernelRun0_A.sl.r_145, kernelRun0_A.sl.r_146, k0_pay141, k0_pay139, k0_pay140]
  simp only [a_eq, h1_0_eq, h1_1_eq, h1_2_eq, h1_3_eq, h1_4_eq, h1_5_eq, h1_6_eq, h1_7_eq, h1_8_eq]
  simp only [addf_apply, mulf_apply, rowA_apply, broadcast_apply, Ideal.ofBits_def, Ideal.ofBits_zero_f32]
  show _ = kG2 cw (nd xt0) (bE x0 l) (bW1 x1 l) (bA x2 l) 3 h
  unfold kG2
  rw [← chain_zero_eq_sum]
  rfl

/-- Node 4's second mixing. -/
theorem g2_4_eq : kernelRun0_A.sl.r_148 c arg2 harg2 arg3 harg3 arg4 harg4 x0 x1 x2 xt0 k0_hw1 k0_hw2 k0_hw3 k0_hw4 k0_hw5 k0_hw6 k0_hw7 k0_hw8 k0_hw9 = vG2 xt0 x0 x1 x2 4 := by
  funext j
  obtain ⟨h, l, rfl⟩ : ∃ (h : Fin 80) (l : Fin 256), j = ix2 h l := ⟨j 0, j 1, eq_ix2 j⟩
  simp only [kernelRun0_A.sl.r_148, k0_pay142]
  simp only [a_eq, h1_0_eq, h1_1_eq, h1_2_eq, h1_3_eq, h1_4_eq, h1_5_eq, h1_6_eq, h1_7_eq, h1_8_eq]
  simp only [addf_apply, mulf_apply, rowA_apply, broadcast_apply, Ideal.ofBits_def, Ideal.ofBits_zero_f32]
  show _ = kG2 cw (nd xt0) (bE x0 l) (bW1 x1 l) (bA x2 l) 4 h
  unfold kG2
  rw [← chain_zero_eq_sum]
  rfl

/-- Node 5's second mixing. -/
theorem g2_5_eq : kernelRun0_A.sl.r_151 c arg2 harg2 arg3 harg3 arg4 harg4 x0 x1 x2 xt0 k0_hw1 k0_hw2 k0_hw3 k0_hw4 k0_hw5 k0_hw6 k0_hw7 k0_hw8 k0_hw9 = vG2 xt0 x0 x1 x2 5 := by
  funext j
  obtain ⟨h, l, rfl⟩ : ∃ (h : Fin 80) (l : Fin 256), j = ix2 h l := ⟨j 0, j 1, eq_ix2 j⟩
  simp only [kernelRun0_A.sl.r_151, kernelRun0_A.sl.r_149, kernelRun0_A.sl.r_150, k0_pay145, k0_pay143, k0_pay144]
  simp only [a_eq, h1_0_eq, h1_1_eq, h1_2_eq, h1_3_eq, h1_4_eq, h1_5_eq, h1_6_eq, h1_7_eq, h1_8_eq]
  simp only [addf_apply, mulf_apply, rowA_apply, broadcast_apply, Ideal.ofBits_def, Ideal.ofBits_zero_f32]
  show _ = kG2 cw (nd xt0) (bE x0 l) (bW1 x1 l) (bA x2 l) 5 h
  unfold kG2
  rw [← chain_zero_eq_sum]
  rfl

/-- Node 6's second mixing. -/
theorem g2_6_eq : kernelRun0_A.sl.r_154 c arg2 harg2 arg3 harg3 arg4 harg4 x0 x1 x2 xt0 k0_hw1 k0_hw2 k0_hw3 k0_hw4 k0_hw5 k0_hw6 k0_hw7 k0_hw8 k0_hw9 = vG2 xt0 x0 x1 x2 6 := by
  funext j
  obtain ⟨h, l, rfl⟩ : ∃ (h : Fin 80) (l : Fin 256), j = ix2 h l := ⟨j 0, j 1, eq_ix2 j⟩
  simp only [kernelRun0_A.sl.r_154, kernelRun0_A.sl.r_152, kernelRun0_A.sl.r_153, k0_pay148, k0_pay146, k0_pay147]
  simp only [a_eq, h1_0_eq, h1_1_eq, h1_2_eq, h1_3_eq, h1_4_eq, h1_5_eq, h1_6_eq, h1_7_eq, h1_8_eq]
  simp only [addf_apply, mulf_apply, rowA_apply, broadcast_apply, Ideal.ofBits_def, Ideal.ofBits_zero_f32]
  show _ = kG2 cw (nd xt0) (bE x0 l) (bW1 x1 l) (bA x2 l) 6 h
  unfold kG2
  rw [← chain_zero_eq_sum]
  rfl

/-- Node 7's second mixing. -/
theorem g2_7_eq : kernelRun0_A.sl.r_156 c arg2 harg2 arg3 harg3 arg4 harg4 x0 x1 x2 xt0 k0_hw1 k0_hw2 k0_hw3 k0_hw4 k0_hw5 k0_hw6 k0_hw7 k0_hw8 k0_hw9 = vG2 xt0 x0 x1 x2 7 := by
  funext j
  obtain ⟨h, l, rfl⟩ : ∃ (h : Fin 80) (l : Fin 256), j = ix2 h l := ⟨j 0, j 1, eq_ix2 j⟩
  simp only [kernelRun0_A.sl.r_156, kernelRun0_A.sl.r_155, k0_pay150, k0_pay149]
  simp only [a_eq, h1_0_eq, h1_1_eq, h1_2_eq, h1_3_eq, h1_4_eq, h1_5_eq, h1_6_eq, h1_7_eq, h1_8_eq]
  simp only [addf_apply, mulf_apply, rowA_apply, broadcast_apply, Ideal.ofBits_def, Ideal.ofBits_zero_f32]
  show _ = kG2 cw (nd xt0) (bE x0 l) (bW1 x1 l) (bA x2 l) 7 h
  unfold kG2
  rw [← chain_zero_eq_sum]
  rfl

/-- Node 8's second mixing. -/
theorem g2_8_eq : kernelRun0_A.sl.r_157 c arg2 harg2 arg3 harg3 arg4 harg4 x0 x1 x2 xt0 k0_hw1 k0_hw2 k0_hw3 k0_hw4 k0_hw5 k0_hw6 k0_hw7 k0_hw8 k0_hw9 = vG2 xt0 x0 x1 x2 8 := by
  funext j
  obtain ⟨h, l, rfl⟩ : ∃ (h : Fin 80) (l : Fin 256), j = ix2 h l := ⟨j 0, j 1, eq_ix2 j⟩
  simp only [kernelRun0_A.sl.r_157, k0_pay151]
  simp only [a_eq, h1_0_eq, h1_1_eq, h1_2_eq, h1_3_eq, h1_4_eq, h1_5_eq, h1_6_eq, h1_7_eq, h1_8_eq]
  simp only [addf_apply, mulf_apply, rowA_apply, broadcast_apply, Ideal.ofBits_def, Ideal.ofBits_zero_f32]
  show _ = kG2 cw (nd xt0) (bE x0 l) (bW1 x1 l) (bA x2 l) 8 h
  unfold kG2
  rw [← chain_zero_eq_sum]
  rfl

end Cert.KernelIdeal.KStage

end
-- ==== Proof.KOut.lean ====
/-
  The result rows: node `n`'s row is the leaky rectifier of `∑ h, g2 n h * w2 h`, accumulated from zero
  one hidden unit at a time: row `h` of the node's second mixing, repeated down the 160 outputs, times
  slab `h` of the second weight block; the row is stored as a one-row piece of the output block. At
  entry `(·, o, l)` of the piece the rectifier's compare-and-select is the specification's `lrelu` and
  the left-nested sum of the eighty products its finite sum.
-/
import proofs.«408013_j76982993813545_3_alg».proof.Proof.KG2
import Idealize.ShloMosaic.Lib.ValueLayout

noncomputable section

namespace Cert.KernelIdeal.KStage

open Idealize.ShloMosaic Idealize.ShloMosaic.ValueIdx Cert.KernelIdeal Cert.KernelIdeal.Gen Cert.KernelIdeal.KLib
  Cert.KernelIdeal.KSpec Cert.Gcn

variable (c : Dev nD) (i : grid0.Coords)
  (arg2 : Memref sig .tc .vmem S9x40x256 .f32) (harg2 : arg2.IsWhole) (arg3 : Memref sig .tc .vmem S40x80x256 .bf16) (harg3 : arg3.IsWhole)
  (arg4 : Memref sig .tc .vmem S9x9x256 .f32) (harg4 : arg4.IsWhole) (arg5 : Memref sig .tc .vmem S80x160x256 .bf16) (harg5 : arg5.IsWhole)
  (x0 : Vec Ideal S9x40x256 .f32) (x1 : Vec Ideal S40x80x256 .bf16) (x2 : Vec Ideal S9x9x256 .f32) (x3 : Vec Ideal S80x160x256 .bf16)
  (xt0 : TbBuf0 (F := Ideal) c tbM0_0)
  (k0_hw1 : k0_chk1 (tbM0_0.view.readAt (Elt Ideal) (Rect.unit (s := S9) ![0] S1.size inb_S9_S1_0).toLoadRect xt0 (Shape.Idx.first (numel1_S1.symm ▸ Nat.one_pos))))
  (k0_hw2 : k0_chk2 (tbM0_0.view.readAt (Elt Ideal) (Rect.unit (s := S9) ![1] S1.size inb_S9_S1_1).toLoadRect xt0 (Shape.Idx.first (numel1_S1.symm ▸ Nat.one_pos))))
  (k0_hw3 : k0_chk3 (tbM0_0.view.readAt (Elt Ideal) (Rect.unit (s := S9) ![2] S1.size inb_S9_S1_2).toLoadRect xt0 (Shape.Idx.first (numel1_S1.symm ▸ Nat.one_pos))))
  (k0_hw4 : k0_chk4 (tbM0_0.view.readAt (Elt Ideal) (Rect.unit (s := S9) ![3] S1.size inb_S9_S1_3).toLoadRect xt0 (Shape.Idx.first (numel1_S1.symm ▸ Nat.one_pos))))
  (k0_hw5 : k0_chk5 (tbM0_0.view.readAt (Elt Ideal) (Rect.unit (s := S9) ![4] S1.size inb_S9_S1_4).toLoadRect xt0 (Shape.Idx.first (numel1_S1.symm ▸ Nat.one_pos))))
  (k0_hw6 : k0_chk6 (tbM0_0.view.readAt (Elt Ideal) (Rect.unit (s := S9) ![5] S1.size inb_S9_S1_5).toLoadRect xt0 (Shape.Idx.first (numel1_S1.symm ▸ Nat.one_pos))))
  (k0_hw7 : k0_chk7 (tbM0_0.view.readAt (Elt Ideal) (Rect.unit (s := S9) ![6] S1.size inb_S9_S1_6).toLoadRect xt0 (Shape.Idx.first (numel1_S1.symm ▸ Nat.one_pos))))
  (k0_hw8 : k0_chk8 (tbM0_0.view.readAt (Elt Ideal) (Rect.unit (s := S9) ![7] S1.size inb_S9_S1_7).toLoadRect xt0 (Shape.Idx.first (numel1_S1.symm ▸ Nat.one_pos))))
  (k0_hw9 : k0_chk9 (tbM0_0.view.readAt (Elt Ideal) (Rect.unit (s := S9) ![8] S1.size inb_S9_S1_8).toLoadRect xt0 (Shape.Idx.first (numel1_S1.symm ▸ Nat.one_pos))))

/-- Node 0's result row, as the one-row piece the body stores. -/
theorem out_0_eq : k0_pay169 (kernelRun0_A.sl.r_173 c arg2 harg2 arg3 harg3 arg4 harg4 arg5 harg5 x0 x1 x2 x3 xt0 k0_hw1 k0_hw2 k0_hw3 k0_hw4 k0_hw5 k0_hw6 k0_hw7 k0_hw8 k0_hw9) (kernelRun0_A.sl.cst_72 (F := Ideal)) = vOut xt0 x0 x1 x2 x3 0 := by
  funext j
  obtain ⟨u, o, l, rfl⟩ : ∃ (u : Fin 1) (o : Fin 160) (l : Fin 256), j = ix3 u o l := ⟨j 0, j 1, j 2, eq_ix3 j⟩
  simp only [kernelRun0_A.sl.r_173, kernelRun0_A.sl.r_171, kernelRun0_A.sl.r_169, kernelRun0_A.sl.r_167, kernelRun0_A.sl.r_165, kernelRun0_A.sl.r_163, kernelRun0_A.sl.r_161, kernelRun0_A.sl.r_159, kernelRun0_A.sl.r_158, kernelRun0_A.sl.r_160, kernelRun0_A.sl.r_162, kernelRun0_A.sl.r_164, kernelRun0_A.sl.r_166, kernelRun0_A.sl.r_168, kernelRun0_A.sl.r_170, kernelRun0_A.sl.r_172, kernelRun0_A.sl.cst_72, k0_pay169, k0_pay168, k0_pay166, k0_pay164, k0_pay162, k0_pay160, k0_pay158, k0_pay156, k0_pay154, k0_pay152, k0_pay153, k0_pay155, k0_pay157, k0_pay159, k0_pay161, k0_pay163, k0_pay165, k0_pay167]
  simp only [w2_eq, g2_0_eq]
  simp only [addf_apply, mulf_apply, rowG_apply, slabW_apply, lrelu_read_apply, broadcast_apply, shapeCast_ab_1ab_apply,
    Ideal.ofBits_def, Ideal.ofBits_zero_f32]
  show _ = kOut cw (nd xt0) (bE x0 l) (bW1 x1 l) (bW2 x3 l) (bA x2 l) 0 o
  unfold kOut
  rw [← chain_zero_eq_sum]
  rfl

/-- Node 1's result row, as the one-row piece the body stores. -/
theorem out_1_eq : k0_pay194 (kernelRun0_A.sl.r_8 c arg5 harg5 x3) (kernelRun0_A.sl.r_142 c arg2 harg2 arg3 harg3 arg4 harg4 x0 x1 x2 xt0 k0_hw1 k0_hw2 k0_hw3 k0_hw4 k0_hw5 k0_hw6 k0_hw7 k0_hw8 k0_hw9) (kernelRun0_A.sl.r_195 c arg2 harg2 arg3 harg3 arg4 harg4 arg5 harg5 x0 x1 x2 x3 xt0 k0_hw1 k0_hw2 k0_hw3 k0_hw4 k0_hw5 k0_hw6 k0_hw7 k0_hw8 k0_hw9) (kernelRun0_A.sl.r_196 c arg2 harg2 arg3 harg3 arg4 harg4 x0 x1 x2 xt0 k0_hw1 k0_hw2 k0_hw3 k0_hw4 k0_hw5 k0_hw6 k0_hw7 k0_hw8 k0_hw9) (kernelRun0_A.sl.r_197 c arg5 harg5 x3) = vOut xt0 x0 x1 x2 x3 1 := by
  funext j
  obtain ⟨u, o, l, rfl⟩ : ∃ (u : Fin 1) (o : Fin 160) (l : Fin 256), j = ix3 u o l := ⟨j 0, j 1, j 2, eq_ix3 j⟩
  simp only [kernelRun0_A.sl.r_195, kernelRun0_A.sl.r_192, kernelRun0_A.sl.r_189, kernelRun0_A.sl.r_186, kernelRun0_A.sl.r_183, kernelRun0_A.sl.r_180, kernelRun0_A.sl.r_177, kernelRun0_A.sl.r_174, kernelRun0_A.sl.r_175, kernelRun0_A.sl.r_176, kernelRun0_A.sl.r_178, kernelRun0_A.sl.r_179, kernelRun0_A.sl.r_181, kernelRun0_A.sl.r_182, kernelRun0_A.sl.r_184, kernelRun0_A.sl.r_185, kernelRun0_A.sl.r_187, kernelRun0_A.sl.r_188, kernelRun0_A.sl.r_190, kernelRun0_A.sl.r_191, kernelRun0_A.sl.r_193, kernelRun0_A.sl.r_194, kernelRun0_A.sl.r_196, kernelRun0_A.sl.r_197, k0_pay194, k0_pay191, k0_pay188, k0_pay185, k0_pay182, k0_pay179, k0_pay176, k0_pay173, k0_pay170, k0_pay171, k0_pay172, k0_pay174, k0_pay175, k0_pay177, k0_pay178, k0_pay180, k0_pay181, k0_pay183, k0_pay184, k0_pay186, k0_pay187, k0_pay189, k0_pay190, k0_pay192, k0_pay193]
  simp only [w2_eq, g2_1_eq]
  simp only [addf_apply, mulf_apply, rowG_apply, slabW_apply, lrelu_read_apply, broadcast_apply, shapeCast_ab_1ab_apply,
    Ideal.ofBits_def, Ideal.ofBits_zero_f32]
  show _ = kOut cw (nd xt0) (bE x0 l) (bW1 x1 l) (bW2 x3 l) (bA x2 l) 1 o
  unfold kOut
  rw [← chain_zero_eq_sum]
  rfl

/-- Node 2's result row, as the one-row piece the body stores. -/
theorem out_2_eq : k0_pay211 (kernelRun0_A.sl.r_8 c arg5 harg5 x3) (kernelRun0_A.sl.r_144 c arg2 harg2 arg3 harg3 arg4 harg4 x0 x1 x2 xt0 k0_hw1 k0_hw2 k0_hw3 k0_hw4 k0_hw5 k0_hw6 k0_hw7 k0_hw8 k0_hw9) (kernelRun0_A.sl.r_212 c arg2 harg2 arg3 harg3 arg4 harg4 arg5 harg5 x0 x1 x2 x3 xt0 k0_hw1 k0_hw2 k0_hw3 k0_hw4 k0_hw5 k0_hw6 k0_hw7 k0_hw8 k0_hw9) (kernelRun0_A.sl.r_213 c arg2 harg2 arg3 harg3 arg4 harg4 arg5 harg5 x0 x1 x2 x3 xt0 k0_hw1 k0_hw2 k0_hw3 k0_hw4 k0_hw5 k0_hw6 k0_hw7 k0_hw8 k0_hw9) = vOut xt0 x0 x1 x2 x3 2 := by
  funext j
  obtain ⟨u, o, l, rfl⟩ : ∃ (u : Fin 1) (o : Fin 160) (l : Fin 256), j = ix3 u o l := ⟨j 0, j 1, j 2, eq_ix3 j⟩
  simp only [kernelRun0_A.sl.r_212, kernelRun0_A.sl.r_210, kernelRun0_A.sl.r_208, kernelRun0_A.sl.r_206, kernelRun0_A.sl.r_204, kernelRun0_A.sl.r_202, kernelRun0_A.sl.r_200, kernelRun0_A.sl.r_198, kernelRun0_A.sl.r_199, kernelRun0_A.sl.r_201, kernelRun0_A.sl.r_203, kernelRun0_A.sl.r_205, kernelRun0_A.sl.r_207, kernelRun0_A.sl.r_209, kernelRun0_A.sl.r_211, kernelRun0_A.sl.r_213, k0_pay211, k0_pay209, k0_pay207, k0_pay205, k0_pay203, k0_pay201, k0_pay199, k0_pay197, k0_pay195, k0_pay196, k0_pay198, k0_pay200, k0_pay202, k0_pay204, k0_pay206, k0_pay208, k0_pay210]
  simp only [w2_eq, g2_2_eq]
  simp only [addf_apply, mulf_apply, rowG_apply, slabW_apply, lrelu_read_apply, broadcast_apply, shapeCast_ab_1ab_apply,
    Ideal.ofBits_def, Ideal.ofBits_zero_f32]
  show _ = kOut cw (nd xt0) (bE x0 l) (bW1 x1 l) (bW2 x3 l) (bA x2 l) 2 o
  unfold kOut
  rw [← chain_zero_eq_sum]
  rfl

/-- Node 3's result row, as the one-row piece the body stores. -/
theorem out_3_eq : kernelRun0_A.sl.r_230 c arg2 harg2 arg3 harg3 arg4 harg4 arg5 harg5 x0 x1 x2 x3 xt0 k0_hw1 k0_hw2 k0_hw3 k0_hw4 k0_hw5 k0_hw6 k0_hw7 k0_hw8 k0_hw9 = vOut xt0 x0 x1 x2 x3 3 := by
  funext j
  obtain ⟨u, o, l, rfl⟩ : ∃ (u : Fin 1) (o : Fin 160) (l : Fin 256), j = ix3 u o l := ⟨j 0, j 1, j 2, eq_ix3 j⟩
  simp only [kernelRun0_A.sl.r_230, kernelRun0_A.sl.r_228, kernelRun0_A.sl.r_226, kernelRun0_A.sl.r_224, kernelRun0_A.sl.r_222, kernelRun0_A.sl.r_220, kernelRun0_A.sl.r_218, kernelRun0_A.sl.r_216, kernelRun0_A.sl.r_214, kernelRun0_A.sl.r_215, kernelRun0_A.sl.r_217, kernelRun0_A.sl.r_219, kernelRun0_A.sl.r_221, kernelRun0_A.sl.r_223, kernelRun0_A.sl.r_225, kernelRun0_A.sl.r_227, kernelRun0_A.sl.r_229, k0_pay228, k0_pay226, k0_pay224, k0_pay222, k0_pay220, k0_pay218, k0_pay216, k0_pay214, k0_pay212, k0_pay213, k0_pay215, k0_pay217, k0_pay219, k0_pay221, k0_pay223, k0_pay225, k0_pay227]
  simp only [w2_eq, g2_3_eq]
  simp only [addf_apply, mulf_apply, rowG_apply, slabW_apply, lrelu_read_apply, broadcast_apply, shapeCast_ab_1ab_apply,
    Ideal.ofBits_def, Ideal.ofBits_zero_f32]
  show _ = kOut cw (nd xt0) (bE x0 l) (bW1 x1 l) (bW2 x3 l) (bA x2 l) 3 o
  unfold kOut
  rw [← chain_zero_eq_sum]
  rfl

/-- Node 4's result row, as the one-row piece the body stores. -/
theorem out_4_eq : k0_pay253 (kernelRun0_A.sl.r_252 c arg2 harg2 arg3 harg3 arg4 harg4 arg5 harg5 x0 x1 x2 x3 xt0 k0_hw1 k0_hw2 k0_hw3 k0_hw4 k0_hw5 k0_hw6 k0_hw7 k0_hw8 k0_hw9) (kernelRun0_A.sl.r_253 c arg2 harg2 arg3 harg3 arg4 harg4 x0 x1 x2 xt0 k0_hw1 k0_hw2 k0_hw3 k0_hw4 k0_hw5 k0_hw6 k0_hw7 k0_hw8 k0_hw9) (kernelRun0_A.sl.r_254 c arg5 harg5 x3) = vOut xt0 x0 x1 x2 x3 4 := by
  funext j
  obtain ⟨u, o, l, rfl⟩ : ∃ (u : Fin 1) (o : Fin 160) (l : Fin 256), j = ix3 u o l := ⟨j 0, j 1, j 2, eq_ix3 j⟩
  simp only [kernelRun0_A.sl.r_252, kernelRun0_A.sl.r_249, kernelRun0_A.sl.r_246, kernelRun0_A.sl.r_243, kernelRun0_A.sl.r_240, kernelRun0_A.sl.r_237, kernelRun0_A.sl.r_234, kernelRun0_A.sl.r_231, kernelRun0_A.sl.r_232, kernelRun0_A.sl.r_233, kernelRun0_A.sl.r_235, kernelRun0_A.sl.r_236, kernelRun0_A.sl.r_238, kernelRun0_A.sl.r_239, kernelRun0_A.sl.r_241, kernelRun0_A.sl.r_242, kernelRun0_A.sl.r_244, kernelRun0_A.sl.r_245, kernelRun0_A.sl.r_247, kernelRun0_A.sl.r_248, kernelRun0_A.sl.r_250, kernelRun0_A.sl.r_251, kernelRun0_A.sl.r_253, kernelRun0_A.sl.r_254, k0_pay253, k0_pay250, k0_pay247, k0_pay244, k0_pay241, k0_pay238, k0_pay235, k0_pay232, k0_pay229, k0_pay230, k0_pay231, k0_pay233, k0_pay234, k0_pay236, k0_pay237, k0_pay239, k0_pay240, k0_pay242, k0_pay243, k0_pay245, k0_pay246, k0_pay248, k0_pay249, k0_pay251, k0_pay252]
  simp only [w2_eq, g2_4_eq]
  simp only [addf_apply, mulf_apply, rowG_apply, slabW_apply, lrelu_read_apply, broadcast_apply, shapeCast_ab_1ab_apply,
    Ideal.ofBits_def, Ideal.ofBits_zero_f32]
  show _ = kOut cw (nd xt0) (bE x0 l) (bW1 x1 l) (bW2 x3 l) (bA x2 l) 4 o
  unfold kOut
  rw [← chain_zero_eq_sum]
  rfl

/-- Node 5's result row, as the one-row piece the body stores. -/
theorem out_5_eq : k0_pay270 (kernelRun0_A.sl.r_8 c arg5 harg5 x3) (kernelRun0_A.sl.r_151 c arg2 harg2 arg3 harg3 arg4 harg4 x0 x1 x2 xt0 k0_hw1 k0_hw2 k0_hw3 k0_hw4 k0_hw5 k0_hw6 k0_hw7 k0_hw8 k0_hw9) (kernelRun0_A.sl.r_269 c arg2 harg2 arg3 harg3 arg4 harg4 arg5 harg5 x0 x1 x2 x3 xt0 k0_hw1 k0_hw2 k0_hw3 k0_hw4 k0_hw5 k0_hw6 k0_hw7 k0_hw8 k0_hw9) (kernelRun0_A.sl.r_270 c arg2 harg2 arg3 harg3 arg4 harg4 arg5 harg5 x0 x1 x2 x3 xt0 k0_hw1 k0_hw2 k0_hw3 k0_hw4 k0_hw5 k0_hw6 k0_hw7 k0_hw8 k0_hw9) = vOut xt0 x0 x1 x2 x3 5 := by
  funext j
  obtain ⟨u, o, l, rfl⟩ : ∃ (u : Fin 1) (o : Fin 160) (l : Fin 256), j = ix3 u o l := ⟨j 0, j 1, j 2, eq_ix3 j⟩
  simp only [kernelRun0_A.sl.r_269, kernelRun0_A.sl.r_267, kernelRun0_A.sl.r_265, kernelRun0_A.sl.r_263, kernelRun0_A.sl.r_261, kernelRun0_A.sl.r_259, kernelRun0_A.sl.r_257, kernelRun0_A.sl.r_255, kernelRun0_A.sl.r_256, kernelRun0_A.sl.r_258, kernelRun0_A.sl.r_260, kernelRun0_A.sl.r_262, kernelRun0_A.sl.r_264, kernelRun0_A.sl.r_266, kernelRun0_A.sl.r_268, kernelRun0_A.sl.r_270, k0_pay270, k0_pay268, k0_pay266, k0_pay264, k0_pay262, k0_pay260, k0_pay258, k0_pay256, k0_pay254, k0_pay255, k0_pay257, k0_pay259, k0_pay261, k0_pay263, k0_pay265, k0_pay267, k0_pay269]
  simp only [w2_eq, g2_5_eq]
  simp only [addf_apply, mulf_apply, rowG_apply, slabW_apply, lrelu_read_apply, broadcast_apply, shapeCast_ab_1ab_apply,
    Ideal.ofBits_def, Ideal.ofBits_zero_f32]
  show _ = kOut cw (nd xt0) (bE x0 l) (bW1 x1 l) (bW2 x3 l) (bA x2 l) 5 o
  unfold kOut
  rw [← chain_zero_eq_sum]
  rfl

/-- Node 6's result row, as the one-row piece the body stores. -/
theorem out_6_eq : k0_pay287 (kernelRun0_A.sl.r_8 c arg5 harg5 x3) (kernelRun0_A.sl.r_154 c arg2 harg2 arg3 harg3 arg4 harg4 x0 x1 x2 xt0 k0_hw1 k0_hw2 k0_hw3 k0_hw4 k0_hw5 k0_hw6 k0_hw7 k0_hw8 k0_hw9) (kernelRun0_A.sl.r_285 c arg2 harg2 arg3 harg3 arg4 harg4 arg5 harg5 x0 x1 x2 x3 xt0 k0_hw1 k0_hw2 k0_hw3 k0_hw4 k0_hw5 k0_hw6 k0_hw7 k0_hw8 k0_hw9) (kernelRun0_A.sl.r_286 c arg2 harg2 arg3 harg3 arg4 harg4 x0 x1 x2 xt0 k0_hw1 k0_hw2 k0_hw3 k0_hw4 k0_hw5 k0_hw6 k0_hw7 k0_hw8 k0_hw9) = vOut xt0 x0 x1 x2 x3 6 := by
  funext j
  obtain ⟨u, o, l, rfl⟩ : ∃ (u : Fin 1) (o : Fin 160) (l : Fin 256), j = ix3 u o l := ⟨j 0, j 1, j 2, eq_ix3 j⟩
  simp only [kernelRun0_A.sl.r_285, kernelRun0_A.sl.r_283, kernelRun0_A.sl.r_281, kernelRun0_A.sl.r_279, kernelRun0_A.sl.r_277, kernelRun0_A.sl.r_275, kernelRun0_A.sl.r_273, kernelRun0_A.sl.r_271, kernelRun0_A.sl.r_272, kernelRun0_A.sl.r_274, kernelRun0_A.sl.r_276, kernelRun0_A.sl.r_278, kernelRun0_A.sl.r_280, kernelRun0_A.sl.r_282, kernelRun0_A.sl.r_284, kernelRun0_A.sl.r_286, k0_pay287, k0_pay285, k0_pay283, k0_pay281, k0_pay279, k0_pay277, k0_pay275, k0_pay273, k0_pay271, k0_pay272, k0_pay274, k0_pay276, k0_pay278, k0_pay280, k0_pay282, k0_pay284, k0_pay286]
  simp only [w2_eq, g2_6_eq]
  simp only [addf_apply, mulf_apply, rowG_apply, slabW_apply, lrelu_read_apply, broadcast_apply, shapeCast_ab_1ab_apply,
    Ideal.ofBits_def, Ideal.ofBits_zero_f32]
  show _ = kOut cw (nd xt0) (bE x0 l) (bW1 x1 l) (bW2 x3 l) (bA x2 l) 6 o
  unfold kOut
  rw [← chain_zero_eq_sum]
  rfl

/-- Node 7's result row, as the one-row piece the body stores. -/
theorem out_7_eq : k0_pay313 (kernelRun0_A.sl.r_311 c arg2 harg2 arg3 harg3 arg4 harg4 arg5 harg5 x0 x1 x2 x3 xt0 k0_hw1 k0_hw2 k0_hw3 k0_hw4 k0_hw5 k0_hw6 k0_hw7 k0_hw8 k0_hw9) = vOut xt0 x0 x1 x2 x3 7 := by
  funext j
  obtain ⟨u, o, l, rfl⟩ : ∃ (u : Fin 1) (o : Fin 160) (l : Fin 256), j = ix3 u o l := ⟨j 0, j 1, j 2, eq_ix3 j⟩
  simp only [kernelRun0_A.sl.r_311, kernelRun0_A.sl.r_308, kernelRun0_A.sl.r_305, kernelRun0_A.sl.r_302, kernelRun0_A.sl.r_299, kernelRun0_A.sl.r_296, kernelRun0_A.sl.r_293, kernelRun0_A.sl.r_290, kernelRun0_A.sl.r_287, kernelRun0_A.sl.r_288, kernelRun0_A.sl.r_289, kernelRun0_A.sl.r_291, kernelRun0_A.sl.r_292, kernelRun0_A.sl.r_294, kernelRun0_A.sl.r_295, kernelRun0_A.sl.r_297, kernelRun0_A.sl.r_298, kernelRun0_A.sl.r_300, kernelRun0_A.sl.r_301, kernelRun0_A.sl.r_303, kernelRun0_A.sl.r_304, kernelRun0_A.sl.r_306, kernelRun0_A.sl.r_307, kernelRun0_A.sl.r_309, kernelRun0_A.sl.r_310, k0_pay313, k0_pay312, k0_pay309, k0_pay306, k0_pay303, k0_pay300, k0_pay297, k0_pay294, k0_pay291, k0_pay288, k0_pay289, k0_pay290, k0_pay292, k0_pay293, k0_pay295, k0_pay296, k0_pay298, k0_pay299, k0_pay301, k0_pay302, k0_pay304, k0_pay305, k0_pay307, k0_pay308, k0_pay310, k0_pay311]
  simp only [w2_eq, g2_7_eq]
  simp only [addf_apply, mulf_apply, rowG_apply, slabW_apply, lrelu_read_apply, broadcast_apply, shapeCast_ab_1ab_apply,
    Ideal.ofBits_def, Ideal.ofBits_zero_f32]
  show _ = kOut cw (nd xt0) (bE x0 l) (bW1 x1 l) (bW2 x3 l) (bA x2 l) 7 o
  unfold kOut
  rw [← chain_zero_eq_sum]
  rfl

/-- Node 8's result row, as the one-row piece the body stores. -/
theorem out_8_eq : k0_pay1 (kernelRun0_A.sl.r_8 c arg5 harg5 x3) (kernelRun0_A.sl.r_157 c arg2 harg2 arg3 harg3 arg4 harg4 x0 x1 x2 xt0 k0_hw1 k0_hw2 k0_hw3 k0_hw4 k0_hw5 k0_hw6 k0_hw7 k0_hw8 k0_hw9) (kernelRun0_A.sl.r_326 c arg2 harg2 arg3 harg3 arg4 harg4 arg5 harg5 x0 x1 x2 x3 xt0 k0_hw1 k0_hw2 k0_hw3 k0_hw4 k0_hw5 k0_hw6 k0_hw7 k0_hw8 k0_hw9) (kernelRun0_A.sl.r_327 c arg2 harg2 arg3 harg3 arg4 harg4 arg5 harg5 x0 x1 x2 x3 xt0 k0_hw1 k0_hw2 k0_hw3 k0_hw4 k0_hw5 k0_hw6 k0_hw7 k0_hw8 k0_hw9) = vOut xt0 x0 x1 x2 x3 8 := by
  funext j
  obtain ⟨u, o, l, rfl⟩ : ∃ (u : Fin 1) (o : Fin 160) (l : Fin 256), j = ix3 u o l := ⟨j 0, j 1, j 2, eq_ix3 j⟩
  simp only [kernelRun0_A.sl.r_326, kernelRun0_A.sl.r_324, kernelRun0_A.sl.r_322, kernelRun0_A.sl.r_320, kernelRun0_A.sl.r_318, kernelRun0_A.sl.r_316, kernelRun0_A.sl.r_314, kernelRun0_A.sl.r_312, kernelRun0_A.sl.r_313, kernelRun0_A.sl.r_315, kernelRun0_A.sl.r_317, kernelRun0_A.sl.r_319, kernelRun0_A.sl.r_321, kernelRun0_A.sl.r_323, kernelRun0_A.sl.r_325, kernelRun0_A.sl.r_327, k0_pay1, k0_pay328, k0_pay326, k0_pay324, k0_pay322, k0_pay320, k0_pay318, k0_pay316, k0_pay314, k0_pay315, k0_pay317, k0_pay319, k0_pay321, k0_pay323, k0_pay325, k0_pay327, k0_pay329]
  simp only [w2_eq, g2_8_eq]
  simp only [addf_apply, mulf_apply, rowG_apply, slabW_apply, lrelu_read_apply, broadcast_apply, shapeCast_ab_1ab_apply,
    Ideal.ofBits_def, Ideal.ofBits_zero_f32]
  show _ = kOut cw (nd xt0) (bE x0 l) (bW1 x1 l) (bW2 x3 l) (bA x2 l) 8 o
  unfold kOut
  rw [← chain_zero_eq_sum]
  rfl

end Cert.KernelIdeal.KStage

end
-- ==== Proof.KBody.lean ====
/-
  What the kernel body leaves in the output block at one grid point: the specification's block of
  the point's input blocks. The body stores nine one-row pieces that tile the block, row `n` holding
  node `n`'s result row; read back through the block, the pieces are one function of the block's
  index: at `(n, o, l)` the entry `(o, l)` of node `n`'s row.
-/
import proofs.«408013_j76982993813545_3_alg».proof.Proof.KOut
import Idealize.ShloMosaic.Lib.Pipeline.Value

noncomputable section

namespace Cert.KernelIdeal.KBody

open Idealize.ShloMosaic Idealize.ShloMosaic.ValueIdx Cert.KernelIdeal Cert.KernelIdeal.Gen Cert.KernelIdeal.KSpec
  Cert.KernelIdeal.KStage

section Point
variable (c : Dev nD) (i : grid0.Coords)
  (arg2 : Memref sig .tc .vmem S9x40x256 .f32) (harg2 : arg2.IsWhole) (arg3 : Memref sig .tc .vmem S40x80x256 .bf16) (harg3 : arg3.IsWhole)
  (arg4 : Memref sig .tc .vmem S9x9x256 .f32) (harg4 : arg4.IsWhole) (arg5 : Memref sig .tc .vmem S80x160x256 .bf16) (harg5 : arg5.IsWhole)
  (arg6 : Memref sig .tc .vmem S9x160x256 .f32) (harg6 : arg6.IsWhole)
  (x0 : Vec Ideal S9x40x256 .f32) (x1 : Vec Ideal S40x80x256 .bf16) (x2 : Vec Ideal S9x9x256 .f32) (x3 : Vec Ideal S80x160x256 .bf16)
  (xt0 : TbBuf0 (F := Ideal) c tbM0_0)
  (k0_hw1 : k0_chk1 (tbM0_0.view.readAt (Elt Ideal) (Rect.unit (s := S9) ![0] S1.size inb_S9_S1_0).toLoadRect xt0 (Shape.Idx.first (numel1_S1.symm ▸ Nat.one_pos))))
  (k0_hw2 : k0_chk2 (tbM0_0.view.readAt (Elt Ideal) (Rect.unit (s := S9) ![1] S1.size inb_S9_S1_1).toLoadRect xt0 (Shape.Idx.first (numel1_S1.symm ▸ Nat.one_pos))))
  (k0_hw3 : k0_chk3 (tbM0_0.view.readAt (Elt Ideal) (Rect.unit (s := S9) ![2] S1.size inb_S9_S1_2).toLoadRect xt0 (Shape.Idx.first (numel1_S1.symm ▸ Nat.one_pos))))
  (k0_hw4 : k0_chk4 (tbM0_0.view.readAt (Elt Ideal) (Rect.unit (s := S9) ![3] S1.size inb_S9_S1_3).toLoadRect xt0 (Shape.Idx.first (numel1_S1.symm ▸ Nat.one_pos))))
  (k0_hw5 : k0_chk5 (tbM0_0.view.readAt (Elt Ideal) (Rect.unit (s := S9) ![4] S1.size inb_S9_S1_4).toLoadRect xt0 (Shape.Idx.first (numel1_S1.symm ▸ Nat.one_pos))))
  (k0_hw6 : k0_chk6 (tbM0_0.view.readAt (Elt Ideal) (Rect.unit (s := S9) ![5] S1.size inb_S9_S1_5).toLoadRect xt0 (Shape.Idx.first (numel1_S1.symm ▸ Nat.one_pos))))
  (k0_hw7 : k0_chk7 (tbM0_0.view.readAt (Elt Ideal) (Rect.unit (s := S9) ![6] S1.size inb_S9_S1_6).toLoadRect xt0 (Shape.Idx.first (numel1_S1.symm ▸ Nat.one_pos))))
  (k0_hw8 : k0_chk8 (tbM0_0.view.readAt (Elt Ideal) (Rect.unit (s := S9) ![7] S1.size inb_S9_S1_7).toLoadRect xt0 (Shape.Idx.first (numel1_S1.symm ▸ Nat.one_pos))))
  (k0_hw9 : k0_chk9 (tbM0_0.view.readAt (Elt Ideal) (Rect.unit (s := S9) ![8] S1.size inb_S9_S1_8).toLoadRect xt0 (Shape.Idx.first (numel1_S1.symm ▸ Nat.one_pos))))

/-- The index a one-row piece at row `n` names: the row, and the piece's own two coordinates. -/
theorem emb_row (n : Fin 9) (off : Fin 3 → Nat) (hoff : off = ![n.val, 0, 0])
    (inb : ∀ a, off a + S1x160x256.size a ≤ S9x160x256.size a) (u : Fin 1) (o : Fin 160) (l : Fin 256) :
    (Rect.unit (s := S9x160x256) off S1x160x256.size inb).emb (ix3 u o l) = ix3 n o l := by
  subst hoff
  funext a
  apply Fin.ext
  have hu : u.val = 0 := by omega
  match a with
  | ⟨0, _⟩ => show n.val + 1 * u.val = n.val; omega
  | ⟨1, _⟩ => show 0 + 1 * o.val = o.val; omega
  | ⟨2, _⟩ => show 0 + 1 * l.val = l.val; omega

/-- A stored row is the row of the specification's block. -/
theorem vOut_row (n : Fin 9) (off : Fin 3 → Nat) (hoff : off = ![n.val, 0, 0])
    (inb : ∀ a, off a + S1x160x256.size a ≤ S9x160x256.size a) (x : S1x160x256.Idx) :
    vOut xt0 x0 x1 x2 x3 n x
      = bodyOut xt0 x0 x1 x2 x3 ((Rect.unit (s := S9x160x256) off S1x160x256.size inb).emb x) := by
  obtain ⟨u, o, l, rfl⟩ : ∃ (u : Fin 1) (o : Fin 160) (l : Fin 256), x = ix3 u o l := ⟨x 0, x 1, x 2, eq_ix3 x⟩
  rw [emb_row n off hoff inb u o l]
  rfl

/-- The output block the run leaves, on any staging memrefs holding the blocks `x0 … x3` and the words `xt0`. -/
theorem out0_A_4_eq :
    out0_A_4 c i arg2 harg2 arg3 harg3 arg4 harg4 arg5 harg5 arg6 harg6 x0 x1 x2 x3 xt0 k0_hw1 k0_hw2 k0_hw3 k0_hw4 k0_hw5 k0_hw6 k0_hw7 k0_hw8 k0_hw9
      = bodyOut xt0 x0 x1 x2 x3 := by
  unfold out0_A_4
  rw [View.read_writes_eq_canon _ _ _ (cover0_A_4 c i arg2 harg2 arg3 harg3 arg4 harg4 arg5 harg5 arg6 harg6 x0 x1 x2 x3 xt0 k0_hw1 k0_hw2 k0_hw3 k0_hw4 k0_hw5 k0_hw6 k0_hw7 k0_hw8 k0_hw9)]
  funext y
  refine View.canon_apply_of_pieces (bodyOut xt0 x0 x1 x2 x3) _ ?_ y (cover0_A_4 c i arg2 harg2 arg3 harg3 arg4 harg4 arg5 harg5 arg6 harg6 x0 x1 x2 x3 xt0 k0_hw1 k0_hw2 k0_hw3 k0_hw4 k0_hw5 k0_hw6 k0_hw7 k0_hw8 k0_hw9 y)
  unfold kernelRun0_A
  dsimp only
  simp only [out_0_eq, out_1_eq, out_2_eq, out_3_eq, out_4_eq, out_5_eq, out_6_eq, out_7_eq, out_8_eq]
  intro p hp x
  simp only [List.mem_cons, List.mem_nil_iff, or_false] at hp
  rcases hp with rfl | rfl | rfl | rfl | rfl | rfl | rfl | rfl | rfl
  · exact vOut_row c x0 x1 x2 x3 xt0 ⟨8, by decide⟩ ![8, 0, 0] rfl inb_S9x160x256_S1x160x256_8_0_0 x
  · exact vOut_row c x0 x1 x2 x3 xt0 ⟨7, by decide⟩ ![7, 0, 0] rfl inb_S9x160x256_S1x160x256_7_0_0 x
  · exact vOut_row c x0 x1 x2 x3 xt0 ⟨6, by decide⟩ ![6, 0, 0] rfl inb_S9x160x256_S1x160x256_6_0_0 x
  · exact vOut_row c x0 x1 x2 x3 xt0 ⟨5, by decide⟩ ![5, 0, 0] rfl inb_S9x160x256_S1x160x256_5_0_0 x
  · exact vOut_row c x0 x1 x2 x3 xt0 ⟨4, by decide⟩ ![4, 0, 0] rfl inb_S9x160x256_S1x160x256_4_0_0 x
  · exact vOut_row c x0 x1 x2 x3 xt0 ⟨3, by decide⟩ ![3, 0, 0] rfl inb_S9x160x256_S1x160x256_3_0_0 x
  · exact vOut_row c x0 x1 x2 x3 xt0 ⟨2, by decide⟩ ![2, 0, 0] rfl inb_S9x160x256_S1x160x256_2_0_0 x
  · exact vOut_row c x0 x1 x2 x3 xt0 ⟨1, by decide⟩ ![1, 0, 0] rfl inb_S9x160x256_S1x160x256_1_0_0 x
  · exact vOut_row c x0 x1 x2 x3 xt0 ⟨0, by decide⟩ ![0, 0, 0] rfl inb_S9x160x256_S1x160x256_0_0_0 x

end Point

/-- At every grid point the output's staging buffer holds the specification's block of the point's
    input blocks and the prefetched words. -/
theorem outsAt0_eq (m : (ℓ : Loc nD τ sig) → Buf (Elt Ideal) ℓ) (hO : Ok m) (hH : Hyps m hO) (c : Dev nD)
    (t : Fin (cfgM m hO).N) :
    outsAt0 m hO hH c t
      = bodyOut (tbl m 0) (iblk m hO c 0 t) (iblk m hO c 1 t) (iblk m hO c 2 t) (iblk m hO c 3 t) := by
  unfold outsAt0
  exact out0_A_4_eq ..

end Cert.KernelIdeal.KBody

end
-- ==== Proof.KHost.lean ====
/-
  The host operations around the region, read at one entry on the extended reals. Before the region
  each argument array is transposed so that the branch axis comes last (entry `(i, j, p)` of the
  transposed array is entry `(p, i, j)` of the argument); the two weight arrays are also narrowed to
  half precision, which changes nothing on the extended reals. After the region the result is
  transposed back (entry `(p, n, o)` of the result is entry `(n, o, p)` of the region's output).
-/
import proofs.«408013_j76982993813545_3_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.KHost

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The embedding tables as the region finds them: transposed. -/
theorem V_main_v0 (c : Dev nD) (j : S9x40x2048.Idx) :
    V m c main_v0 j = m ((c : Thread nD τ).loc main_arg1) (ix3 (j 2) (j 0) (j 1)) := by
  have e : (V m c main_v0 : S9x40x2048.Idx → EReal)
      = transpose S9x40x2048 [1, 2, 0] (m ((c : Thread nD τ).loc main_arg1) : S2048x9x40.Idx → EReal)
          Facts₀.transposes_S2048x9x40_S9x40x2048_1_2_0 := by
    show StableHlo.after hostOps0 (fun b => m (c, b)) (Proc.devRef .tc main_v0) = _
    after_results
  refine (congrFun e j).trans ?_
  exact transpose_apply _ _ _ j (ix3 (j 2) (j 0) (j 1)) fun b =>
    match b with | ⟨0, _⟩ => rfl | ⟨1, _⟩ => rfl | ⟨2, _⟩ => rfl

/-- The first weight array as the region finds it: transposed (and narrowed, the identity here). -/
theorem V_main_v2 (c : Dev nD) (j : S40x80x2048.Idx) :
    V m c main_v2 j = m ((c : Thread nD τ).loc main_arg2) (ix3 (j 2) (j 0) (j 1)) := by
  have e : (V m c main_v2 : S40x80x2048.Idx → EReal)
      = truncf (F := Ideal) .bf16
          (transpose S40x80x2048 [1, 2, 0] (m ((c : Thread nD τ).loc main_arg2) : S2048x40x80.Idx → EReal)
            Facts₀.transposes_S2048x40x80_S40x80x2048_1_2_0 : FVec Ideal S40x80x2048 .f32)
          Facts₀.bitsLt_bf16_f32 := by
    show StableHlo.after hostOps0 (fun b => m (c, b)) (Proc.devRef .tc main_v2) = _
    after_results
  refine (congrFun e j).trans ?_
  rw [truncf_apply]
  exact transpose_apply _ _ _ j (ix3 (j 2) (j 0) (j 1)) fun b =>
    match b with | ⟨0, _⟩ => rfl | ⟨1, _⟩ => rfl | ⟨2, _⟩ => rfl

/-- The mixing matrices as the region finds them: transposed. -/
theorem V_main_v3 (c : Dev nD) (j : S9x9x2048.Idx) :
    V m c main_v3 j = m ((c : Thread nD τ).loc main_arg4) (ix3 (j 2) (j 0) (j 1)) := by
  have e : (V m c main_v3 : S9x9x2048.Idx → EReal)
      = transpose S9x9x2048 [1, 2, 0] (m ((c : Thread nD τ).loc main_arg4) : S2048x9x9.Idx → EReal)
          Facts₀.transposes_S2048x9x9_S9x9x2048_1_2_0 := by
    show StableHlo.after hostOps0 (fun b => m (c, b)) (Proc.devRef .tc main_v3) = _
    after_results
  refine (congrFun e j).trans ?_
  exact transpose_apply _ _ _ j (ix3 (j 2) (j 0) (j 1)) fun b =>
    match b with | ⟨0, _⟩ => rfl | ⟨1, _⟩ => rfl | ⟨2, _⟩ => rfl

/-- The second weight array as the region finds it: transposed (and narrowed, the identity here). -/
theorem V_main_v5 (c : Dev nD) (j : S80x160x2048.Idx) :
    V m c main_v5 j = m ((c : Thread nD τ).loc main_arg3) (ix3 (j 2) (j 0) (j 1)) := by
  have e : (V m c main_v5 : S80x160x2048.Idx → EReal)
      = truncf (F := Ideal) .bf16
          (transpose S80x160x2048 [1, 2, 0] (m ((c : Thread nD τ).loc main_arg3) : S2048x80x160.Idx → EReal)
            Facts₀.transposes_S2048x80x160_S80x160x2048_1_2_0 : FVec Ideal S80x160x2048 .f32)
          Facts₀.bitsLt_bf16_f32 := by
    show StableHlo.after hostOps0 (fun b => m (c, b)) (Proc.devRef .tc main_v5) = _
    after_results
  refine (congrFun e j).trans ?_
  rw [truncf_apply]
  exact transpose_apply _ _ _ j (ix3 (j 2) (j 0) (j 1)) fun b =>
    match b with | ⟨0, _⟩ => rfl | ⟨1, _⟩ => rfl | ⟨2, _⟩ => rfl

/-- The program's result after the lines that follow the region: the region's output array, transposed back. -/
theorem tail_main_v7 (hO : Ok m)
    (dats : (p : Fin 1) → (c : Dev nD) → Pipeline.Dat τ (Elt Ideal) Unit ℕ (UR sig nD τ) ℕ ((Pipeline.pin pcfgs fun _ => adm m hO) p) c)
    (c : Dev nD) (j : S2048x9x160.Idx) :
    Pipeline.afterTail pcfgs (fun _ => adm m hO) dats 0 (V0 m) [hostOps1] c main_v7 j
      = (dats 0 c).arrAt 4 (cfgM m hO).N (ix3 (j 1) (j 2) (j 0)) := by
  unfold Pipeline.afterTail
  show StableHlo.after hostOps1 _ (Proc.devRef .tc main_v7) j = _
  after_results
  have hw : Pipeline.withArrays (Pipeline.pin pcfgs (fun _ => adm m hO) 0).spec c (V0 m c)
      (fun w => (dats 0 c).arrAt w (Pipeline.pin pcfgs (fun _ => adm m hO) 0).N) (Proc.devRef .tc main_v6)
      = (dats 0 c).arrAt 4 (cfgM m hO).N :=
    Pipeline.withArrays_arr spec0 (launch0 (F := Ideal)).win.arr_inj c _ _ 4
  rw [hw]
  exact transpose_apply _ _ _ j (ix3 (j 1) (j 2) (j 0)) fun b =>
    match b with | ⟨0, _⟩ => rfl | ⟨1, _⟩ => rfl | ⟨2, _⟩ => rfl

end Cert.KernelIdeal.KHost

end
-- ==== Proof.KRun.lean ====
/-
  The idealized kernel program runs to the specification's array. Under the precondition the
  generated frame run applies; it leaves the region's output array at what the grid points wrote
  back. Point `t` writes the block of lanes `256 t … 256 t + 255`, which holds the specification's
  block of the point's input blocks; an input block at lane `l` is the transposed argument at branch
  `256 t + l`; the eight blocks tile the branch axis. The line after the region transposes the output
  back, so the result at `(p, n, o)` is branch `p`'s result row `n`, entry `o`.
-/
import proofs.«408013_j76982993813545_3_alg».proof.Defs
import proofs.«408013_j76982993813545_3_alg».proof.Proof.Gen.KernelIdeal.Frame
import proofs.«408013_j76982993813545_3_alg».proof.Proof.KBody
import proofs.«408013_j76982993813545_3_alg».proof.Proof.KHost
import proofs.«408013_j76982993813545_3_alg».proof.Proof.KernelIdealHyps
import proofs.«408013_j76982993813545_3_alg».proof.Proof.PreFacts
import proofs.«408013_j76982993813545_3_alg».proof.Proof.Spec
import Idealize.ShloMosaic.Lib.Pipeline.Value

noncomputable section

namespace Cert.KernelIdeal.KRun

open Idealize.ShloMosaic Idealize.ShloMosaic.TcCoe Idealize.ShloMosaic.ValueIdx Idealize.SL.Sem Cert.KernelIdeal Cert.KernelIdeal.Gen

section Lemmas

variable (m : (ℓ : Loc nD τ sig) → Buf (Elt Ideal) ℓ)

/-! ## The block index maps -/

/-- Every window's block index at grid point `t` is `(0, 0, t)`: the blocks run along the branch axis. -/
theorem idx_facts : ∀ t : Fin grid0.N,
    (cc0_transform_0 (grid0.coords t) (0 : Fin 3) = 0 ∧ cc0_transform_0 (grid0.coords t) (1 : Fin 3) = 0 ∧ cc0_transform_0 (grid0.coords t) (2 : Fin 3) = t.val)
    ∧ (cc0_transform_1 (grid0.coords t) (0 : Fin 3) = 0 ∧ cc0_transform_1 (grid0.coords t) (1 : Fin 3) = 0 ∧ cc0_transform_1 (grid0.coords t) (2 : Fin 3) = t.val)
    ∧ (cc0_transform_2 (grid0.coords t) (0 : Fin 3) = 0 ∧ cc0_transform_2 (grid0.coords t) (1 : Fin 3) = 0 ∧ cc0_transform_2 (grid0.coords t) (2 : Fin 3) = t.val)
    ∧ (cc0_transform_3 (grid0.coords t) (0 : Fin 3) = 0 ∧ cc0_transform_3 (grid0.coords t) (1 : Fin 3) = 0 ∧ cc0_transform_3 (grid0.coords t) (2 : Fin 3) = t.val)
    ∧ (cc0_transform_4 (grid0.coords t) (0 : Fin 3) = 0 ∧ cc0_transform_4 (grid0.coords t) (1 : Fin 3) = 0 ∧ cc0_transform_4 (grid0.coords t) (2 : Fin 3) = t.val) := by
  decide +kernel

/-! ## The input blocks: lane `l` of point `t` is branch `256 t + l` -/

/-- The embedding block: entry `(v, f, l)` is entry `(p, v, f)` of the argument at branch `p = 256 t + l`. -/
theorem blkE (hO : Ok m) (c : Dev nD) (t : Fin (cfgM m hO).N) (v : Fin 9) (f : Fin 40) (l : Fin 256) (p : Fin 2048)
    (hp : p.val = 256 * t.val + l.val) :
    (iblk m hO c 0 t : S9x40x256.Idx → EReal) (ix3 v f l)
      = (m ((c : Thread nD τ).loc main_arg1) : S2048x9x40.Idx → EReal) (ix3 p v f) := by
  obtain ⟨⟨e0, e1, e2⟩, -⟩ := idx_facts t
  unfold iblk
  show V m c main_v0 _ = _
  refine (KHost.V_main_v0 m c _).trans (congrArg _ ?_)
  funext a
  apply Fin.ext
  match a with
  | ⟨0, _⟩ => show cc0_transform_0 (grid0.coords t) (2 : Fin 3) * 256 + 1 * l.val = p.val; rw [e2, hp]; omega
  | ⟨1, _⟩ => show cc0_transform_0 (grid0.coords t) (0 : Fin 3) * 9 + 1 * v.val = v.val; rw [e0]; omega
  | ⟨2, _⟩ => show cc0_transform_0 (grid0.coords t) (1 : Fin 3) * 40 + 1 * f.val = f.val; rw [e1]; omega

/-- The first weight block: entry `(f, h, l)` is entry `(p, f, h)` of the argument at branch `p = 256 t + l`. -/
theorem blkW1 (hO : Ok m) (c : Dev nD) (t : Fin (cfgM m hO).N) (f : Fin 40) (h : Fin 80) (l : Fin 256) (p : Fin 2048)
    (hp : p.val = 256 * t.val + l.val) :
    (iblk m hO c 1 t : S40x80x256.Idx → EReal) (ix3 f h l)
      = (m ((c : Thread nD τ).loc main_arg2) : S2048x40x80.Idx → EReal) (ix3 p f h) := by
  obtain ⟨-, ⟨e0, e1, e2⟩, -⟩ := idx_facts t
  unfold iblk
  show V m c main_v2 _ = _
  refine (KHost.V_main_v2 m c _).trans (congrArg _ ?_)
  funext a
  apply Fin.ext
  match a with
  | ⟨0, _⟩ => show cc0_transform_1 (grid0.coords t) (2 : Fin 3) * 256 + 1 * l.val = p.val; rw [e2, hp]; omega
  | ⟨1, _⟩ => show cc0_transform_1 (grid0.coords t) (0 : Fin 3) * 40 + 1 * f.val = f.val; rw [e0]; omega
  | ⟨2, _⟩ => show cc0_transform_1 (grid0.coords t) (1 : Fin 3) * 80 + 1 * h.val = h.val; rw [e1]; omega

/-- The mixing block: entry `(n, k, l)` is entry `(p, n, k)` of the argument at branch `p = 256 t + l`. -/
theorem blkA (hO : Ok m) (c : Dev nD) (t : Fin (cfgM m hO).N) (n k : Fin 9) (l : Fin 256) (p : Fin 2048)
    (hp : p.val = 256 * t.val + l.val) :
    (iblk m hO c 2 t : S9x9x256.Idx → EReal) (ix3 n k l)
      = (m ((c : Thread nD τ).loc main_arg4) : S2048x9x9.Idx → EReal) (ix3 p n k) := by
  obtain ⟨-, -, ⟨e0, e1, e2⟩, -⟩ := idx_facts t
  unfold iblk
  show V m c main_v3 _ = _
  refine (KHost.V_main_v3 m c _).trans (congrArg _ ?_)
  funext a
  apply Fin.ext
  match a with
  | ⟨0, _⟩ => show cc0_transform_2 (grid0.coords t) (2 : Fin 3) * 256 + 1 * l.val = p.val; rw [e2, hp]; omega
  | ⟨1, _⟩ => show cc0_transform_2 (grid0.coords t) (0 : Fin 3) * 9 + 1 * n.val = n.val; rw [e0]; omega
  | ⟨2, _⟩ => show cc0_transform_2 (grid0.coords t) (1 : Fin 3) * 9 + 1 * k.val = k.val; rw [e1]; omega

/-- The second weight block: entry `(h, o, l)` is entry `(p, h, o)` of the argument at branch `p = 256 t + l`. -/
theorem blkW2 (hO : Ok m) (c : Dev nD) (t : Fin (cfgM m hO).N) (h : Fin 80) (o : Fin 160) (l : Fin 256) (p : Fin 2048)
    (hp : p.val = 256 * t.val + l.val) :
    (iblk m hO c 3 t : S80x160x256.Idx → EReal) (ix3 h o l)
      = (m ((c : Thread nD τ).loc main_arg3) : S2048x80x160.Idx → EReal) (ix3 p h o) := by
  obtain ⟨-, -, -, ⟨e0, e1, e2⟩, -⟩ := idx_facts t
  unfold iblk
  show V m c main_v5 _ = _
  refine (KHost.V_main_v5 m c _).trans (congrArg _ ?_)
  funext a
  apply Fin.ext
  match a with
  | ⟨0, _⟩ => show cc0_transform_3 (grid0.coords t) (2 : Fin 3) * 256 + 1 * l.val = p.val; rw [e2, hp]; omega
  | ⟨1, _⟩ => show cc0_transform_3 (grid0.coords t) (0 : Fin 3) * 80 + 1 * h.val = h.val; rw [e0]; omega
  | ⟨2, _⟩ => show cc0_transform_3 (grid0.coords t) (1 : Fin 3) * 160 + 1 * o.val = o.val; rw [e1]; omega

/-- The index words the body reads are the launch memory's. -/
theorem words_eq (c : Dev nD) : tbl m 0 = m ((c : Thread nD τ).loc main_arg0) := by
  obtain rfl : c = 0 := Subsingleton.elim _ _
  exact V_main_arg0 m 0

/-! ## The region's output array as one function of the arguments -/

/-- The region's output array, branch axis last: entry `(n, o, p)` is branch `p`'s result row `n`, entry `o`. -/
def outArr (c : Dev nD) : S9x160x2048.Idx → EReal := fun i =>
  Cert.Gcn.kOut KSpec.cw
    (fun n => Cert.Gcn.nodeOf ((m ((c : Thread nD τ).loc main_arg0) : S9.Idx → BitVec 32) (ix1 n)))
    (fun v f => (m ((c : Thread nD τ).loc main_arg1) : S2048x9x40.Idx → EReal) (ix3 (i 2) v f))
    (fun f h => (m ((c : Thread nD τ).loc main_arg2) : S2048x40x80.Idx → EReal) (ix3 (i 2) f h))
    (fun h o => (m ((c : Thread nD τ).loc main_arg3) : S2048x80x160.Idx → EReal) (ix3 (i 2) h o))
    (fun n k => (m ((c : Thread nD τ).loc main_arg4) : S2048x9x9.Idx → EReal) (ix3 (i 2) n k))
    (i 0) (i 1)

/-- The body's block at point `t`, at lane `l`, is the output array at branch `256 t + l`. -/
theorem body_at (hO : Ok m) (c : Dev nD) (t : Fin (cfgM m hO).N) (n : Fin 9) (o : Fin 160) (l : Fin 256) (p : Fin 2048)
    (hp : p.val = 256 * t.val + l.val) :
    KSpec.bodyOut (tbl m 0) (iblk m hO c 0 t) (iblk m hO c 1 t) (iblk m hO c 2 t) (iblk m hO c 3 t) (ix3 n o l)
      = outArr m c (ix3 n o p) := by
  have hn : KSpec.nd (tbl m 0) = fun n => Cert.Gcn.nodeOf ((m ((c : Thread nD τ).loc main_arg0) : S9.Idx → BitVec 32) (ix1 n)) := by
    unfold KSpec.nd; rw [words_eq m c]
  have hE : KSpec.bE (iblk m hO c 0 t) l = fun v f => (m ((c : Thread nD τ).loc main_arg1) : S2048x9x40.Idx → EReal) (ix3 p v f) :=
    funext fun v => funext fun f => blkE m hO c t v f l p hp
  have hW1 : KSpec.bW1 (iblk m hO c 1 t) l = fun f h => (m ((c : Thread nD τ).loc main_arg2) : S2048x40x80.Idx → EReal) (ix3 p f h) :=
    funext fun f => funext fun h => blkW1 m hO c t f h l p hp
  have hW2 : KSpec.bW2 (iblk m hO c 3 t) l = fun h o => (m ((c : Thread nD τ).loc main_arg3) : S2048x80x160.Idx → EReal) (ix3 p h o) :=
    funext fun h => funext fun o => blkW2 m hO c t h o l p hp
  have hA : KSpec.bA (iblk m hO c 2 t) l = fun n k => (m ((c : Thread nD τ).loc main_arg4) : S2048x9x9.Idx → EReal) (ix3 p n k) :=
    funext fun n => funext fun k => blkA m hO c t n k l p hp
  show Cert.Gcn.kOut KSpec.cw (KSpec.nd (tbl m 0)) (KSpec.bE (iblk m hO c 0 t) l) (KSpec.bW1 (iblk m hO c 1 t) l)
      (KSpec.bW2 (iblk m hO c 3 t) l) (KSpec.bA (iblk m hO c 2 t) l) n o = _
  rw [hn, hE, hW1, hW2, hA]
  rfl

/-! ## What each point writes back, and the array the region leaves -/

/-- The grid has eight points. -/
theorem N_eq (hO : Ok m) : (cfgM m hO).N = 8 := N_0

/-- The body's block at point `t` is the output array read through the point's block. -/
theorem body_blk (hO : Ok m) (c : Dev nD) (t : Fin (cfgM m hO).N) (y : S9x160x256.Idx) :
    KSpec.bodyOut (tbl m 0) (iblk m hO c 0 t) (iblk m hO c 1 t) (iblk m hO c 2 t) (iblk m hO c 3 t) y
      = outArr m c ((((cfgM m hO).win 4).blk t).view.emb y) := by
  obtain ⟨n, o, l, rfl⟩ : ∃ (n : Fin 9) (o : Fin 160) (l : Fin 256), y = ix3 n o l := ⟨y 0, y 1, y 2, eq_ix3 y⟩
  have ht : t.val < 8 := (N_eq m hO) ▸ t.isLt
  have hl : l.val < 256 := l.isLt
  obtain ⟨-, -, -, -, e0, e1, e2⟩ := idx_facts t
  have he : (((cfgM m hO).win 4).blk t).view.emb (ix3 n o l)
      = (ix3 n o (⟨256 * t.val + l.val, by omega⟩ : Fin 2048) : S9x160x2048.Idx) := by
    funext a
    apply Fin.ext
    match a with
    | ⟨0, _⟩ => show cc0_transform_4 (grid0.coords t) (0 : Fin 3) * 9 + 1 * n.val = n.val; rw [e0]; omega
    | ⟨1, _⟩ => show cc0_transform_4 (grid0.coords t) (1 : Fin 3) * 160 + 1 * o.val = o.val; rw [e1]; omega
    | ⟨2, _⟩ => show cc0_transform_4 (grid0.coords t) (2 : Fin 3) * 256 + 1 * l.val = 256 * t.val + l.val; rw [e2]; omega
  rw [he]
  exact body_at m hO c t n o l _ rfl

/-- What point `t` writes back is block `t` of the output array. -/
theorem flushed_eq (hO : Ok m) (hH : Hyps m hO) (c : Dev nD) (t : Fin (cfgM m hO).N) :
    (dats m hO hH 0 c).flushed 4 t = (((cfgM m hO).win 4).blk t).view.read (Elt Ideal) (outArr m c) := by
  show ((cfgM m hO).win 4).cut ((cfgM m hO).grid.coords t) ((dats m hO hH 0 c).after 4 t) = _
  rw [after0_4, KBody.outsAt0_eq]
  funext y
  exact body_blk m hO c t y

/-- An index of the output array is in point `t`'s block iff each coordinate is in the block's range on its axis. -/
theorem mem_blk (hO : Ok m) (t : Fin (cfgM m hO).N) (i : S9x160x2048.Idx) :
    i ∈ (((cfgM m hO).win 4).blk t).view.set
      ↔ ∀ a : Fin 3, cc0_transform_4 (grid0.coords t) a * S9x160x256.size a ≤ (i a).val
          ∧ (i a).val < cc0_transform_4 (grid0.coords t) a * S9x160x256.size a + S9x160x256.size a := by
  have e : (((cfgM m hO).win 4).blk t).view.set = (((cfgM m hO).win 4).rect t).set := View.set_slice_whole main_v6 _
  rw [e]
  exact Rect.mem_set_unit

/-- The eight blocks tile the branch axis: branch `p` lies in the block of point `p / 256`. -/
theorem cover (hO : Ok m) (i : S9x160x2048.Idx) :
    ∃ t : Fin (cfgM m hO).N, ((cfgM m hO).win 4).flush t = true ∧ i ∈ (((cfgM m hO).win 4).blk t).view.set := by
  have h0 : (i 0).val < 9 := (i 0).isLt
  have h1 : (i 1).val < 160 := (i 1).isLt
  have h2 : (i 2).val < 2048 := (i 2).isLt
  have hq : (i 2).val / 256 < (cfgM m hO).N := by rw [N_eq]; omega
  obtain ⟨-, -, -, -, e0, e1, e2⟩ := idx_facts ⟨(i 2).val / 256, hq⟩
  refine ⟨⟨(i 2).val / 256, hq⟩, flush0_4 (adm m hO) _, ?_⟩
  rw [mem_blk]
  intro a
  match a with
  | ⟨0, _⟩ =>
    show cc0_transform_4 (grid0.coords ⟨(i 2).val / 256, hq⟩) (0 : Fin 3) * 9 ≤ (i 0).val
      ∧ (i 0).val < cc0_transform_4 (grid0.coords ⟨(i 2).val / 256, hq⟩) (0 : Fin 3) * 9 + 9
    rw [e0]; omega
  | ⟨1, _⟩ =>
    show cc0_transform_4 (grid0.coords ⟨(i 2).val / 256, hq⟩) (1 : Fin 3) * 160 ≤ (i 1).val
      ∧ (i 1).val < cc0_transform_4 (grid0.coords ⟨(i 2).val / 256, hq⟩) (1 : Fin 3) * 160 + 160
    rw [e1]; omega
  | ⟨2, _⟩ =>
    show cc0_transform_4 (grid0.coords ⟨(i 2).val / 256, hq⟩) (2 : Fin 3) * 256 ≤ (i 2).val
      ∧ (i 2).val < cc0_transform_4 (grid0.coords ⟨(i 2).val / 256, hq⟩) (2 : Fin 3) * 256 + 256
    rw [e2]
    show (i 2).val / 256 * 256 ≤ (i 2).val ∧ (i 2).val < (i 2).val / 256 * 256 + 256
    omega

/-- The region leaves its output array at `outArr`. -/
theorem final (hO : Ok m) (hH : Hyps m hO) (c : Dev nD) :
    (dats m hO hH 0 c).arrAt 4 (cfgM m hO).N = outArr m c :=
  (dats m hO hH 0 c).arrAt_eq_of_cover 4 (outArr m c) (fun t _ => flushed_eq m hO hH c t) (cover m hO)

/-! ## The line after the region, and the run -/

/-- The program's result: the output array transposed back is the specification's array. -/
theorem result_eq (hO : Ok m) (hH : Hyps m hO) (c : Dev nD) :
    Pipeline.afterTail pcfgs (fun _ => adm m hO) (dats m hO hH) 0 (V0 m) [hostOps1] c main_v7
      = Cert.Gcn.kerArr KSpec.cw (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  funext j
  refine (KHost.tail_main_v7 m hO (dats m hO hH) c j).trans ?_
  rw [final m hO hH c]
  rfl

end Lemmas

/-- Under the precondition every weakly fair execution of the idealized kernel program terminates with its
    result at the specification's array (the kernel's order of sums) of the argument arrays, and the
    arguments unchanged. -/
theorem run (m : (ℓ : Loc nD τ sig) → Buf (Elt Ideal) ℓ) (ρ : Dev nD → PrngReg) (h : Cert.Pre_KernelIdeal m) :
    θ_run (defs (F := Ideal)) (onTc (τ := τ) (main (F := Ideal))) ⟨m, fun _ => 0, ρ⟩ fun r => ∀ c : Dev nD,
      r.2.mem ((c.tc : Thread nD τ).loc main_v7)
          = Cert.Gcn.kerArr KSpec.cw (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have hO := PreHyps.ok_of_pre m h
  have hH := PreHyps.hyps_of_pre m h hO
  exact (θ_run defs _ _).mono (fun _ hr c =>
    ⟨((hr c).2 main_v7 (by decide : main_v7 ∈ Pipeline.restRefs sig spec0)).trans (result_eq m hO hH c),
      ((hr c).2 main_arg0 (by decide : main_arg0 ∈ Pipeline.restRefs sig spec0)).trans (W_main_arg0 m hO (dats m hO hH) c),
      ((hr c).2 main_arg1 (by decide : main_arg1 ∈ Pipeline.restRefs sig spec0)).trans (W_main_arg1 m hO (dats m hO hH) c),
      ((hr c).2 main_arg2 (by decide : main_arg2 ∈ Pipeline.restRefs sig spec0)).trans (W_main_arg2 m hO (dats m hO hH) c),
      ((hr c).2 main_arg3 (by decide : main_arg3 ∈ Pipeline.restRefs sig spec0)).trans (W_main_arg3 m hO (dats m hO hH) c),
      ((hr c).2 main_arg4 (by decide : main_arg4 ∈ Pipeline.restRefs sig spec0)).trans (W_main_arg4 m hO (dats m hO hH) c)⟩)
    (run_main m ρ hO hH)

end Cert.KernelIdeal.KRun

end
-- ==== Proof.lean ====
/-
  The certificate's claims, assembled.

  Both programs compute, branch by branch, a two-layer graph network on nine nodes: gather a row of
  the branch's embedding table per node, then twice mix the nodes with the branch's 9 × 9 matrix,
  apply a weight matrix and the leaky rectifier. The kernel mixes first and applies the weights
  second; the reference applies the weights first. On real entries the two orders give the same
  sums, which is where the precondition's finiteness is used; its other conjunct, every node's index
  word in `[0, 9)`, is what lets the kernel's row loads stay inside the table block and makes both
  gathers read the row the word names.

  The three frames: the two kernel programs by their generated frames, whose side conditions (the nine
  row loads in range) follow from the precondition; the reference by its run. The idealization rewrote
  nothing. The value claim: the kernel's run ends at the specification's array in the kernel's order
  of sums, the reference's at the same array in its own order, and the two arrays are equal.
-/
import proofs.«408013_j76982993813545_3_alg».proof.Defs
import proofs.«408013_j76982993813545_3_alg».proof.Proof.Gen.Kernel
import proofs.«408013_j76982993813545_3_alg».proof.Proof.Gen.Kernel.Frame
import proofs.«408013_j76982993813545_3_alg».proof.Proof.Gen.KernelIdeal
import proofs.«408013_j76982993813545_3_alg».proof.Proof.Gen.KernelIdeal.Frame
import proofs.«408013_j76982993813545_3_alg».proof.Proof.Gen.ReferenceIdeal
import proofs.«408013_j76982993813545_3_alg».proof.Proof.Gen.Pre_finite_inputs
import proofs.«408013_j76982993813545_3_alg».proof.Proof.Spec
import proofs.«408013_j76982993813545_3_alg».proof.Proof.Algebra
import proofs.«408013_j76982993813545_3_alg».proof.Proof.Slope
import proofs.«408013_j76982993813545_3_alg».proof.Proof.PreFacts
import proofs.«408013_j76982993813545_3_alg».proof.Proof.KernelHyps
import proofs.«408013_j76982993813545_3_alg».proof.Proof.KernelIdealHyps
import proofs.«408013_j76982993813545_3_alg».proof.Proof.RefRun
import proofs.«408013_j76982993813545_3_alg».proof.Proof.RefValue
import proofs.«408013_j76982993813545_3_alg».proof.Proof.KRun

noncomputable section

namespace Cert.Proof

open Idealize.ShloMosaic Idealize.ShloMosaic.TcCoe Idealize.SL.Sem

theorem frame_k : Cert.frame_Kernel := fun m ρ h =>
  Cert.Kernel.Gen.frame m ρ (Cert.Kernel.PreHyps.ok_of_pre m h) (Cert.Kernel.PreHyps.hyps_of_pre m h _)

theorem frame_ki : Cert.frame_KernelIdeal := fun m ρ h =>
  Cert.KernelIdeal.Gen.frame m ρ (Cert.KernelIdeal.PreHyps.ok_of_pre m h) (Cert.KernelIdeal.PreHyps.hyps_of_pre m h _)

theorem frame_ri : Cert.frame_ReferenceIdeal := fun m ρ _ =>
  (θ_run Cert.ReferenceIdeal.defs _ _).mono (fun _ h c => (h c).2) (Cert.ReferenceIdeal.RefValue.run (F := Ideal) m ρ)

/-- From memories that agree on the arguments the two idealized programs end with the same result:
    the specification's array, in the kernel's order of sums on one side and in the reference's on the
    other, equal because every float entry is a real number. -/
theorem algebraic : Cert.algebraic_KernelIdeal_ReferenceIdeal := by
  intro m ρ m' ρ' hpre hagree
  refine ⟨_, Cert.KernelIdeal.KRun.run m ρ hpre, ?_⟩
  refine (θ_run Cert.ReferenceIdeal.defs _ _).mono (fun _ h c => ⟨(h c).1.trans ?_, (h c).2⟩)
    (Cert.ReferenceIdeal.RefValue.run (F := Ideal) m' ρ')
  obtain ⟨a0, a1, a2, a3, a4⟩ := hagree c
  rw [a0, a1, a2, a3, a4]
  have hp := hpre c
  rw [Cert.ReferenceIdeal.RefValue.result_eq _ _ _ _ _ (Cert.Gcn.PreFacts.x_lt _ _ _ _ _ hp)]
  obtain ⟨s, hs⟩ := Cert.Gcn.slope_real
  show Cert.Gcn.refArr (Ideal.ofBits .f32 0x3E4CCCCD#32) _ _ _ _ _ = Cert.Gcn.kerArr (Ideal.ofBits .f32 0x3E4CCCCD#32) _ _ _ _ _
  rw [hs]
  exact (Cert.Gcn.kerArr_eq_refArr s _ _ _ _ _ (Cert.Gcn.PreFacts.emb_real _ _ _ _ _ hp)
    (Cert.Gcn.PreFacts.w1_real _ _ _ _ _ hp) (Cert.Gcn.PreFacts.w2_real _ _ _ _ _ hp)
    (Cert.Gcn.PreFacts.a_real _ _ _ _ _ hp)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
